-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x384x64 : Shape := ⟨3, ![4, 384, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S4x384x64 : S_.BroadcastsInDim S4x384x64 (![] : Fin 0 → Fin S4x384x64.rank)
  reducesTo_S4x384x64_S_d0_1_2 : S4x384x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg21
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg18 : FVec F S128x64 .f32) (main_arg19 : FVec F S64 .f32) (main_arg20 : FVec F S64x1 .f32) (main_arg21 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128x64 .f32 := Host.absf main_arg18
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg20
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S128x64 .f32) (main_arg15 : FVec F S64 .f32) (main_arg16 : FVec F S64x64 .f32) (main_arg17 : FVec F S64 .f32) (main_arg18 : FVec F S128x64 .f32) (main_arg19 : FVec F S64 .f32) (main_arg20 : FVec F S64x1 .f32) (main_arg21 : FVec F S1 .f32) (main_v63 : IVec S_ 1) (main_v67 : IVec S_ 1) : IVec S_ 1 :=
  let main_v68 : IVec S_ 1 := andi main_v63 main_v67
  let main_v69 : FVec F S128x64 .f32 := Host.absf main_arg14
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S128x64 .f32) (main_arg19 : FVec F S64 .f32) (main_arg20 : FVec F S64x1 .f32) (main_arg21 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S128x64 .f32) (main_arg19 : FVec F S64 .f32) (main_arg20 : FVec F S64x1 .f32) (main_arg21 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S64x64 .f32) (main_arg5 : FVec F S64 .f32) (main_arg6 : FVec F S128x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S128x64 .f32) (main_arg19 : FVec F S64 .f32) (main_arg20 : FVec F S64x1 .f32) (main_arg21 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S4x384x64 .f32) (main_arg1 : FVec F S4x384x64 .f32) (main_arg2 : FVec F S128x64 .f32) (main_arg3 : FVec F S64 .f32) (main_arg4 : FVec F S64x64 .f32) (main_arg5 : FVec F S64 .f32) (main_arg6 : FVec F S128x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_arg18 : FVec F S128x64 .f32) (main_arg19 : FVec F S64 .f32) (main_arg20 : FVec F S64x1 .f32) (main_arg21 : FVec F S1 .f32) : IVec S_ 1 :=
  let main_v0 : FVec F S4x384x64 .f32 := Host.absf main_arg0
  let main_cst : FVec F S_ .f32 := constant S_ .f32 0x7F800000#32
  let main_v1 : FVec F S4x384x64 .f32 := broadcastInDim S4x384x64 ![] bcast_S_S4x384x64 main_cst
  let main_v2 : IVec S4x384x64 1 := cmpf .olt main_v0 main_v1
  let main_c : IVec S_ 1 := constantI S_ 1 1#1
  let main_v3 : IVec S_ 1 := (fun x v => Host.reduce IntOp.andi x v reducesTo_S4x384x64_S_d0_1_2 h_S_) main_v2 main_c
  let main_v4 : FVec F S4x384x64 .f32 := Host.absf main_arg1
  let main_cst_0 : FVec F S_ .f32 := constant S_ .f32 0x7F800000#32
  let main_v5 : FVec F S4x384x64 .f32 := broadcastInDim S4x384x64 ![] bcast_S_S4x384x64 main_cst_0
  let main_v6 : IVec S4x384x64 1 := cmpf .olt main_v4 main_v5
  let main_c_1 : IVec S_ 1 := constantI S_ 1 1#1
  let main_v7 : IVec S_ 1 := (fun x v => Host.reduce IntOp.andi x v reducesTo_S4x384x64_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S4x384x64 : Shape := ⟨3, ![4, 384, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x4x384x64 : Shape := ⟨4, ![1, 4, 384, 64]⟩
abbrev S2x4x384x64 : Shape := ⟨4, ![2, 4, 384, 64]⟩
abbrev S1x128x64 : Shape := ⟨3, ![1, 128, 64]⟩
abbrev S2x128x64 : Shape := ⟨3, ![2, 128, 64]⟩
abbrev S1x64 : Shape := ⟨2, ![1, 64]⟩
abbrev S2x64 : Shape := ⟨2, ![2, 64]⟩
abbrev S2x1x64 : Shape := ⟨3, ![2, 1, 64]⟩
abbrev S1x64x64 : Shape := ⟨3, ![1, 64, 64]⟩
abbrev S2x64x64 : Shape := ⟨3, ![2, 64, 64]⟩
abbrev S2x4x64 : Shape := ⟨3, ![2, 4, 64]⟩
abbrev S1x4x16x64 : Shape := ⟨4, ![1, 4, 16, 64]⟩
abbrev S1x1x64 : Shape := ⟨3, ![1, 1, 64]⟩
abbrev S1x4x64 : Shape := ⟨3, ![1, 4, 64]⟩
abbrev S4x64 : Shape := ⟨2, ![4, 64]⟩
abbrev S1536x64 : Shape := ⟨2, ![1536, 64]⟩
abbrev S4x16x64 : Shape := ⟨3, ![4, 16, 64]⟩
abbrev S4x1x384x64 : Shape := ⟨4, ![4, 1, 384, 64]⟩
abbrev S4x16x1x64 : Shape := ⟨4, ![4, 16, 1, 64]⟩
abbrev S4x16x384x64 : Shape := ⟨4, ![4, 16, 384, 64]⟩
abbrev S1x1x1x64 : Shape := ⟨4, ![1, 1, 1, 64]⟩
abbrev S24576x64 : Shape := ⟨2, ![24576, 64]⟩
abbrev S4x128 : Shape := ⟨2, ![4, 128]⟩
abbrev S_ : Shape := ⟨0, ![]⟩
abbrev S4x1 : Shape := ⟨2, ![4, 1]⟩
abbrev S1x1 : Shape := ⟨2, ![1, 1]⟩

abbrev nBuf : Space → Nat
  | .hbm => 60
  | .vmem => 15
  | .smem => 0
  | _ => 0

abbrev bufTy : (tb : Table) → Fin (tcTables nBuf tb) → BufTy
  | .hbm, ⟨0, _⟩ => ⟨S4x384x64, .f32⟩
  | .hbm, ⟨1, _⟩ => ⟨S4x384x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S128x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S128x64, .f32⟩
  | .hbm, ⟨19, _⟩ => ⟨S64, .f32⟩
  | .hbm, ⟨20, _⟩ => ⟨S64x1, .f32⟩
  | .hbm, ⟨21, _⟩ => ⟨S1, .f32⟩
  | .hbm, ⟨22, _⟩ => ⟨S1x4x384x64, .f32⟩
  | .hbm, ⟨23, _⟩ => ⟨S1x4x384x64, .f32⟩
  | .hbm, ⟨24, _⟩ => ⟨S2x4x384x64, .f32⟩
  | .hbm, ⟨25, _⟩ => ⟨S1x4x384x64, .f32⟩
  | .hbm, ⟨26, _⟩ => ⟨S1x4x384x64, .f32⟩
  | .hbm, ⟨27, _⟩ => ⟨S2x4x384x64, .f32⟩
  | .hbm, ⟨28, _⟩ => ⟨S1x128x64, .f32⟩
  | .hbm, ⟨29, _⟩ => ⟨S1x128x64, .f32⟩
  | .hbm, ⟨30, _⟩ => ⟨S2x128x64, .f32⟩
  | .hbm, ⟨31, _⟩ => ⟨S1x64, .f32⟩
  | .hbm, ⟨32, _⟩ => ⟨S1x64, .f32⟩
  | .hbm, ⟨33, _⟩ => ⟨S2x64, .f32⟩
  | .hbm, ⟨34, _⟩ => ⟨S2x1x64, .f32⟩
  | .hbm, ⟨35, _⟩ => ⟨S1x64x64, .f32⟩
  | .hbm, ⟨36, _⟩ => ⟨S1x64x64, .f32⟩
  | .hbm, ⟨37, _⟩ => ⟨S2x64x64, .f32⟩
  | .hbm, ⟨38, _⟩ => ⟨S1x64, .f32⟩
  | .hbm, ⟨39, _⟩ => ⟨S1x64, .f32⟩
  | .hbm, ⟨40, _⟩ => ⟨S2x64, .f32⟩
  | .hbm, ⟨41, _⟩ => ⟨S2x1x64, .f32⟩
  | .hbm, ⟨42, _⟩ => ⟨S2x4x64, .f32⟩
  | .hbm, ⟨43, _⟩ => ⟨S1x4x64, .f32⟩
  | .hbm, ⟨44, _⟩ => ⟨S4x64, .f32⟩
  | .hbm, ⟨45, _⟩ => ⟨S1x4x64, .f32⟩
  | .hbm, ⟨46, _⟩ => ⟨S4x64, .f32⟩
  | .hbm, ⟨47, _⟩ => ⟨S4x64, .f32⟩
  | .hbm, ⟨48, _⟩ => ⟨S4x128, .f32⟩
  | .hbm, ⟨49, _⟩ => ⟨S4x64, .f32⟩
  | .hbm, ⟨50, _⟩ => ⟨S1x64, .f32⟩
  | .hbm, ⟨51, _⟩ => ⟨S4x64, .f32⟩
  | .hbm, ⟨52, _⟩ => ⟨S4x64, .f32⟩
  | .hbm, ⟨53, _⟩ => ⟨S_, .f32⟩
  | .hbm, ⟨54, _⟩ => ⟨S4x64, .f32⟩
  | .hbm, ⟨55, _⟩ => ⟨S4x64, .f32⟩
  | .hbm, ⟨56, _⟩ => ⟨S4x1, .f32⟩
  | .hbm, ⟨57, _⟩ => ⟨S1x1, .f32⟩
  | .hbm, ⟨58, _⟩ => ⟨S4x1, .f32⟩
  | .hbm, ⟨59, _⟩ => ⟨S4x1, .f32⟩
  | .local _ .vmem, ⟨0, _⟩ => ⟨S1x4x384x64, .f32⟩
  | .local _ .vmem, ⟨1, _⟩ => ⟨S1x4x384x64, .f32⟩
  | .local _ .vmem, ⟨2, _⟩ => ⟨S1x4x16x64, .f32⟩
  | .local _ .vmem, ⟨3, _⟩ => ⟨S1x4x16x64, .f32⟩
  | .local _ .vmem, ⟨4, _⟩ => ⟨S1x128x64, .f32⟩
  | .local _ .vmem, ⟨5, _⟩ => ⟨S1x128x64, .f32⟩
  | .local _ .vmem, ⟨6, _⟩ => ⟨S1x1x64, .f32⟩
  | .local _ .vmem, ⟨7, _⟩ => ⟨S1x1x64, .f32⟩
  | .local _ .vmem, ⟨8, _⟩ => ⟨S1x64x64, .f32⟩
  | .local _ .vmem, ⟨9, _⟩ => ⟨S1x64x64, .f32⟩
  | .local _ .vmem, ⟨10, _⟩ => ⟨S1x1x64, .f32⟩
  | .local _ .vmem, ⟨11, _⟩ => ⟨S1x1x64, .f32⟩
  | .local _ .vmem, ⟨12, _⟩ => ⟨S1x4x64, .f32⟩
  | .local _ .vmem, ⟨13, _⟩ => ⟨S1x4x64, .f32⟩
  | .local _ .vmem, ⟨14, _⟩ => ⟨S4x64, .f32⟩
  | _, _ => ⟨S4x384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v52 : BitVec 1 := Scalar.cmpi .eq arg1 c23_i32
  let v53 : BitVec 32 := Scalar.extui v52
  let c0_i32_31 : BitVec 32 := 0#32
  let v54 : BitVec 1 := Scalar.cmpi .ne v53 c0_i32_31
  v54

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S4x384x64_S1x4x384x64_1_2_3 : S4x384x64.BroadcastsInDim S1x4x384x64 (![1, 2, 3] : Fin 3 → Fin S1x4x384x64.rank)
  concatenates_S1x4x384x64_S1x4x384x64_S2x4x384x64_d0 : Shape.Concatenates [S1x4x384x64, S1x4x384x64] S2x4x384x64 0
  bcast_S128x64_S1x128x64_1_2 : S128x64.BroadcastsInDim S1x128x64 (![1, 2] : Fin 2 → Fin S1x128x64.rank)
  concatenates_S1x128x64_S1x128x64_S2x128x64_d0 : Shape.Concatenates [S1x128x64, S1x128x64] S2x128x64 0
  bcast_S64_S1x64_1 : S64.BroadcastsInDim S1x64 (![1] : Fin 1 → Fin S1x64.rank)
  concatenates_S1x64_S1x64_S2x64_d0 : Shape.Concatenates [S1x64, S1x64] S2x64 0
  bcast_S2x64_S2x1x64_0_2 : S2x64.BroadcastsInDim S2x1x64 (![0, 2] : Fin 2 → Fin S2x1x64.rank)
  bcast_S64x64_S1x64x64_1_2 : S64x64.BroadcastsInDim S1x64x64 (![1, 2] : Fin 2 → Fin S1x64x64.rank)
  concatenates_S1x64x64_S1x64x64_S2x64x64_d0 : Shape.Concatenates [S1x64x64, S1x64x64] S2x64x64 0
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x128x64_S1x64x64_0_0_0 : ∀ a, (![0, 0, 0] : Fin 3 → Nat) a + S1x64x64.size a ≤ S1x128x64.size a
  h_S1x64x64 : 0 < S1x64x64.numel
  shapeCasts_S1x64x64_S64x64 : S1x64x64.ShapeCasts S64x64
  inb_S1x128x64_S1x64x64_0_64_0 : ∀ a, (![0, 64, 0] : Fin 3 → Nat) a + S1x64x64.size a ≤ S1x128x64.size a
  inb_S1x4x384x64_S1x4x384x64_0_0_0_0 : ∀ a, (![0, 0, 0, 0] : Fin 4 → Nat) a + S1x4x384x64.size a ≤ S1x4x384x64.size a
  h_S1x4x384x64 : 0 < S1x4x384x64.numel
  shapeCasts_S1x4x384x64_S4x384x64 : S1x4x384x64.ShapeCasts S4x384x64
  shapeCasts_S4x384x64_S1536x64 : S4x384x64.ShapeCasts S1536x64
  bitsLt_bf16_f32 : FTy.bits .bf16 < FTy.bits .f32
  shapeCasts_S1536x64_S4x384x64 : S1536x64.ShapeCasts S4x384x64
  inb_S1x4x16x64_S1x4x16x64_0_0_0_0 : ∀ a, (![0, 0, 0, 0] : Fin 4 → Nat) a + S1x4x16x64.size a ≤ S1x4x16x64.size a
  h_S1x4x16x64 : 0 < S1x4x16x64.numel
  shapeCasts_S1x4x16x64_S4x16x64 : S1x4x16x64.ShapeCasts S4x16x64
  shapeCasts_S4x16x64_S64x64 : S4x16x64.ShapeCasts S64x64
  shapeCasts_S64x64_S4x16x64 : S64x64.ShapeCasts S4x16x64
  shapeCasts_S4x384x64_S4x1x384x64 : S4x384x64.ShapeCasts S4x1x384x64
  shapeCasts_S4x16x64_S4x16x1x64 : S4x16x64.ShapeCasts S4x16x1x64
  broadcasts_S4x1x384x64_S4x16x384x64 : S4x1x384x64.Broadcasts S4x16x384x64
  broadcasts_S4x16x1x64_S4x16x384x64 : S4x16x1x64.Broadcasts S4x16x384x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x1x64 : S1x64.ShapeCasts S1x1x1x64
  broadcasts_S1x1x1x64_S4x16x384x64 : S1x1x1x64.Broadcasts S4x16x384x64
  shapeCasts_S4x16x384x64_S24576x64 : S4x16x384x64.ShapeCasts S24576x64
  inb_S1x64x64_S1x64x64_0_0_0 : ∀ a, (![0, 0, 0] : Fin 3 → Nat) a + S1x64x64.size a ≤ S1x64x64.size a
  shapeCasts_S24576x64_S4x16x384x64 : S24576x64.ShapeCasts S4x16x384x64
  reduces_S4x16x384x64_S4x16x64 : S4x16x384x64.Reduces [2] S4x16x64
  reduces_S4x16x64_S4x64 : S4x16x64.Reduces [1] S4x64
  inb_S1x4x64_S1x4x64_0_0_0 : ∀ a, (![0, 0, 0] : Fin 3 → Nat) a + S1x4x64.size a ≤ S1x4x64.size a
  h_S1x4x64 : 0 < S1x4x64.numel
  shapeCasts_S1x4x64_S4x64 : S1x4x64.ShapeCasts S4x64
  shapeCasts_S4x64_S1x4x64 : S4x64.ShapeCasts S1x4x64
  slices_S2x4x64_S1x4x64_0_0_0 : S2x4x64.Slices ![0, 0, 0] S1x4x64
  slices_S2x4x64_S1x4x64_1_0_0 : S2x4x64.Slices ![1, 0, 0] S1x4x64
  concatenates_S4x64_S4x64_S4x128_d1 : Shape.Concatenates [S4x64, S4x64] S4x128 1
  bcast_S1x64_S4x64_0_1 : S1x64.BroadcastsInDim S4x64 (![0, 1] : Fin 2 → Fin S4x64.rank)
  bcast_S_S4x64 : S_.BroadcastsInDim S4x64 (![] : Fin 0 → Fin S4x64.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  dot_S1536x64_S64x64_S1536x64_1_0_0_1_n_n_wf : DotDims.WF S1536x64 S64x64 S1536x64 [1] [0] [0] [1] [] []
  dot_S64x64_S64x64_S64x64_1_0_0_1_n_n_wf : DotDims.WF S64x64 S64x64 S64x64 [1] [0] [0] [1] [] []
  dot_S24576x64_S64x64_S24576x64_1_0_0_1_n_n_wf : DotDims.WF S24576x64 S64x64 S24576x64 [1] [0] [0] [1] [] []
  dot_S4x128_S128x64_S4x64_1_0_0_1_n_n_wf : DotDims.WF S4x128 S128x64 S4x64 [1] [0] [0] [1] [] []
  dot_S4x64_S64x1_S4x1_1_0_0_1_n_n_wf : DotDims.WF S4x64 S64x1 S4x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x384x64.size a ≤ S2x4x384x64.size a
  hwx0_0 : ∀ i : grid0.Coords, EltTy.bits .f32 = 32 ∨ (Rect.block (s := S2x4x384x64) S1x4x384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x16x64.size a ≤ S2x4x384x64.size a
  hwx0_1 : ∀ i : grid0.Coords, EltTy.bits .f32 = 32 ∨ (Rect.block (s := S2x4x384x64) S1x4x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S2x128x64.size a
  hwx0_2 : ∀ i : grid0.Coords, EltTy.bits .f32 = 32 ∨ (Rect.block (s := S2x128x64) S1x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S2x1x64.size a
  hwx0_3 : ∀ i : grid0.Coords, EltTy.bits .f32 = 32 ∨ (Rect.block (s := S2x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64.size a ≤ S2x64x64.size a
  hwx0_4 : ∀ i : grid0.Coords, EltTy.bits .f32 = 32 ∨ (Rect.block (s := S2x64x64) S1x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S2x1x64.size a
  hwx0_5 : ∀ i : grid0.Coords, EltTy.bits .f32 = 32 ∨ (Rect.block (s := S2x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x64.size a ≤ S2x4x64.size a
  hwx0_6 : ∀ i : grid0.Coords, EltTy.bits .f32 = 32 ∨ (Rect.block (s := S2x4x64) S1x4x64.size (cc0_transform_6 i) (hinb0_6 i)).WholeWords (EltTy.packing .f32)

variable [Facts₀]

def dot_S1536x64_S64x64_S1536x64_1_0_0_1_n_n : DotDims S1536x64 S64x64 S1536x64 where
  lhsContracting := [1]
  rhsContracting := [0]
  lhsNonContracting := [0]
  rhsNonContracting := [1]
  lhsBatch := []
  rhsBatch := []
  wf := dot_S1536x64_S64x64_S1536x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S24576x64_S64x64_S24576x64_1_0_0_1_n_n : DotDims S24576x64 S64x64 S24576x64 where
  lhsContracting := [1]
  rhsContracting := [0]
  lhsNonContracting := [0]
  rhsNonContracting := [1]
  lhsBatch := []
  rhsBatch := []
  wf := dot_S24576x64_S64x64_S24576x64_1_0_0_1_n_n_wf
def dot_S4x128_S128x64_S4x64_1_0_0_1_n_n : DotDims S4x128 S128x64 S4x64 where
  lhsContracting := [1]
  rhsContracting := [0]
  lhsNonContracting := [0]
  rhsNonContracting := [1]
  lhsBatch := []
  rhsBatch := []
  wf := dot_S4x128_S128x64_S4x64_1_0_0_1_n_n_wf
def dot_S4x64_S64x1_S4x1_1_0_0_1_n_n : DotDims S4x64 S64x1 S4x1 where
  lhsContracting := [1]
  rhsContracting := [0]
  lhsNonContracting := [0]
  rhsNonContracting := [1]
  lhsBatch := []
  rhsBatch := []
  wf := dot_S4x64_S64x1_S4x1_1_0_0_1_n_n_wf

abbrev win0_0 : Pipeline.Window sig grid0 :=
  Pipeline.Window.ofSpec (Memref.whole main_v2) S1x4x384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x4x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x1x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x4x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x384x64 : Shape := ⟨3, ![4, 384, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S4x1x384x64 : Shape := ⟨4, ![4, 1, 384, 64]⟩
abbrev S4x384x1x64 : Shape := ⟨4, ![4, 384, 1, 64]⟩
abbrev S4x384x384x64 : Shape := ⟨4, ![4, 384, 384, 64]⟩
abbrev S1x1x1x64 : Shape := ⟨4, ![1, 1, 1, 64]⟩
abbrev S_ : Shape := ⟨0, ![]⟩
abbrev S4x64 : Shape := ⟨2, ![4, 64]⟩
abbrev S4x128 : Shape := ⟨2, ![4, 128]⟩
abbrev S1x64 : Shape := ⟨2, ![1, 64]⟩
abbrev S4x1 : Shape := ⟨2, ![4, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S4x384x64, .f32⟩
  | .hbm, ⟨1, _⟩ => ⟨S4x384x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S128x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S128x64, .f32⟩
  | .hbm, ⟨19, _⟩ => ⟨S64, .f32⟩
  | .hbm, ⟨20, _⟩ => ⟨S64x1, .f32⟩
  | .hbm, ⟨21, _⟩ => ⟨S1, .f32⟩
  | .hbm, ⟨22, _⟩ => ⟨S64x64, .f32⟩
  | .hbm, ⟨23, _⟩ => ⟨S4x384x64, .f32⟩
  | .hbm, ⟨24, _⟩ => ⟨S64x64, .f32⟩
  | .hbm, ⟨25, _⟩ => ⟨S4x384x64, .f32⟩
  | .hbm, ⟨26, _⟩ => ⟨S4x1x384x64, .f32⟩
  | .hbm, ⟨27, _⟩ => ⟨S4x384x1x64, .f32⟩
  | .hbm, ⟨28, _⟩ => ⟨S4x384x384x64, .f32⟩
  | .hbm, ⟨29, _⟩ => ⟨S4x384x384x64, .f32⟩
  | .hbm, ⟨30, _⟩ => ⟨S4x384x384x64, .f32⟩
  | .hbm, ⟨31, _⟩ => ⟨S1x1x1x64, .f32⟩
  | .hbm, ⟨32, _⟩ => ⟨S4x384x384x64, .f32⟩
  | .hbm, ⟨33, _⟩ => ⟨S4x384x384x64, .f32⟩
  | .hbm, ⟨34, _⟩ => ⟨S_, .f32⟩
  | .hbm, ⟨35, _⟩ => ⟨S4x384x384x64, .f32⟩
  | .hbm, ⟨36, _⟩ => ⟨S4x384x384x64, .f32⟩
  | .hbm, ⟨37, _⟩ => ⟨S4x384x384x64, .f32⟩
  | .hbm, ⟨38, _⟩ => ⟨S1x1x1x64, .f32⟩
  | .hbm, ⟨39, _⟩ => ⟨S4x384x384x64, .f32⟩
  | .hbm, ⟨40, _⟩ => ⟨S4x384x384x64, .f32⟩
  | .hbm, ⟨41, _⟩ => ⟨S_, .f32⟩
  | .hbm, ⟨42, _⟩ => ⟨S4x384x64, .f32⟩
  | .hbm, ⟨43, _⟩ => ⟨S64x64, .f32⟩
  | .hbm, ⟨44, _⟩ => ⟨S4x384x64, .f32⟩
  | .hbm, ⟨45, _⟩ => ⟨S64x64, .f32⟩
  | .hbm, ⟨46, _⟩ => ⟨S4x384x64, .f32⟩
  | .hbm, ⟨47, _⟩ => ⟨S4x1x384x64, .f32⟩
  | .hbm, ⟨48, _⟩ => ⟨S4x384x1x64, .f32⟩
  | .hbm, ⟨49, _⟩ => ⟨S4x384x384x64, .f32⟩
  | .hbm, ⟨50, _⟩ => ⟨S4x384x384x64, .f32⟩
  | .hbm, ⟨51, _⟩ => ⟨S4x384x384x64, .f32⟩
  | .hbm, ⟨52, _⟩ => ⟨S1x1x1x64, .f32⟩
  | .hbm, ⟨53, _⟩ => ⟨S4x384x384x64, .f32⟩
  | .hbm, ⟨54, _⟩ => ⟨S4x384x384x64, .f32⟩
  | .hbm, ⟨55, _⟩ => ⟨S_, .f32⟩
  | .hbm, ⟨56, _⟩ => ⟨S4x384x384x64, .f32⟩
  | .hbm, ⟨57, _⟩ => ⟨S4x384x384x64, .f32⟩
  | .hbm, ⟨58, _⟩ => ⟨S4x384x384x64, .f32⟩
  | .hbm, ⟨59, _⟩ => ⟨S1x1x1x64, .f32⟩
  | .hbm, ⟨60, _⟩ => ⟨S4x384x384x64, .f32⟩
  | .hbm, ⟨61, _⟩ => ⟨S4x384x384x64, .f32⟩
  | .hbm, ⟨62, _⟩ => ⟨S_, .f32⟩
  | .hbm, ⟨63, _⟩ => ⟨S4x384x64, .f32⟩
  | .hbm, ⟨64, _⟩ => ⟨S64x64, .f32⟩
  | .hbm, ⟨65, _⟩ => ⟨S4x384x64, .f32⟩
  | .hbm, ⟨66, _⟩ => ⟨S64x64, .f32⟩
  | .hbm, ⟨67, _⟩ => ⟨S4x384x64, .f32⟩
  | .hbm, ⟨68, _⟩ => ⟨S4x1x384x64, .f32⟩
  | .hbm, ⟨69, _⟩ => ⟨S4x384x1x64, .f32⟩
  | .hbm, ⟨70, _⟩ => ⟨S4x384x384x64, .f32⟩
  | .hbm, ⟨71, _⟩ => ⟨S4x384x384x64, .f32⟩
  | .hbm, ⟨72, _⟩ => ⟨S4x384x384x64, .f32⟩
  | .hbm, ⟨73, _⟩ => ⟨S1x1x1x64, .f32⟩
  | .hbm, ⟨74, _⟩ => ⟨S4x384x384x64, .f32⟩
  | .hbm, ⟨75, _⟩ => ⟨S4x384x384x64, .f32⟩
  | .hbm, ⟨76, _⟩ => ⟨S_, .f32⟩
  | .hbm, ⟨77, _⟩ => ⟨S4x384x384x64, .f32⟩
  | .hbm, ⟨78, _⟩ => ⟨S4x384x384x64, .f32⟩
  | .hbm, ⟨79, _⟩ => ⟨S4x384x384x64, .f32⟩
  | .hbm, ⟨80, _⟩ => ⟨S1x1x1x64, .f32⟩
  | .hbm, ⟨81, _⟩ => ⟨S4x384x384x64, .f32⟩
  | .hbm, ⟨82, _⟩ => ⟨S4x384x384x64, .f32⟩
  | .hbm, ⟨83, _⟩ => ⟨S_, .f32⟩
  | .hbm, ⟨84, _⟩ => ⟨S4x384x64, .f32⟩
  | .hbm, ⟨85, _⟩ => ⟨S64x64, .f32⟩
  | .hbm, ⟨86, _⟩ => ⟨S4x384x64, .f32⟩
  | .hbm, ⟨87, _⟩ => ⟨S64x64, .f32⟩
  | .hbm, ⟨88, _⟩ => ⟨S4x384x64, .f32⟩
  | .hbm, ⟨89, _⟩ => ⟨S4x1x384x64, .f32⟩
  | .hbm, ⟨90, _⟩ => ⟨S4x384x1x64, .f32⟩
  | .hbm, ⟨91, _⟩ => ⟨S4x384x384x64, .f32⟩
  | .hbm, ⟨92, _⟩ => ⟨S4x384x384x64, .f32⟩
  | .hbm, ⟨93, _⟩ => ⟨S4x384x384x64, .f32⟩
  | .hbm, ⟨94, _⟩ => ⟨S1x1x1x64, .f32⟩
  | .hbm, ⟨95, _⟩ => ⟨S4x384x384x64, .f32⟩
  | .hbm, ⟨96, _⟩ => ⟨S4x384x384x64, .f32⟩
  | .hbm, ⟨97, _⟩ => ⟨S_, .f32⟩
  | .hbm, ⟨98, _⟩ => ⟨S4x384x384x64, .f32⟩
  | .hbm, ⟨99, _⟩ => ⟨S4x384x384x64, .f32⟩
  | .hbm, ⟨100, _⟩ => ⟨S4x384x384x64, .f32⟩
  | .hbm, ⟨101, _⟩ => ⟨S1x1x1x64, .f32⟩
  | .hbm, ⟨102, _⟩ => ⟨S4x384x384x64, .f32⟩
  | .hbm, ⟨103, _⟩ => ⟨S4x384x384x64, .f32⟩
  | .hbm, ⟨104, _⟩ => ⟨S_, .f32⟩
  | .hbm, ⟨105, _⟩ => ⟨S4x384x64, .f32⟩
  | .hbm, ⟨106, _⟩ => ⟨S4x384x64, .f32⟩
  | .hbm, ⟨107, _⟩ => ⟨S_, .f32⟩
  | .hbm, ⟨108, _⟩ => ⟨S4x64, .f32⟩
  | .hbm, ⟨109, _⟩ => ⟨S_, .f32⟩
  | .hbm, ⟨110, _⟩ => ⟨S4x64, .f32⟩
  | .hbm, ⟨111, _⟩ => ⟨S4x128, .f32⟩
  | .hbm, ⟨112, _⟩ => ⟨S4x64, .f32⟩
  | .hbm, ⟨113, _⟩ => ⟨S1x64, .f32⟩
  | .hbm, ⟨114, _⟩ => ⟨S4x64, .f32⟩
  | .hbm, ⟨115, _⟩ => ⟨S4x64, .f32⟩
  | .hbm, ⟨116, _⟩ => ⟨S_, .f32⟩
  | .hbm, ⟨117, _⟩ => ⟨S4x64, .f32⟩
  | .hbm, ⟨118, _⟩ => ⟨S4x64, .f32⟩
  | .hbm, ⟨119, _⟩ => ⟨S4x1, .f32⟩
  | .hbm, ⟨120, _⟩ => ⟨S1x1, .f32⟩
  | .hbm, ⟨121, _⟩ => ⟨S4x1, .f32⟩
  | .hbm, ⟨122, _⟩ => ⟨S4x1, .f32⟩
  | _, _ => ⟨S4x384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_call0_cst : Ref sig .tc := ⟨.hbm, 34, rfl⟩
abbrev main_call0_v0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call1_cst : Ref sig .tc := ⟨.hbm, 55, rfl⟩
abbrev main_call1_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call2_cst : Ref sig .tc := ⟨.hbm, 76, rfl⟩
abbrev main_call2_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_1 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call3_cst : Ref sig .tc := ⟨.hbm, 97, rfl⟩
abbrev main_call3_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_2 : Ref sig .tc := ⟨.hbm, 104, rfl⟩
abbrev main_v71 : Ref sig .tc := ⟨.hbm, 105, rfl⟩
abbrev main_v72 : Ref sig .tc := ⟨.hbm, 106, rfl⟩
abbrev main_cst_3 : Ref sig .tc := ⟨.hbm, 107, rfl⟩
abbrev main_v73 : Ref sig .tc := ⟨.hbm, 108, rfl⟩
abbrev main_cst_4 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call4_cst : Ref sig .tc := ⟨.hbm, 116, rfl⟩
abbrev main_call4_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩

abbrev nD : Nat := 1
abbrev τ : Topo := Topo.v7x

variable {F : FTy → Type} [FloatOps F]

class Facts₀ : Prop where
  slices_S128x64_S64x64_0_0 : S128x64.Slices ![0, 0] S64x64
  slices_S128x64_S64x64_64_0 : S128x64.Slices ![64, 0] S64x64
  bcast_S4x384x64_S4x1x384x64_0_2_3 : S4x384x64.BroadcastsInDim S4x1x384x64 (![0, 2, 3] : Fin 3 → Fin S4x1x384x64.rank)
  bcast_S4x384x64_S4x384x1x64_0_1_3 : S4x384x64.BroadcastsInDim S4x384x1x64 (![0, 1, 3] : Fin 3 → Fin S4x384x1x64.rank)
  bcast_S4x1x384x64_S4x384x384x64_0_1_2_3 : S4x1x384x64.BroadcastsInDim S4x384x384x64 (![0, 1, 2, 3] : Fin 4 → Fin S4x384x384x64.rank)
  bcast_S4x384x1x64_S4x384x384x64_0_1_2_3 : S4x384x1x64.BroadcastsInDim S4x384x384x64 (![0, 1, 2, 3] : Fin 4 → Fin S4x384x384x64.rank)
  bcast_S64_S1x1x1x64_3 : S64.BroadcastsInDim S1x1x1x64 (![3] : Fin 1 → Fin S1x1x1x64.rank)
  bcast_S1x1x1x64_S4x384x384x64_0_1_2_3 : S1x1x1x64.BroadcastsInDim S4x384x384x64 (![0, 1, 2, 3] : Fin 4 → Fin S4x384x384x64.rank)
  bcast_S_S4x384x384x64 : S_.BroadcastsInDim S4x384x384x64 (![] : Fin 0 → Fin S4x384x384x64.rank)
  reducesTo_S4x384x384x64_S4x384x64_d2 : S4x384x384x64.ReducesTo [2] S4x384x64
  h_S_ : 0 < S_.numel
  reducesTo_S4x384x64_S4x64_d1 : S4x384x64.ReducesTo [1] S4x64
  concatenates_S4x64_S4x64_S4x128_d1 : Shape.Concatenates [S4x64, S4x64] S4x128 1
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  bcast_S_S4x64 : S_.BroadcastsInDim S4x64 (![] : Fin 0 → Fin S4x64.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  dot_S4x384x64_S64x64_S4x384x64_2_0_01_1_n_n_wf : DotDims.WF S4x384x64 S64x64 S4x384x64 [2] [0] [0, 1] [1] [] []
  dot_S4x384x384x64_S64x64_S4x384x384x64_3_0_012_1_n_n_wf : DotDims.WF S4x384x384x64 S64x64 S4x384x384x64 [3] [0] [0, 1, 2] [1] [] []
  dot_S4x128_S128x64_S4x64_1_0_0_1_n_n_wf : DotDims.WF S4x128 S128x64 S4x64 [1] [0] [0] [1] [] []
  dot_S4x64_S64x1_S4x1_1_0_0_1_n_n_wf : DotDims.WF S4x64 S64x1 S4x1 [1] [0] [0] [1] [] []

variable [Facts₀]

def dot_S4x384x64_S64x64_S4x384x64_2_0_01_1_n_n : DotDims S4x384x64 S64x64 S4x384x64 where
  lhsContracting := [2]
  rhsContracting := [0]
  lhsNonContracting := [0, 1]
  rhsNonContracting := [1]
  lhsBatch := []
  rhsBatch := []
  wf := dot_S4x384x64_S64x64_S4x384x64_2_0_01_1_n_n_wf
def dot_S4x384x384x64_S64x64_S4x384x384x64_3_0_012_1_n_n : DotDims S4x384x384x64 S64x64 S4x384x384x64 where
  lhsContracting := [3]
  rhsContracting := [0]
  lhsNonContracting := [0, 1, 2]
  rhsNonContracting := [1]
  lhsBatch := []
  rhsBatch := []
  wf := dot_S4x384x384x64_S64x64_S4x384x384x64_3_0_012_1_n_n_wf
def dot_S4x128_S128x64_S4x64_1_0_0_1_n_n : DotDims S4x128 S128x64 S4x64 where
  lhsContracting := [1]
  rhsContracting := [0]
  lhsNonContracting := [0]
  rhsNonContracting := [1]
  lhsBatch := []
  rhsBatch := []
  wf := dot_S4x128_S128x64_S4x64_1_0_0_1_n_n_wf
def dot_S4x64_S64x1_S4x1_1_0_0_1_n_n : DotDims S4x64 S64x1 S4x1 where
  lhsContracting := [1]
  rhsContracting := [0]
  lhsNonContracting := [0]
  rhsNonContracting := [1]
  lhsBatch := []
  rhsBatch := []
  wf := dot_S4x64_S64x1_S4x1_1_0_0_1_n_n_wf

class Facts : Prop extends Facts₀ where

variable [Facts]
-- ==== Proof.KernelPieces.lean ====
/-
  What one grid point of the pair kernel leaves behind, case by case.

  The kernel keeps a 4×64 accumulator in scratch.  At every point (br, s) of its 2×24 grid it adds to the
  accumulator the tile's contribution: with A the 4×384×64 block, C the 4×16×64 tile of rows 16s … 16s+15,
  and W1 split into its upper half (rows 0 … 63, multiplying the A-rows) and its lower half (rows 64 … 127,
  multiplying the C-rows), the contribution at (b, k) is the sum over the 16 rows of the tile of the maximum
  over the 384 rows j of  relu(A[b,j]·W1_upper + C[b,ii]·W1_lower + b1)·W2 + b2  at coordinate k.
  This module does not open that arithmetic: it is the function `step`, the kernel's own two payloads composed.

  What it proves is the bookkeeping around it, for any float instance:
    • the two loads of the W1 block read its two halves (`lo_apply`, `hi_apply`: row d of the upper half is
      row d of the block, row d of the lower half is row 64 + d);
    • at the first point of a row of the grid (s = 0) the accumulator is first set to zero and then updated, so it
      ends at `step` of the zero block (`sout_A`);
    • at every other point it ends at `step` of what the point before left (`sout_B`, `sout_C`);
    • at the last point of a row (s = 23) the output block receives the accumulator just updated, reshaped from
      4×64 to 1×4×64 (`out_C`).
  Each of the last three is read off the stores the body makes: one store through the whole accumulator leaves its
  payload; a store that follows another through the same whole rectangle hides the earlier one; a load through the
  whole rectangle after such a store reads the stored payload back; and a load through the whole rectangle of an
  input buffer reads the input block.
-/
import proofs.«159682_j1322849927392_1_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Pieces

open Idealize.ShloMosaic Idealize.ShloMosaic.TcCoe Idealize.ShloMosaic.ValueIdx Idealize.SL.Sem
open Cert.KernelIdeal Cert.KernelIdeal.Gen

variable {F : FTy → Type} [FloatOps F]

/-! ## Zero offsets, however many axes -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The two halves of the W1 block -/

/-- Rows 0 … 63 of the 128-row block: what a load of 64 rows at row offset 0 reads. -/
def lo (x2 : Vec F S1x128x64 .f32) : Vec F S1x64x64 .f32 :=
  View.ld x2 (Rect.unit (s := S1x128x64) ![0, 0, 0] S1x64x64.size inb_S1x128x64_S1x64x64_0_0_0)

/-- Rows 64 … 127 of the 128-row block: what a load of 64 rows at row offset 64 reads. -/
def hi (x2 : Vec F S1x128x64 .f32) : Vec F S1x64x64 .f32 :=
  View.ld x2 (Rect.unit (s := S1x128x64) ![0, 64, 0] S1x64x64.size inb_S1x128x64_S1x64x64_0_64_0)

/-- Row `d` of the upper half is row `d` of the block. -/
theorem lo_apply (x2 : Vec F S1x128x64 .f32) (d h : Fin 64) :
    lo x2 (ix3 0 d h) = x2 (ix3 0 ⟨d.val, Nat.lt_of_lt_of_le d.isLt (by decide)⟩ h) := by
  unfold lo
  show x2 _ = x2 _
  congr 1
  funext a
  apply Fin.ext
  match a with
  | ⟨0, _⟩ => rfl
  | ⟨1, _⟩ => show 0 + 1 * d.val = d.val; omega
  | ⟨2, _⟩ => show 0 + 1 * h.val = h.val; omega

/-- Row `d` of the lower half is row `64 + d` of the block. -/
theorem hi_apply (x2 : Vec F S1x128x64 .f32) (d h : Fin 64) :
    hi x2 (ix3 0 d h) = x2 (ix3 0 ⟨64 + d.val, by have := d.isLt; omega⟩ h) := by
  unfold hi
  show x2 _ = x2 _
  congr 1
  funext a
  apply Fin.ext
  match a with
  | ⟨0, _⟩ => rfl
  | ⟨1, _⟩ => show 64 + 1 * d.val = 64 + d.val; omega
  | ⟨2, _⟩ => show 0 + 1 * h.val = h.val; omega

/-! ## One point's update of the accumulator -/

/-- The accumulator after a point, from the point's six input blocks and the accumulator before it: the hidden
    layer's payload over the two halves of W1, the A block, the C tile and b1, then the second payload over W2, b2
    and the accumulator. -/
def step (x0 : Vec F S1x4x384x64 .f32) (x1 : Vec F S1x4x16x64 .f32) (x2 : Vec F S1x128x64 .f32) (x3 : Vec F S1x1x64 .f32)
    (x4 : Vec F S1x64x64 .f32) (x5 : Vec F S1x1x64 .f32) (acc : Vec F S4x64 .f32) : Vec F S4x64 .f32 :=
  Gen.k0_pay1 (Gen.k0_pay4 (lo x2) (hi x2) x0 x1 x3) x4 x5 acc

/-! ## What each case leaves -/

/-- First point of a row of the grid: the accumulator is set to zero, read back, and updated; it ends at the update
    of the zero block. -/
theorem sout_A (c : Dev nD) (i : grid0.Coords)
    (arg2 : Memref sig .tc .vmem S1x4x384x64 .f32) (harg2 : arg2.IsWhole) (arg3 : Memref sig .tc .vmem S1x4x16x64 .f32) (harg3 : arg3.IsWhole)
    (arg4 : Memref sig .tc .vmem S1x128x64 .f32) (harg4 : arg4.IsWhole) (arg5 : Memref sig .tc .vmem S1x1x64 .f32) (harg5 : arg5.IsWhole)
    (arg6 : Memref sig .tc .vmem S1x64x64 .f32) (harg6 : arg6.IsWhole) (arg7 : Memref sig .tc .vmem S1x1x64 .f32) (harg7 : arg7.IsWhole)
    (arg8 : Memref sig .tc .vmem S1x4x64 .f32) (harg8 : arg8.IsWhole) (arg9 : Memref sig .tc .vmem S4x64 .f32) (harg9 : arg9.IsWhole)
    (hc0 : cond0_0 i) (hc1 : ¬cond0_1 i)
    (x0 : Vec F S1x4x384x64 .f32) (x1 : Vec F S1x4x16x64 .f32) (x2 : Vec F S1x128x64 .f32) (x3 : Vec F S1x1x64 .f32)
    (x4 : Vec F S1x64x64 .f32) (x5 : Vec F S1x1x64 .f32) :
    Gen.sout0_A_0 c i arg2 harg2 arg3 harg3 arg4 harg4 arg5 harg5 arg6 harg6 arg7 harg7 arg8 harg8 arg9 harg9 hc0 hc1 x0 x1 x2 x3 x4 x5
      = step x0 x1 x2 x3 x4 x5 Gen.k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S4x64) hz2]
  unfold step lo hi
  simp only [View.readAt_eq_ld, harg2.read_unread, harg3.read_unread, harg4.read_unread, harg5.read_unread, harg6.read_unread,
    harg7.read_unread, harg9.read_unread, View.ld_unit_zero (S := S4x64) hz2, View.readCov_unit_zero (S := S4x64) _ hz2, View.ld_unit_zero (S := S1x64x64) hz3,
    View.ld_unit_zero (S := S1x1x64) hz3, View.ld_unit_zero (S := S1x4x384x64) hz4, View.ld_unit_zero (S := S1x4x16x64) hz4]

/-- A point inside a row: one store through the whole accumulator, of the update of what the point before left. -/
theorem sout_B (c : Dev nD) (i : grid0.Coords)
    (arg2 : Memref sig .tc .vmem S1x4x384x64 .f32) (harg2 : arg2.IsWhole) (arg3 : Memref sig .tc .vmem S1x4x16x64 .f32) (harg3 : arg3.IsWhole)
    (arg4 : Memref sig .tc .vmem S1x128x64 .f32) (harg4 : arg4.IsWhole) (arg5 : Memref sig .tc .vmem S1x1x64 .f32) (harg5 : arg5.IsWhole)
    (arg6 : Memref sig .tc .vmem S1x64x64 .f32) (harg6 : arg6.IsWhole) (arg7 : Memref sig .tc .vmem S1x1x64 .f32) (harg7 : arg7.IsWhole)
    (arg8 : Memref sig .tc .vmem S1x4x64 .f32) (harg8 : arg8.IsWhole) (arg9 : Memref sig .tc .vmem S4x64 .f32) (harg9 : arg9.IsWhole)
    (hc0 : ¬cond0_0 i) (hc1 : ¬cond0_1 i)
    (x0 : Vec F S1x4x384x64 .f32) (x1 : Vec F S1x4x16x64 .f32) (x2 : Vec F S1x128x64 .f32) (x3 : Vec F S1x1x64 .f32)
    (x4 : Vec F S1x64x64 .f32) (x5 : Vec F S1x1x64 .f32) (xs0 : Vec F S4x64 .f32) :
    Gen.sout0_B_0 c i arg2 harg2 arg3 harg3 arg4 harg4 arg5 harg5 arg6 harg6 arg7 harg7 arg8 harg8 arg9 harg9 hc0 hc1 x0 x1 x2 x3 x4 x5 xs0
      = step x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz2]
  unfold step lo hi
  simp only [View.readAt_eq_ld, harg2.read_unread, harg3.read_unread, harg4.read_unread, harg5.read_unread, harg6.read_unread,
    harg7.read_unread, harg9.read_unread, View.ld_unit_zero (S := S4x64) hz2, View.ld_unit_zero (S := S1x64x64) hz3,
    View.ld_unit_zero (S := S1x1x64) hz3, View.ld_unit_zero (S := S1x4x384x64) hz4, View.ld_unit_zero (S := S1x4x16x64) hz4]

/-- Last point of a row: the accumulator is updated exactly as inside the row. -/
theorem sout_C (c : Dev nD) (i : grid0.Coords)
    (arg2 : Memref sig .tc .vmem S1x4x384x64 .f32) (harg2 : arg2.IsWhole) (arg3 : Memref sig .tc .vmem S1x4x16x64 .f32) (harg3 : arg3.IsWhole)
    (arg4 : Memref sig .tc .vmem S1x128x64 .f32) (harg4 : arg4.IsWhole) (arg5 : Memref sig .tc .vmem S1x1x64 .f32) (harg5 : arg5.IsWhole)
    (arg6 : Memref sig .tc .vmem S1x64x64 .f32) (harg6 : arg6.IsWhole) (arg7 : Memref sig .tc .vmem S1x1x64 .f32) (harg7 : arg7.IsWhole)
    (arg8 : Memref sig .tc .vmem S1x4x64 .f32) (harg8 : arg8.IsWhole) (arg9 : Memref sig .tc .vmem S4x64 .f32) (harg9 : arg9.IsWhole)
    (hc0 : ¬cond0_0 i) (hc1 : cond0_1 i)
    (x0 : Vec F S1x4x384x64 .f32) (x1 : Vec F S1x4x16x64 .f32) (x2 : Vec F S1x128x64 .f32) (x3 : Vec F S1x1x64 .f32)
    (x4 : Vec F S1x64x64 .f32) (x5 : Vec F S1x1x64 .f32) (xs0 : Vec F S4x64 .f32) :
    Gen.sout0_C_0 c i arg2 harg2 arg3 harg3 arg4 harg4 arg5 harg5 arg6 harg6 arg7 harg7 arg8 harg8 arg9 harg9 hc0 hc1 x0 x1 x2 x3 x4 x5 xs0
      = step x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  unfold step lo hi
  simp only [View.readAt_eq_ld, harg2.read_unread, harg3.read_unread, harg4.read_unread, harg5.read_unread, harg6.read_unread,
    harg7.read_unread, harg9.read_unread, View.ld_unit_zero (S := S4x64) hz2, View.ld_unit_zero (S := S1x64x64) hz3,
    View.ld_unit_zero (S := S1x1x64) hz3, View.ld_unit_zero (S := S1x4x384x64) hz4, View.ld_unit_zero (S := S1x4x16x64) hz4]

/-- Last point of a row: the output block receives the accumulator just updated, read back and reshaped. -/
theorem out_C (c : Dev nD) (i : grid0.Coords)
    (arg2 : Memref sig .tc .vmem S1x4x384x64 .f32) (harg2 : arg2.IsWhole) (arg3 : Memref sig .tc .vmem S1x4x16x64 .f32) (harg3 : arg3.IsWhole)
    (arg4 : Memref sig .tc .vmem S1x128x64 .f32) (harg4 : arg4.IsWhole) (arg5 : Memref sig .tc .vmem S1x1x64 .f32) (harg5 : arg5.IsWhole)
    (arg6 : Memref sig .tc .vmem S1x64x64 .f32) (harg6 : arg6.IsWhole) (arg7 : Memref sig .tc .vmem S1x1x64 .f32) (harg7 : arg7.IsWhole)
    (arg8 : Memref sig .tc .vmem S1x4x64 .f32) (harg8 : arg8.IsWhole) (arg9 : Memref sig .tc .vmem S4x64 .f32) (harg9 : arg9.IsWhole)
    (hc0 : ¬cond0_0 i) (hc1 : cond0_1 i)
    (x0 : Vec F S1x4x384x64 .f32) (x1 : Vec F S1x4x16x64 .f32) (x2 : Vec F S1x128x64 .f32) (x3 : Vec F S1x1x64 .f32)
    (x4 : Vec F S1x64x64 .f32) (x5 : Vec F S1x1x64 .f32) (xs0 : Vec F S4x64 .f32) :
    Gen.out0_C_6 c i arg2 harg2 arg3 harg3 arg4 harg4 arg5 harg5 arg6 harg6 arg7 harg7 arg8 harg8 arg9 harg9 hc0 hc1 x0 x1 x2 x3 x4 x5 xs0
      = Gen.k0_pay2 (step x0 x1 x2 x3 x4 x5 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz3]
  unfold step lo hi
  simp only [View.readAt_eq_ld, harg2.read_unread, harg3.read_unread, harg4.read_unread, harg5.read_unread, harg6.read_unread,
    harg7.read_unread, harg9.read_unread, View.ld_unit_zero (S := S4x64) hz2, View.readCov_unit_zero (S := S4x64) _ hz2, View.ld_unit_zero (S := S1x64x64) hz3,
    View.ld_unit_zero (S := S1x1x64) hz3, View.ld_unit_zero (S := S1x4x384x64) hz4, View.ld_unit_zero (S := S1x4x16x64) hz4]

end Cert.KernelIdeal.Pieces

end
-- ==== Proof.KernelAcc.lean ====
/-
  The accumulator of the pooling kernel, point by point.

  The grid has 48 points, two rows of 24.  At the first point of a row the body clears the accumulator and then
  adds the point's pooled block to it; at every other point it adds the point's pooled block to what the point
  before left; at the last point of a row it also copies the accumulator into the output block.  So the
  accumulator after a point is `stepAt` of the point applied to the zero block (first point of a row) or to the
  accumulator after the point before (any other point), and the output block at the last point of a row is the
  accumulator there, reshaped.
-/
import proofs.«159682_j1322849927392_1_alg».proof.Proof.Gen.KernelIdeal.Frame
import proofs.«159682_j1322849927392_1_alg».proof.Proof.KernelPieces
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ)

/-- The six input blocks at a grid point, at their literal types. -/
abbrev blkA (c : Dev nD) (t : Fin cfg0.N) : Vec F S1x4x384x64 .f32 := iblk m c 0 t
abbrev blkC (c : Dev nD) (t : Fin cfg0.N) : Vec F S1x4x16x64 .f32 := iblk m c 1 t
abbrev blkW1 (c : Dev nD) (t : Fin cfg0.N) : Vec F S1x128x64 .f32 := iblk m c 2 t
abbrev blkB1 (c : Dev nD) (t : Fin cfg0.N) : Vec F S1x1x64 .f32 := iblk m c 3 t
abbrev blkW2 (c : Dev nD) (t : Fin cfg0.N) : Vec F S1x64x64 .f32 := iblk m c 4 t
abbrev blkB2 (c : Dev nD) (t : Fin cfg0.N) : Vec F S1x1x64 .f32 := iblk m c 5 t

/-- The accumulator after the body at point `t`, from the accumulator before it. -/
def stepAt (c : Dev nD) (t : Fin cfg0.N) (acc : Vec F S4x64 .f32) : Vec F S4x64 .f32 :=
  step (blkA m c t) (blkC m c t) (blkW1 m c t) (blkB1 m c t) (blkW2 m c t) (blkB2 m c t) acc

/-- The accumulator after point `n`. -/
abbrev scr (c : Dev nD) (n : ℕ) (h : n < cfg0.N) : Vec F S4x64 .f32 := (outsAt0 m c n h).2

/-- At the first point of a row the accumulator restarts from the zero block. -/
theorem scr_first (c : Dev nD) (t : Fin cfg0.N) (h0 : t.val % 24 = 0) :
    scr m c t.val t.isLt = stepAt m c t k0_pay3 := by
  have h1 : ¬t.val % 24 = 23 := by omega
  show (outsAt0 m c t.val t.isLt).2 = _
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) ((hcond0_0 t).mpr h0) (fun h => h1 ((hcond0_1 t).mp h))
    (iblk m c 0 t) (iblk m c 1 t) (iblk m c 2 t) (iblk m c 3 t) (iblk m c 4 t) (iblk m c 5 t)

/-- At any other point the accumulator continues from what the point before left. -/
theorem scr_next (c : Dev nD) (n : ℕ) (h : n + 1 < cfg0.N) (h0 : ¬(n + 1) % 24 = 0) :
    scr m c (n + 1) h = stepAt m c ⟨n + 1, h⟩ (scr m c n (Nat.lt_of_succ_lt h)) := by
  show (outsAt0 m c (⟨n + 1, h⟩ : Fin cfg0.N).val (⟨n + 1, h⟩ : Fin cfg0.N).isLt).2 = _
  by_cases h1 : (n + 1) % 24 = 23
  · rw [outsAt0_C m c ⟨n + 1, h⟩ h0 h1]
    dsimp only
    exact sout_C c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (ms0_5 ⟨n + 1, h⟩) (hs0_5 ⟨n + 1, h⟩) (ms0_6 ⟨n + 1, h⟩) (hs0_6 ⟨n + 1, h⟩) scM0_0 (Memref.isWhole_whole _)
      (fun hh => h0 ((hcond0_0 ⟨n + 1, h⟩).mp hh)) ((hcond0_1 ⟨n + 1, h⟩).mpr h1)
      (iblk m c 0 ⟨n + 1, h⟩) (iblk m c 1 ⟨n + 1, h⟩) (iblk m c 2 ⟨n + 1, h⟩) (iblk m c 3 ⟨n + 1, h⟩) (iblk m c 4 ⟨n + 1, h⟩)
      (iblk m c 5 ⟨n + 1, h⟩) (outsAt0 m c n (Nat.lt_of_succ_lt h)).2
  · rw [outsAt0_B m c ⟨n + 1, h⟩ h0 h1]
    dsimp only
    exact sout_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (ms0_5 ⟨n + 1, h⟩) (hs0_5 ⟨n + 1, h⟩) (ms0_6 ⟨n + 1, h⟩) (hs0_6 ⟨n + 1, h⟩) scM0_0 (Memref.isWhole_whole _)
      (fun hh => h0 ((hcond0_0 ⟨n + 1, h⟩).mp hh)) (fun hh => h1 ((hcond0_1 ⟨n + 1, h⟩).mp hh))
      (iblk m c 0 ⟨n + 1, h⟩) (iblk m c 1 ⟨n + 1, h⟩) (iblk m c 2 ⟨n + 1, h⟩) (iblk m c 3 ⟨n + 1, h⟩) (iblk m c 4 ⟨n + 1, h⟩)
      (iblk m c 5 ⟨n + 1, h⟩) (outsAt0 m c n (Nat.lt_of_succ_lt h)).2

/-- At the last point of a row the output block is the accumulator after that point, reshaped to [1, 4, 64]. -/
theorem out_last (c : Dev nD) (n : ℕ) (h : n + 1 < cfg0.N) (h1 : (n + 1) % 24 = 23) :
    (outsAt0 m c (n + 1) h).1 = k0_pay2 (scr m c (n + 1) h) := by
  have h0 : ¬(n + 1) % 24 = 0 := by omega
  rw [scr_next m c n h h0]
  show (outsAt0 m c (⟨n + 1, h⟩ : Fin cfg0.N).val (⟨n + 1, h⟩ : Fin cfg0.N).isLt).1 = _
  rw [outsAt0_C m c ⟨n + 1, h⟩ h0 h1]
  dsimp only
  exact out_C c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (ms0_5 ⟨n + 1, h⟩) (hs0_5 ⟨n + 1, h⟩) (ms0_6 ⟨n + 1, h⟩) (hs0_6 ⟨n + 1, h⟩) scM0_0 (Memref.isWhole_whole _)
    (fun hh => h0 ((hcond0_0 ⟨n + 1, h⟩).mp hh)) ((hcond0_1 ⟨n + 1, h⟩).mpr h1)
    (iblk m c 0 ⟨n + 1, h⟩) (iblk m c 1 ⟨n + 1, h⟩) (iblk m c 2 ⟨n + 1, h⟩) (iblk m c 3 ⟨n + 1, h⟩) (iblk m c 4 ⟨n + 1, h⟩)
    (iblk m c 5 ⟨n + 1, h⟩) (outsAt0 m c n (Nat.lt_of_succ_lt h)).2

end Cert.KernelIdeal.Acc

end
-- ==== Proof.PairSpec.lean ====
/-
  The mathematics both programs compute, stated once over plain functions of coordinates.

  A pair encoder takes two rows `a`, `c` of 64 numbers, forms the hidden layer
  `relu (a·Wa + c·Wc + b1)` (64 numbers), and returns `hidden·W2 + b2` (64 numbers).  The pooled value of a
  row `c` against a family of 384 rows `A j` is the maximum over `j` of the encodings of `(A j, c)`, taken
  from the bottom of the extended reals.  Everything downstream is a sum of pooled values over the 384 rows `c`.

  Over the extended reals sums commute and associate, so a sum taken tile by tile (24 tiles of 16 rows) is the
  sum over all 384 rows.  The one law that needs finiteness is `∑ (f - g) = ∑ f - ∑ g`: it holds when every
  term is a real number, and a pooled value is a real number as soon as every input entry is.
-/
import Idealize.ShloMosaic.PureOps.Ideal
import Idealize.ShloMosaic.PureOps.Ideal.Laws

noncomputable section

namespace Cert.PairPool

open Idealize.ShloMosaic

/-- The hidden layer of one pair `(a, c)`, coordinate `h`: `relu (a·Wa + c·Wc + b1)`. -/
def hid (a c : Fin 64 → EReal) (Wa Wc : Fin 64 → Fin 64 → EReal) (b1 : Fin 64 → EReal) (h : Fin 64) : EReal :=
  max (((∑ d : Fin 64, a d * Wa d h) + (∑ d : Fin 64, c d * Wc d h)) + b1 h) 0

/-- The encoding of one pair, coordinate `k`: `hidden·W2 + b2`. -/
def enc (a c : Fin 64 → EReal) (Wa Wc : Fin 64 → Fin 64 → EReal) (b1 : Fin 64 → EReal)
    (W2 : Fin 64 → Fin 64 → EReal) (b2 : Fin 64 → EReal) (k : Fin 64) : EReal :=
  (∑ h : Fin 64, hid a c Wa Wc b1 h * W2 h k) + b2 k

/-- The pooled value of the row `c` against the 384 rows `A j`: the maximum of the encodings, from `⊥`. -/
def pool (A : Fin 384 → Fin 64 → EReal) (c : Fin 64 → EReal) (Wa Wc : Fin 64 → Fin 64 → EReal) (b1 : Fin 64 → EReal)
    (W2 : Fin 64 → Fin 64 → EReal) (b2 : Fin 64 → EReal) (k : Fin 64) : EReal :=
  (Finset.univ : Finset (Fin 384)).fold max ⊥ (fun j => enc (A j) c Wa Wc b1 W2 b2 k)

/-! ## The two float constants the programs spell as bit patterns -/

theorem ofBits_zero : FloatOps.ofBits (F := Ideal) .f32 0x00000000#32 = (0 : EReal) := by
  simp [Ideal.ofBits, Ideal.ieee]

theorem ofBits_negInf : FloatOps.ofBits (F := Ideal) .f32 0xFF800000#32 = (⊥ : EReal) := by
  simp [Ideal.ofBits, Ideal.ieee]

/-! ## Real-valued extended reals -/

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sup {x y : EReal} (hx : IsReal x) (hy : IsReal y) : IsReal (max x y) := by
  rcases max_choice x y with h | h <;> rw [h] <;> assumption

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- The maximum, from `⊥`, of a nonempty finite family of real numbers is a real number. -/
theorem IsReal.fold_max {ι : Type*} (s : Finset ι) (hs : s.Nonempty) (f : ι → EReal) (hf : ∀ i ∈ s, IsReal (f i)) :
    IsReal (s.fold max ⊥ f) := by
  classical
  induction hs using Finset.Nonempty.cons_induction with
  | singleton a =>
    rw [Finset.fold_singleton, max_eq_left bot_le]; exact hf a (Finset.mem_singleton_self a)
  | cons a s ha hs ih =>
    rw [Finset.fold_cons]
    exact (hf a (Finset.mem_cons_self a s)).sup (ih fun i hi => hf i (Finset.mem_cons.mpr (Or.inr hi)))

theorem hid_isReal {a c : Fin 64 → EReal} {Wa Wc : Fin 64 → Fin 64 → EReal} {b1 : Fin 64 → EReal}
    (ha : ∀ d, IsReal (a d)) (hc : ∀ d, IsReal (c d)) (hWa : ∀ d h, IsReal (Wa d h)) (hWc : ∀ d h, IsReal (Wc d h))
    (hb1 : ∀ h, IsReal (b1 h)) (h : Fin 64) : IsReal (hid a c Wa Wc b1 h) :=
  (((IsReal.sum _ _ fun d _ => (ha d).mul (hWa d h)).add (IsReal.sum _ _ fun d _ => (hc d).mul (hWc d h))).add (hb1 h)).sup
    IsReal.zero

theorem enc_isReal {a c : Fin 64 → EReal} {Wa Wc : Fin 64 → Fin 64 → EReal} {b1 : Fin 64 → EReal}
    {W2 : Fin 64 → Fin 64 → EReal} {b2 : Fin 64 → EReal}
    (ha : ∀ d, IsReal (a d)) (hc : ∀ d, IsReal (c d)) (hWa : ∀ d h, IsReal (Wa d h)) (hWc : ∀ d h, IsReal (Wc d h))
    (hb1 : ∀ h, IsReal (b1 h)) (hW2 : ∀ h k, IsReal (W2 h k)) (hb2 : ∀ k, IsReal (b2 k)) (k : Fin 64) :
    IsReal (enc a c Wa Wc b1 W2 b2 k) :=
  (IsReal.sum _ _ fun h _ => (hid_isReal ha hc hWa hWc hb1 h).mul (hW2 h k)).add (hb2 k)

/-- A pooled value of real inputs is a real number. -/
theorem pool_isReal {A : Fin 384 → Fin 64 → EReal} {c : Fin 64 → EReal} {Wa Wc : Fin 64 → Fin 64 → EReal}
    {b1 : Fin 64 → EReal} {W2 : Fin 64 → Fin 64 → EReal} {b2 : Fin 64 → EReal}
    (hA : ∀ j d, IsReal (A j d)) (hc : ∀ d, IsReal (c d)) (hWa : ∀ d h, IsReal (Wa d h)) (hWc : ∀ d h, IsReal (Wc d h))
    (hb1 : ∀ h, IsReal (b1 h)) (hW2 : ∀ h k, IsReal (W2 h k)) (hb2 : ∀ k, IsReal (b2 k)) (k : Fin 64) :
    IsReal (pool A c Wa Wc b1 W2 b2 k) :=
  IsReal.fold_max _ ⟨⟨0, by decide⟩, Finset.mem_univ _⟩ _ fun j _ => enc_isReal (hA j) hc hWa hWc hb1 hW2 hb2 k

/-! ## The laws of sums -/

theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The sum of differences of real numbers is the difference of the sums. -/
theorem sum_sub_of_isReal {ι : Type*} [Fintype ι] (f g : ι → EReal) (hf : ∀ i, IsReal (f i)) (hg : ∀ i, IsReal (g i)) :
    ∑ i, (f i - g i) = (∑ i, f i) - ∑ i, g i := by
  choose rf hrf using hf
  choose rg hrg using hg
  simp only [hrf, hrg]
  rw [← coe_sum, ← coe_sum, ← EReal.coe_sub, ← Finset.sum_sub_distrib, coe_sum]
  exact Finset.sum_congr rfl fun i _ => (EReal.coe_sub _ _).symm

/-- A sum over 24 tiles of 16 rows is the sum over the 384 rows. -/
theorem sum_tiles {M : Type*} [AddCommMonoid M] (f : Fin 384 → M) (e : Fin 24 → Fin 16 → Fin 384)
    (he : ∀ t ii, (e t ii).val = 16 * t.val + ii.val) : ∑ t : Fin 24, ∑ ii : Fin 16, f (e t ii) = ∑ i : Fin 384, f i := by
  rw [← Fintype.sum_prod_type' (f := fun t ii => f (e t ii))]
  rw [← Equiv.sum_comp (finProdFinEquiv (m := 24) (n := 16)) f]
  refine Finset.sum_congr rfl fun p _ => congrArg f (Fin.ext ?_)
  rw [he]
  show 16 * p.1.val + p.2.val = p.2.val + 16 * p.1.val
  omega

end Cert.PairPool

end
-- ==== Proof.KernelPayload.lean ====
/-
  The kernel's arithmetic at an index.

  One grid step holds a block of 4 batches: 384 rows `A b j` of 64 numbers per batch, and 16 rows `C b ii` per batch.
  It forms `A·Wa` (rows flattened to [1536, 64]) and `C·Wc` (rows flattened to [64, 64]) as two matrix products, adds
  them for every pair `(ii, j)` together with the bias, clamps at zero, flattens the 4·16·384 pairs to rows
  `r = (b·16 + ii)·384 + j`, multiplies by `W2`, adds the second bias, takes the maximum over `j` and the sum over
  `ii`, and adds the result to the accumulator.  At the extended reals a change of float format is the identity, a
  matrix product is the finite sum of products over the contracted coordinate, and a reshape keeps the row-major
  position, so each entry of the result is the accumulator's entry plus the sum over the 16 rows `C b ii` of their
  pooled values against the 384 rows `A b j`.
-/
import proofs.«159682_j1322849927392_1_alg».proof.Proof.Gen.KernelIdeal.Skeleton
import proofs.«159682_j1322849927392_1_alg».proof.Proof.PairSpec
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal

/-! ## Reshapes and broadcasts at explicit coordinates

A reshape keeps the row-major position: row `r` of [1536, 64] is `(b, j)` with `r = b·384 + j`, row `r` of [64, 64] is
`(b, ii)` with `r = b·16 + ii`, row `r` of [24576, 64] is `(b, ii, j)` with `r = (b·16 + ii)·384 + j`.  A broadcast
reads the operand at `0` on its unit axes. -/

section Layout
variable {α : Type}

/-- A [1, 64, 64] block viewed as a matrix. -/
theorem cast_W (x : S1x64x64.Idx → α) (hc : S1x64x64.ShapeCasts S64x64) (d h : Fin 64) :
    shapeCast S64x64 x hc (ix2 d h) = x (ix3 0 d h) :=
  shapeCast_apply x hc (ix2 d h) (ix3 0 d h) (by
    rw [Shape.rowMajor_val_three, Shape.rowMajor_val_two]
    show ((0 : ℕ) * 64 + d.val) * 64 + h.val = d.val * 64 + h.val
    omega)

/-- The 4·384 rows `A b j` flattened: row `b·384 + j`. -/
theorem cast_A (x : S1x4x384x64.Idx → α) (h1 : S1x4x384x64.ShapeCasts S4x384x64) (h2 : S4x384x64.ShapeCasts S1536x64)
    (b : Fin 4) (j : Fin 384) (d : Fin 64) (r : Fin 1536) (hr : r.val = b.val * 384 + j.val) :
    shapeCast S1536x64 (shapeCast S4x384x64 x h1) h2 (ix2 r d) = x (ix4 0 b j d) :=
  (shapeCast_apply _ h2 (ix2 r d) (ix3 b j d) (by
    rw [Shape.rowMajor_val_three, Shape.rowMajor_val_two]
    show (b.val * 384 + j.val) * 64 + d.val = r.val * 64 + d.val
    omega)).trans
  (shapeCast_apply x h1 (ix3 b j d) (ix4 0 b j d) (by
    rw [Shape.rowMajor_val_four, Shape.rowMajor_val_three]
    show ((((0 : ℕ) * 4 + b.val) * 384 + j.val) * 64 + d.val) = (b.val * 384 + j.val) * 64 + d.val
    omega))

/-- ... and back: entry `(b, j)` of the unflattened product is row `b·384 + j`. -/
theorem uncast_A (y : S1536x64.Idx → α) (hc : S1536x64.ShapeCasts S4x384x64)
    (b : Fin 4) (j : Fin 384) (h : Fin 64) (r : Fin 1536) (hr : r.val = b.val * 384 + j.val) :
    shapeCast S4x384x64 y hc (ix3 b j h) = y (ix2 r h) :=
  shapeCast_apply y hc (ix3 b j h) (ix2 r h) (by
    rw [Shape.rowMajor_val_three, Shape.rowMajor_val_two]
    show r.val * 64 + h.val = (b.val * 384 + j.val) * 64 + h.val
    omega)

/-- The 4·16 rows `C b ii` flattened: row `b·16 + ii`. -/
theorem cast_C (x : S1x4x16x64.Idx → α) (h1 : S1x4x16x64.ShapeCasts S4x16x64) (h2 : S4x16x64.ShapeCasts S64x64)
    (b : Fin 4) (ii : Fin 16) (d : Fin 64) (r : Fin 64) (hr : r.val = b.val * 16 + ii.val) :
    shapeCast S64x64 (shapeCast S4x16x64 x h1) h2 (ix2 r d) = x (ix4 0 b ii d) :=
  (shapeCast_apply _ h2 (ix2 r d) (ix3 b ii d) (by
    rw [Shape.rowMajor_val_three, Shape.rowMajor_val_two]
    show (b.val * 16 + ii.val) * 64 + d.val = r.val * 64 + d.val
    omega)).trans
  (shapeCast_apply x h1 (ix3 b ii d) (ix4 0 b ii d) (by
    rw [Shape.rowMajor_val_four, Shape.rowMajor_val_three]
    show ((((0 : ℕ) * 4 + b.val) * 16 + ii.val) * 64 + d.val) = (b.val * 16 + ii.val) * 64 + d.val
    omega))

/-- ... and back. -/
theorem uncast_C (y : S64x64.Idx → α) (hc : S64x64.ShapeCasts S4x16x64)
    (b : Fin 4) (ii : Fin 16) (h : Fin 64) (r : Fin 64) (hr : r.val = b.val * 16 + ii.val) :
    shapeCast S4x16x64 y hc (ix3 b ii h) = y (ix2 r h) :=
  shapeCast_apply y hc (ix3 b ii h) (ix2 r h) (by
    rw [Shape.rowMajor_val_three, Shape.rowMajor_val_two]
    show r.val * 64 + h.val = (b.val * 16 + ii.val) * 64 + h.val
    omega)

/-- The `A` side repeated along the 16 rows `C b ii`. -/
theorem bcast_A (x : S4x384x64.Idx → α) (h1 : S4x384x64.ShapeCasts S4x1x384x64) (h2 : S4x1x384x64.Broadcasts S4x16x384x64)
    (b : Fin 4) (ii : Fin 16) (j : Fin 384) (h : Fin 64) :
    broadcastTo S4x16x384x64 (shapeCast S4x1x384x64 x h1) h2 (ix4 b ii j h) = x (ix3 b j h) :=
  (broadcastTo_apply _ h2 (ix4 b ii j h) (ix4 b 0 j h) (fun a => match a with
    | ⟨0, _⟩ => rfl | ⟨1, _⟩ => rfl | ⟨2, _⟩ => rfl | ⟨3, _⟩ => rfl)).trans
  (shapeCast_apply x h1 (ix4 b 0 j h) (ix3 b j h) (by
    rw [Shape.rowMajor_val_four, Shape.rowMajor_val_three]
    show (b.val * 384 + j.val) * 64 + h.val = ((b.val * 1 + (0 : ℕ)) * 384 + j.val) * 64 + h.val
    omega))

/-- The `C` side repeated along the 384 rows `A b j`. -/
theorem bcast_C (x : S4x16x64.Idx → α) (h1 : S4x16x64.ShapeCasts S4x16x1x64) (h2 : S4x16x1x64.Broadcasts S4x16x384x64)
    (b : Fin 4) (ii : Fin 16) (j : Fin 384) (h : Fin 64) :
    broadcastTo S4x16x384x64 (shapeCast S4x16x1x64 x h1) h2 (ix4 b ii j h) = x (ix3 b ii h) :=
  (broadcastTo_apply _ h2 (ix4 b ii j h) (ix4 b ii 0 h) (fun a => match a with
    | ⟨0, _⟩ => rfl | ⟨1, _⟩ => rfl | ⟨2, _⟩ => rfl | ⟨3, _⟩ => rfl)).trans
  (shapeCast_apply x h1 (ix4 b ii 0 h) (ix3 b ii h) (by
    rw [Shape.rowMajor_val_four, Shape.rowMajor_val_three]
    show (b.val * 16 + ii.val) * 64 + h.val = ((b.val * 16 + ii.val) * 1 + (0 : ℕ)) * 64 + h.val
    omega))

/-- A bias row repeated over every pair. -/
theorem bcast_B (x : S1x1x64.Idx → α) (h1 : S1x1x64.ShapeCasts S1x64) (h2 : S1x64.ShapeCasts S1x1x1x64)
    (h3 : S1x1x1x64.Broadcasts S4x16x384x64) (b : Fin 4) (ii : Fin 16) (j : Fin 384) (h : Fin 64) :
    broadcastTo S4x16x384x64 (shapeCast S1x1x1x64 (shapeCast S1x64 x h1) h2) h3 (ix4 b ii j h) = x (ix3 0 0 h) :=
  (broadcastTo_apply _ h3 (ix4 b ii j h) (ix4 0 0 0 h) (fun a => match a with
    | ⟨0, _⟩ => rfl | ⟨1, _⟩ => rfl | ⟨2, _⟩ => rfl | ⟨3, _⟩ => rfl)).trans
  ((shapeCast_apply _ h2 (ix4 0 0 0 h) (ix2 0 h) (by
    rw [Shape.rowMajor_val_four, Shape.rowMajor_val_two]
    show (0 : ℕ) * 64 + h.val = ((((0 : ℕ) * 1 + 0) * 1 + 0) * 64 + h.val)
    omega)).trans
  (shapeCast_apply x h1 (ix2 0 h) (ix3 0 0 h) (by
    rw [Shape.rowMajor_val_three, Shape.rowMajor_val_two]
    show (((0 : ℕ) * 1 + 0) * 64 + h.val) = (0 : ℕ) * 64 + h.val
    omega)))

/-- The 4·16·384 pairs flattened: row `(b·16 + ii)·384 + j`. -/
theorem cast_P (x : S4x16x384x64.Idx → α) (hc : S4x16x384x64.ShapeCasts S24576x64)
    (b : Fin 4) (ii : Fin 16) (j : Fin 384) (h : Fin 64) (r : Fin 24576) (hr : r.val = (b.val * 16 + ii.val) * 384 + j.val) :
    shapeCast S24576x64 x hc (ix2 r h) = x (ix4 b ii j h) :=
  shapeCast_apply x hc (ix2 r h) (ix4 b ii j h) (by
    rw [Shape.rowMajor_val_four, Shape.rowMajor_val_two]
    show ((b.val * 16 + ii.val) * 384 + j.val) * 64 + h.val = r.val * 64 + h.val
    omega)

/-- ... and back. -/
theorem uncast_P (y : S24576x64.Idx → α) (hc : S24576x64.ShapeCasts S4x16x384x64)
    (b : Fin 4) (ii : Fin 16) (j : Fin 384) (k : Fin 64) (r : Fin 24576) (hr : r.val = (b.val * 16 + ii.val) * 384 + j.val) :
    shapeCast S4x16x384x64 y hc (ix4 b ii j k) = y (ix2 r k) :=
  shapeCast_apply y hc (ix4 b ii j k) (ix2 r k) (by
    rw [Shape.rowMajor_val_four, Shape.rowMajor_val_two]
    show r.val * 64 + k.val = ((b.val * 16 + ii.val) * 384 + j.val) * 64 + k.val
    omega)

end Layout

/-! ## The three matrix products

Each contracts the second axis of the left operand with the first of the right one; into the zero matrix its entry
`(r, h)` is `∑ d, X r d * W d h`. -/

/-- The four coordinates of the operand indices of the product of the 1536 flattened rows `A b j` with `Wa`: the left operand is read at (row, contracted), the right at
    (contracted, column). -/
theorem lhs_A_0 (i : S1536x64.Idx) (q : dot_S1536x64_S64x64_S1536x64_1_0_0_1_n_n.contr.Idx) :
    (dot_S1536x64_S64x64_S1536x64_1_0_0_1_n_n.lhsIdx i q 0).val = (i 0).val := by
  unfold DotDims.lhsIdx
  rw [dif_neg (show ¬(0 : Fin S1536x64.rank) ∈ dot_S1536x64_S64x64_S1536x64_1_0_0_1_n_n.lhsBatch by decide), dif_pos (show (0 : Fin S1536x64.rank) ∈ dot_S1536x64_S64x64_S1536x64_1_0_0_1_n_n.lhsNonContracting by decide)]
  rfl
theorem lhs_A_1 (i : S1536x64.Idx) (q : dot_S1536x64_S64x64_S1536x64_1_0_0_1_n_n.contr.Idx) :
    (dot_S1536x64_S64x64_S1536x64_1_0_0_1_n_n.lhsIdx i q 1).val = (q ⟨0, by decide⟩).val :=
  dot_S1536x64_S64x64_S1536x64_1_0_0_1_n_n.lhsIdx_val_of_single rfl i q
theorem rhs_A_0 (i : S1536x64.Idx) (q : dot_S1536x64_S64x64_S1536x64_1_0_0_1_n_n.contr.Idx) :
    (dot_S1536x64_S64x64_S1536x64_1_0_0_1_n_n.rhsIdx i q 0).val = (q ⟨0, by decide⟩).val :=
  dot_S1536x64_S64x64_S1536x64_1_0_0_1_n_n.rhsIdx_val_of_single rfl i q
theorem rhs_A_1 (i : S1536x64.Idx) (q : dot_S1536x64_S64x64_S1536x64_1_0_0_1_n_n.contr.Idx) :
    (dot_S1536x64_S64x64_S1536x64_1_0_0_1_n_n.rhsIdx i q 1).val = (i 1).val := by
  unfold DotDims.rhsIdx
  rw [dif_neg (show ¬(1 : Fin S64x64.rank) ∈ dot_S1536x64_S64x64_S1536x64_1_0_0_1_n_n.rhsBatch by decide), dif_pos (show (1 : Fin S64x64.rank) ∈ dot_S1536x64_S64x64_S1536x64_1_0_0_1_n_n.rhsNonContracting by decide)]
  rfl

/-- the product of the 1536 flattened rows `A b j` with `Wa` into the zero matrix, at row `r` and column `h`: the sum over the contracted coordinate. -/
theorem mm_A (X : FVec Ideal S1536x64 .bf16) (W : FVec Ideal S64x64 .bf16) (r : Fin 1536) (h : Fin 64) :
    matmul dot_S1536x64_S64x64_S1536x64_1_0_0_1_n_n none X W (constant (F := Ideal) S1536x64 .f32 0x00000000#32) (ix2 r h)
      = ∑ d : Fin 64, X (ix2 r d) * W (ix2 d h) := by
  simp only [matmul]
  rw [Ideal.matmul_constant_zero_apply, ← Equiv.sum_comp (contrEquiv1 dot_S1536x64_S64x64_S1536x64_1_0_0_1_n_n 64 rfl rfl).symm]
  refine Finset.sum_congr rfl fun k _ => ?_
  have hk := contrEquiv1_symm_val dot_S1536x64_S64x64_S1536x64_1_0_0_1_n_n 64 rfl rfl k
  have el : dot_S1536x64_S64x64_S1536x64_1_0_0_1_n_n.lhsIdx (ix2 r h) ((contrEquiv1 dot_S1536x64_S64x64_S1536x64_1_0_0_1_n_n 64 rfl rfl).symm k) = ix2 r k := funext fun a => Fin.ext (by
    match a with
    | ⟨0, _⟩ => exact lhs_A_0 _ _
    | ⟨1, _⟩ => exact (lhs_A_1 _ _).trans hk)
  have er : dot_S1536x64_S64x64_S1536x64_1_0_0_1_n_n.rhsIdx (ix2 r h) ((contrEquiv1 dot_S1536x64_S64x64_S1536x64_1_0_0_1_n_n 64 rfl rfl).symm k) = ix2 k h := funext fun a => Fin.ext (by
    match a with
    | ⟨0, _⟩ => exact (rhs_A_0 _ _).trans hk
    | ⟨1, _⟩ => exact rhs_A_1 _ _)
  rw [el, er]

/-- The four coordinates of the operand indices of the product of the 64 flattened rows `C b ii` with `Wc`: the left operand is read at (row, contracted), the right at
    (contracted, column). -/
theorem lhs_C_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
theorem lhs_C_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
theorem rhs_C_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
theorem rhs_C_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

/-- the product of the 64 flattened rows `C b ii` with `Wc` into the zero matrix, at row `r` and column `h`: the sum over the contracted coordinate. -/
theorem mm_C (X : FVec Ideal S64x64 .bf16) (W : FVec Ideal S64x64 .bf16) (r : Fin 64) (h : Fin 64) :
    matmul dot_S64x64_S64x64_S64x64_1_0_0_1_n_n none X W (constant (F := Ideal) S64x64 .f32 0x00000000#32) (ix2 r h)
      = ∑ d : Fin 64, X (ix2 r d) * W (ix2 d h) := by
  simp only [matmul]
  rw [Ideal.matmul_constant_zero_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 r h) ((contrEquiv1 dot_S64x64_S64x64_S64x64_1_0_0_1_n_n 64 rfl rfl).symm k) = ix2 r k := funext fun a => Fin.ext (by
    match a with
    | ⟨0, _⟩ => exact lhs_C_0 _ _
    | ⟨1, _⟩ => exact (lhs_C_1 _ _).trans hk)
  have er : dot_S64x64_S64x64_S64x64_1_0_0_1_n_n.rhsIdx (ix2 r h) ((contrEquiv1 dot_S64x64_S64x64_S64x64_1_0_0_1_n_n 64 rfl rfl).symm k) = ix2 k h := funext fun a => Fin.ext (by
    match a with
    | ⟨0, _⟩ => exact (rhs_C_0 _ _).trans hk
    | ⟨1, _⟩ => exact rhs_C_1 _ _)
  rw [el, er]

/-- The four coordinates of the operand indices of the product of the 24576 flattened hidden rows with `W2`: the left operand is read at (row, contracted), the right at
    (contracted, column). -/
theorem lhs_P_0 (i : S24576x64.Idx) (q : dot_S24576x64_S64x64_S24576x64_1_0_0_1_n_n.contr.Idx) :
    (dot_S24576x64_S64x64_S24576x64_1_0_0_1_n_n.lhsIdx i q 0).val = (i 0).val := by
  unfold DotDims.lhsIdx
  rw [dif_neg (show ¬(0 : Fin S24576x64.rank) ∈ dot_S24576x64_S64x64_S24576x64_1_0_0_1_n_n.lhsBatch by decide), dif_pos (show (0 : Fin S24576x64.rank) ∈ dot_S24576x64_S64x64_S24576x64_1_0_0_1_n_n.lhsNonContracting by decide)]
  rfl
theorem lhs_P_1 (i : S24576x64.Idx) (q : dot_S24576x64_S64x64_S24576x64_1_0_0_1_n_n.contr.Idx) :
    (dot_S24576x64_S64x64_S24576x64_1_0_0_1_n_n.lhsIdx i q 1).val = (q ⟨0, by decide⟩).val :=
  dot_S24576x64_S64x64_S24576x64_1_0_0_1_n_n.lhsIdx_val_of_single rfl i q
theorem rhs_P_0 (i : S24576x64.Idx) (q : dot_S24576x64_S64x64_S24576x64_1_0_0_1_n_n.contr.Idx) :
    (dot_S24576x64_S64x64_S24576x64_1_0_0_1_n_n.rhsIdx i q 0).val = (q ⟨0, by decide⟩).val :=
  dot_S24576x64_S64x64_S24576x64_1_0_0_1_n_n.rhsIdx_val_of_single rfl i q
theorem rhs_P_1 (i : S24576x64.Idx) (q : dot_S24576x64_S64x64_S24576x64_1_0_0_1_n_n.contr.Idx) :
    (dot_S24576x64_S64x64_S24576x64_1_0_0_1_n_n.rhsIdx i q 1).val = (i 1).val := by
  unfold DotDims.rhsIdx
  rw [dif_neg (show ¬(1 : Fin S64x64.rank) ∈ dot_S24576x64_S64x64_S24576x64_1_0_0_1_n_n.rhsBatch by decide), dif_pos (show (1 : Fin S64x64.rank) ∈ dot_S24576x64_S64x64_S24576x64_1_0_0_1_n_n.rhsNonContracting by decide)]
  rfl

/-- the product of the 24576 flattened hidden rows with `W2` into the zero matrix, at row `r` and column `h`: the sum over the contracted coordinate. -/
theorem mm_P (X : FVec Ideal S24576x64 .bf16) (W : FVec Ideal S64x64 .bf16) (r : Fin 24576) (h : Fin 64) :
    matmul dot_S24576x64_S64x64_S24576x64_1_0_0_1_n_n none X W (constant (F := Ideal) S24576x64 .f32 0x00000000#32) (ix2 r h)
      = ∑ d : Fin 64, X (ix2 r d) * W (ix2 d h) := by
  simp only [matmul]
  rw [Ideal.matmul_constant_zero_apply, ← Equiv.sum_comp (contrEquiv1 dot_S24576x64_S64x64_S24576x64_1_0_0_1_n_n 64 rfl rfl).symm]
  refine Finset.sum_congr rfl fun k _ => ?_
  have hk := contrEquiv1_symm_val dot_S24576x64_S64x64_S24576x64_1_0_0_1_n_n 64 rfl rfl k
  have el : dot_S24576x64_S64x64_S24576x64_1_0_0_1_n_n.lhsIdx (ix2 r h) ((contrEquiv1 dot_S24576x64_S64x64_S24576x64_1_0_0_1_n_n 64 rfl rfl).symm k) = ix2 r k := funext fun a => Fin.ext (by
    match a with
    | ⟨0, _⟩ => exact lhs_P_0 _ _
    | ⟨1, _⟩ => exact (lhs_P_1 _ _).trans hk)
  have er : dot_S24576x64_S64x64_S24576x64_1_0_0_1_n_n.rhsIdx (ix2 r h) ((contrEquiv1 dot_S24576x64_S64x64_S24576x64_1_0_0_1_n_n 64 rfl rfl).symm k) = ix2 k h := funext fun a => Fin.ext (by
    match a with
    | ⟨0, _⟩ => exact (rhs_P_0 _ _).trans hk
    | ⟨1, _⟩ => exact rhs_P_1 _ _)
  rw [el, er]

/-! ## The stages of one step

The payloads, cut at the two places where a whole array is handed on: the clamped hidden layer of every pair, and the
encoding of every pair before the maximum. -/

/-- `A·Wa` for the 4·384 rows of the block. -/
def prodA (Wa : Vec Ideal S1x64x64 .f32) (A : Vec Ideal S1x4x384x64 .f32) : FVec Ideal S4x384x64 .f32 :=
  shapeCast S4x384x64
    (matmul dot_S1536x64_S64x64_S1536x64_1_0_0_1_n_n none
      (truncf (F := Ideal) .bf16
        (shapeCast S1536x64 (shapeCast S4x384x64 A Gen.shapeCasts_S1x4x384x64_S4x384x64 : FVec Ideal S4x384x64 .f32)
          Gen.shapeCasts_S4x384x64_S1536x64 : FVec Ideal S1536x64 .f32) Gen.bitsLt_bf16_f32)
      (truncf (F := Ideal) .bf16 (shapeCast S64x64 Wa Gen.shapeCasts_S1x64x64_S64x64 : FVec Ideal S64x64 .f32) Gen.bitsLt_bf16_f32)
      (constant (F := Ideal) S1536x64 .f32 0x00000000#32) : FVec Ideal S1536x64 .f32)
    Gen.shapeCasts_S1536x64_S4x384x64

/-- `C·Wc` for the 4·16 rows of the block. -/
def prodC (Wc : Vec Ideal S1x64x64 .f32) (C : Vec Ideal S1x4x16x64 .f32) : FVec Ideal S4x16x64 .f32 :=
  shapeCast S4x16x64
    (matmul dot_S64x64_S64x64_S64x64_1_0_0_1_n_n none
      (truncf (F := Ideal) .bf16
        (shapeCast S64x64 (shapeCast S4x16x64 C Gen.shapeCasts_S1x4x16x64_S4x16x64 : FVec Ideal S4x16x64 .f32)
          Gen.shapeCasts_S4x16x64_S64x64 : FVec Ideal S64x64 .f32) Gen.bitsLt_bf16_f32)
      (truncf (F := Ideal) .bf16 (shapeCast S64x64 Wc Gen.shapeCasts_S1x64x64_S64x64 : FVec Ideal S64x64 .f32) Gen.bitsLt_bf16_f32)
      (constant (F := Ideal) S64x64 .f32 0x00000000#32) : FVec Ideal S64x64 .f32)
    Gen.shapeCasts_S64x64_S4x16x64

/-- The hidden layer of every pair `(C b ii, A b j)`: `max (A·Wa + C·Wc + b1) 0`. -/
def hidden (Wa Wc : Vec Ideal S1x64x64 .f32) (A : Vec Ideal S1x4x384x64 .f32) (C : Vec Ideal S1x4x16x64 .f32)
    (b1 : Vec Ideal S1x1x64 .f32) : FVec Ideal S4x16x384x64 .f32 :=
  maximumf
    (addf
      (addf
        (broadcastTo S4x16x384x64 (shapeCast S4x1x384x64 (prodA Wa A) Gen.shapeCasts_S4x384x64_S4x1x384x64 : FVec Ideal S4x1x384x64 .f32)
          Gen.broadcasts_S4x1x384x64_S4x16x384x64 : FVec Ideal S4x16x384x64 .f32)
        (broadcastTo S4x16x384x64 (shapeCast S4x16x1x64 (prodC Wc C) Gen.shapeCasts_S4x16x64_S4x16x1x64 : FVec Ideal S4x16x1x64 .f32)
          Gen.broadcasts_S4x16x1x64_S4x16x384x64 : FVec Ideal S4x16x384x64 .f32))
      (broadcastTo S4x16x384x64
        (shapeCast S1x1x1x64 (shapeCast S1x64 b1 Gen.shapeCasts_S1x1x64_S1x64 : FVec Ideal S1x64 .f32) Gen.shapeCasts_S1x64_S1x1x1x64 : FVec Ideal S1x1x1x64 .f32)
        Gen.broadcasts_S1x1x1x64_S4x16x384x64 : FVec Ideal S4x16x384x64 .f32))
    (broadcast S4x16x384x64 (Scalar.ofBits (F := Ideal) .f32 0x00000000#32))

/-- The first payload is the hidden layer, its pairs flattened to rows; the change of format is the identity. -/
theorem pay4_eq (v3 v5 : Vec Ideal S1x64x64 .f32) (v7 : Vec Ideal S1x4x384x64 .f32) (v14 : Vec Ideal S1x4x16x64 .f32)
    (v26 : Vec Ideal S1x1x64 .f32) :
    Gen.k0_pay4 (F := Ideal) v3 v5 v7 v14 v26
      = truncf (F := Ideal) .bf16
          (shapeCast S24576x64 (hidden v3 v5 v7 v14 v26) Gen.shapeCasts_S4x16x384x64_S24576x64 : FVec Ideal S24576x64 .f32)
          Gen.bitsLt_bf16_f32 := rfl

/-- The encoding of every pair from the flattened hidden rows `H`: `H·W2 + b2`. -/
def encoded (H : FVec Ideal S24576x64 .bf16) (W2 : Vec Ideal S1x64x64 .f32) (b2 : Vec Ideal S1x1x64 .f32) :
    FVec Ideal S4x16x384x64 .f32 :=
  addf
    (shapeCast S4x16x384x64
      (matmul dot_S24576x64_S64x64_S24576x64_1_0_0_1_n_n none H
        (truncf (F := Ideal) .bf16 (shapeCast S64x64 W2 Gen.shapeCasts_S1x64x64_S64x64 : FVec Ideal S64x64 .f32) Gen.bitsLt_bf16_f32)
        (constant (F := Ideal) S24576x64 .f32 0x00000000#32) : FVec Ideal S24576x64 .f32)
      Gen.shapeCasts_S24576x64_S4x16x384x64 : FVec Ideal S4x16x384x64 .f32)
    (broadcastTo S4x16x384x64
      (shapeCast S1x1x1x64 (shapeCast S1x64 b2 Gen.shapeCasts_S1x1x64_S1x64 : FVec Ideal S1x64 .f32) Gen.shapeCasts_S1x64_S1x1x1x64 : FVec Ideal S1x1x1x64 .f32)
      Gen.broadcasts_S1x1x1x64_S4x16x384x64 : FVec Ideal S4x16x384x64 .f32)

/-- The second payload: the accumulator plus the sum over `ii` of the maximum over `j` of the encodings. -/
theorem pay1_eq (v34 : FVec Ideal S24576x64 .bf16) (v35 : Vec Ideal S1x64x64 .f32) (v40 : Vec Ideal S1x1x64 .f32)
    (v47 : Vec Ideal S4x64 .f32) :
    Gen.k0_pay1 (F := Ideal) v34 v35 v40 v47
      = shapeCast S4x64
          (addf (F := Ideal) v47
            (multiReduction (F := Ideal) .add [1] S4x64
              (multiReduction (F := Ideal) .maximumf [2] S4x16x64 (encoded v34 v35 v40) 0xFF800000#32
                Gen.reduces_S4x16x384x64_S4x16x64 (.inl rfl) rfl)
              0x00000000#32 Gen.reduces_S4x16x64_S4x64 (.inl rfl) rfl))
          Gen.shapeCasts_S4x64_S4x64 := rfl

/-! ## Each stage at an index -/

/-- `A·Wa` at `(b, j, h)`. -/
theorem prodA_apply (Wa : Vec Ideal S1x64x64 .f32) (A : Vec Ideal S1x4x384x64 .f32) (b : Fin 4) (j : Fin 384) (h : Fin 64) :
    prodA Wa A (ix3 b j h) = ∑ d : Fin 64, A (ix4 0 b j d) * Wa (ix3 0 d h) := by
  unfold prodA
  refine (uncast_A _ _ b j h ⟨b.val * 384 + j.val, by have := b.isLt; have := j.isLt; omega⟩ rfl).trans ?_
  refine (mm_A _ _ _ h).trans (Finset.sum_congr rfl fun d _ => ?_)
  rw [truncf_apply, truncf_apply, cast_A A _ _ b j d _ rfl, cast_W Wa _ d h]

/-- `C·Wc` at `(b, ii, h)`. -/
theorem prodC_apply (Wc : Vec Ideal S1x64x64 .f32) (C : Vec Ideal S1x4x16x64 .f32) (b : Fin 4) (ii : Fin 16) (h : Fin 64) :
    prodC Wc C (ix3 b ii h) = ∑ d : Fin 64, C (ix4 0 b ii d) * Wc (ix3 0 d h) := by
  unfold prodC
  refine (uncast_C _ _ b ii h ⟨b.val * 16 + ii.val, by have := b.isLt; have := ii.isLt; omega⟩ rfl).trans ?_
  refine (mm_C _ _ _ h).trans (Finset.sum_congr rfl fun d _ => ?_)
  rw [truncf_apply, truncf_apply, cast_C C _ _ b ii d _ rfl, cast_W Wc _ d h]

/-- The hidden layer of the pair `(C b ii, A b j)` at coordinate `h`. -/
theorem hidden_apply (Wa Wc : Vec Ideal S1x64x64 .f32) (A : Vec Ideal S1x4x384x64 .f32) (C : Vec Ideal S1x4x16x64 .f32)
    (b1 : Vec Ideal S1x1x64 .f32) (b : Fin 4) (ii : Fin 16) (j : Fin 384) (h : Fin 64) :
    hidden Wa Wc A C b1 (ix4 b ii j h)
      = Cert.PairPool.hid (fun d => A (ix4 0 b j d)) (fun d => C (ix4 0 b ii d)) (fun d h' => Wa (ix3 0 d h'))
          (fun d h' => Wc (ix3 0 d h')) (fun h' => b1 (ix3 0 0 h')) h := by
  unfold hidden Cert.PairPool.hid
  rw [maximumf_apply, addf_apply, addf_apply, bcast_A, bcast_C, bcast_B, prodA_apply, prodC_apply, broadcast_apply]
  exact congrArg (max _) Cert.PairPool.ofBits_zero

/-- The encoding from flattened hidden rows `H`, at the pair `(b, ii, j)` (row `r`) and coordinate `k`. -/
theorem encoded_apply (H : FVec Ideal S24576x64 .bf16) (W2 : Vec Ideal S1x64x64 .f32) (b2 : Vec Ideal S1x1x64 .f32)
    (b : Fin 4) (ii : Fin 16) (j : Fin 384) (k : Fin 64) (r : Fin 24576) (hr : r.val = (b.val * 16 + ii.val) * 384 + j.val) :
    encoded H W2 b2 (ix4 b ii j k) = (∑ h : Fin 64, H (ix2 r h) * W2 (ix3 0 h k)) + b2 (ix3 0 0 k) := by
  unfold encoded
  rw [addf_apply, bcast_B, uncast_P _ _ b ii j k r hr, mm_P]
  refine congrArg (· + b2 (ix3 0 0 k)) (Finset.sum_congr rfl fun h _ => ?_)
  rw [truncf_apply, cast_W W2 _ h k]

/-- The encoding of the pair `(C b ii, A b j)` as the step computes it. -/
theorem encoded_step_apply (v3 v5 : Vec Ideal S1x64x64 .f32) (v7 : Vec Ideal S1x4x384x64 .f32) (v14 : Vec Ideal S1x4x16x64 .f32)
    (v26 : Vec Ideal S1x1x64 .f32) (v35 : Vec Ideal S1x64x64 .f32) (v40 : Vec Ideal S1x1x64 .f32)
    (b : Fin 4) (ii : Fin 16) (j : Fin 384) (k : Fin 64) :
    encoded (Gen.k0_pay4 (F := Ideal) v3 v5 v7 v14 v26) v35 v40 (ix4 b ii j k)
      = Cert.PairPool.enc (fun d => v7 (ix4 0 b j d)) (fun d => v14 (ix4 0 b ii d)) (fun d h => v3 (ix3 0 d h))
          (fun d h => v5 (ix3 0 d h)) (fun h => v26 (ix3 0 0 h)) (fun h k' => v35 (ix3 0 h k')) (fun k' => v40 (ix3 0 0 k')) k := by
  rw [encoded_apply _ _ _ b ii j k
    ⟨(b.val * 16 + ii.val) * 384 + j.val, by have := b.isLt; have := ii.isLt; have := j.isLt; omega⟩ rfl, pay4_eq]
  unfold Cert.PairPool.enc
  refine congrArg (· + v40 (ix3 0 0 k)) (Finset.sum_congr rfl fun h _ => ?_)
  rw [truncf_apply, cast_P _ _ b ii j h _ rfl, hidden_apply]

/-! ## The two reductions -/

/-- The maximum over the 384 rows `A b j`, from `-∞`. -/
theorem max_apply (src : FVec Ideal S4x16x384x64 .f32) (hr : S4x16x384x64.Reduces [2] S4x16x64) (hφ : FKind.Formats .f32)
    (hacc : (0xFF800000#32 : BitVec 32) = FKind.maximumf.neutral .f32 hφ) (b : Fin 4) (ii : Fin 16) (k : Fin 64) :
    multiReduction (F := Ideal) .maximumf [2] S4x16x64 src 0xFF800000#32 hr hφ hacc (ix3 b ii k)
      = (Finset.univ : Finset (Fin 384)).fold max ⊥ (fun j => src (ix4 b ii j k)) := by
  refine (Ideal.multiReduction_maximumf_single src 0xFF800000#32 hr hφ hacc (ix3 b ii k)).trans ?_
  show (Finset.univ : Finset (Fin 384)).fold max (FloatOps.ofBits (F := Ideal) .f32 0xFF800000#32) (src ∘ hr.lift (ix3 b ii k)) = _
  rw [Cert.PairPool.ofBits_negInf]
  refine congrArg (fun f => (Finset.univ : Finset (Fin 384)).fold max ⊥ f) (funext fun j => congrArg src (funext fun a => Fin.ext ?_))
  match a with
  | ⟨0, _⟩ => rfl
  | ⟨1, _⟩ => rfl
  | ⟨2, _⟩ => rfl
  | ⟨3, _⟩ => rfl

/-- The sum over the 16 rows `C b ii`. -/
theorem sum_apply (src : FVec Ideal S4x16x64 .f32) (hr : S4x16x64.Reduces [1] S4x64) (hφ : FKind.Formats .f32)
    (hacc : (0x00000000#32 : BitVec 32) = FKind.add.neutral .f32 hφ) (b : Fin 4) (k : Fin 64) :
    multiReduction (F := Ideal) .add [1] S4x64 src 0x00000000#32 hr hφ hacc (ix2 b k) = ∑ ii : Fin 16, src (ix3 b ii k) := by
  refine (Ideal.multiReduction_add_single src 0x00000000#32 hr hφ hacc (ix2 b k)).trans ?_
  show ∑ ii : Fin 16, src (hr.lift (ix2 b k) ii) = _
  refine Finset.sum_congr rfl fun ii _ => congrArg src (funext fun a => Fin.ext ?_)
  match a with
  | ⟨0, _⟩ => rfl
  | ⟨1, _⟩ => rfl
  | ⟨2, _⟩ => rfl

/-! ## The step and the reset at an index -/

/-- One step adds to the accumulator's entry `(b, k)` the sum, over the 16 rows `C b ii` of the block, of their pooled
    values against the 384 rows `A b j`. -/
theorem step_apply (v3 v5 : Vec Ideal S1x64x64 .f32) (v7 : Vec Ideal S1x4x384x64 .f32) (v14 : Vec Ideal S1x4x16x64 .f32)
    (v26 : Vec Ideal S1x1x64 .f32) (v35 : Vec Ideal S1x64x64 .f32) (v40 : Vec Ideal S1x1x64 .f32) (v47 : Vec Ideal S4x64 .f32)
    (b : Fin 4) (k : Fin 64) :
    Gen.k0_pay1 (F := Ideal) (Gen.k0_pay4 (F := Ideal) v3 v5 v7 v14 v26) v35 v40 v47 (ix2 b k)
      = v47 (ix2 b k) + ∑ ii : Fin 16, Cert.PairPool.pool (fun j d => v7 (ix4 0 b j d)) (fun d => v14 (ix4 0 b ii d))
          (fun d h => v3 (ix3 0 d h)) (fun d h => v5 (ix3 0 d h)) (fun h => v26 (ix3 0 0 h))
          (fun h k' => v35 (ix3 0 h k')) (fun k' => v40 (ix3 0 0 k')) k := by
  rw [pay1_eq, shapeCast_self, addf_apply]
  refine (congrArg (v47 (ix2 b k) + ·) (sum_apply _ _ _ _ b k)).trans ?_
  refine congrArg (v47 (ix2 b k) + ·) (Finset.sum_congr rfl fun ii _ => ?_)
  refine (max_apply _ _ _ _ b ii k).trans ?_
  unfold Cert.PairPool.pool
  exact congrArg (fun f => (Finset.univ : Finset (Fin 384)).fold max ⊥ f)
    (funext fun j => encoded_step_apply v3 v5 v7 v14 v26 v35 v40 b ii j k)

/-- The reset at the first tile writes zeros. -/
theorem zero_apply (j : S4x64.Idx) : Gen.k0_pay3 (F := Ideal) j = (0 : EReal) := by
  show shapeCast S4x64 (broadcast S4x64 (Scalar.ofBits (F := Ideal) .f32 0x00000000#32)) Gen.shapeCasts_S4x64_S4x64 j = 0
  rw [shapeCast_self, broadcast_apply]
  exact Cert.PairPool.ofBits_zero

end Cert.KernelIdeal.Payload

end
-- ==== Proof.KernelPool.lean ====
/-
  What the pooling kernel's region leaves in its output array, at the extended reals.

  At a grid point the accumulator gains, at `(b, k)`, the point's sum `∑ ii, pool …` over its 16 rows of the
  pooled values of those rows against the 384 rows of the point's first block (`stepAt_apply`).  The accumulator
  restarts at the first point of each row of the grid, so after point `24 q + r` it holds `0 + ∑ s ≤ r` of the
  sums of points `24 q + s` (`scr_closed`, by induction on `r`).  The output block is written at the last
  point of a row, `24 q + 23`, into slab `q` of the output array; the two written blocks cover the array.  So the
  array ends with slab `q` holding `0 + ∑ s < 24` of the sums of the points of row `q` (`final`).
-/
import proofs.«159682_j1322849927392_1_alg».proof.Proof.Gen.KernelIdeal.Frame
import proofs.«159682_j1322849927392_1_alg».proof.Proof.KernelAcc
import proofs.«159682_j1322849927392_1_alg».proof.Proof.KernelPayload
import proofs.«159682_j1322849927392_1_alg».proof.Proof.PairSpec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Pool

open Cert.KernelIdeal Cert.KernelIdeal.Gen Cert.KernelIdeal.Pieces Cert.KernelIdeal.Acc Cert.PairPool
open Idealize.ShloMosaic.ValueIdx

variable (m : (ℓ : Loc nD τ sig) → Buf (Elt Ideal) ℓ)

/-- What grid point `t` adds to the accumulator at `(b, k)`: the pooled values of its 16 rows, summed. -/
def pointSum (c : Dev nD) (t : Fin cfg0.N) (b : Fin 4) (k : Fin 64) : EReal :=
  ∑ ii : Fin 16, pool (fun j d => blkA m c t (ix4 0 b j d)) (fun d => blkC m c t (ix4 0 b ii d))
    (fun d h => lo (blkW1 m c t) (ix3 0 d h)) (fun d h => hi (blkW1 m c t) (ix3 0 d h)) (fun h => blkB1 m c t (ix3 0 0 h))
    (fun h k' => blkW2 m c t (ix3 0 h k')) (fun k' => blkB2 m c t (ix3 0 0 k')) k

theorem stepAt_apply (c : Dev nD) (t : Fin cfg0.N) (acc : Vec Ideal S4x64 .f32) (b : Fin 4) (k : Fin 64) :
    stepAt m c t acc (ix2 b k) = acc (ix2 b k) + pointSum m c t b k := by
  unfold stepAt step pointSum
  exact Cert.KernelIdeal.Payload.step_apply (lo (blkW1 m c t)) (hi (blkW1 m c t)) (blkA m c t) (blkC m c t) (blkB1 m c t)
    (blkW2 m c t) (blkB2 m c t) acc b k

/-- The sum of point `n`, as a function of every natural number (zero past the grid). -/
def addend (c : Dev nD) (n : ℕ) (b : Fin 4) (k : Fin 64) : EReal :=
  if h : n < cfg0.N then pointSum m c ⟨n, h⟩ b k else 0

theorem addend_of_lt (c : Dev nD) (n : ℕ) (h : n < cfg0.N) (b : Fin 4) (k : Fin 64) :
    addend m c n b k = pointSum m c ⟨n, h⟩ b k := dif_pos h

/-- The accumulator after point `24 q + r`: zero plus the sums of the points `24 q … 24 q + r`. -/
theorem scr_closed (c : Dev nD) (q : ℕ) (b : Fin 4) (k : Fin 64) : ∀ (r : ℕ) (_ : r < 24) (h : 24 * q + r < cfg0.N),
    scr m c (24 * q + r) h (ix2 b k) = 0 + ∑ s ∈ Finset.range (r + 1), addend m c (24 * q + s) b k
  | 0, _, h => by
    rw [scr_first m c ⟨24 * q + 0, h⟩ (by show (24 * q + 0) % 24 = 0; omega), stepAt_apply, Cert.KernelIdeal.Payload.zero_apply,
      Finset.sum_range_one, addend_of_lt m c _ h]
  | r + 1, hr, h => by
    have h0 : ¬(24 * q + r + 1) % 24 = 0 := by omega
    have ih := scr_closed c q b k r (by omega) (Nat.lt_of_succ_lt h)
    show scr m c (24 * q + r + 1) h (ix2 b k) = _
    rw [scr_next m c (24 * q + r) h h0, stepAt_apply, ih, Finset.sum_range_succ _ (r + 1), addend_of_lt m c (24 * q + (r + 1)) h,
      add_assoc]
    rfl

/-- The contents the output array ends with: slab `q` holds zero plus the sums of the 24 points of row `q`. -/
def pooled (c : Dev nD) : S2x4x64.Idx → Elt Ideal .f32 :=
  fun i => 0 + ∑ s ∈ Finset.range 24, addend m c (24 * (i 0).val + s) (i 1) (i 2)

/-- The output window's block index at a point: its row of the grid, then zeros. -/
theorem idx_facts : ∀ t : Fin cfg0.N, win0_6.index t (0 : Fin 3) = t.val / 24 ∧ win0_6.index t (1 : Fin 3) = 0
    ∧ win0_6.index t (2 : Fin 3) = 0 :=
  (by decide +kernel : ∀ t : Fin grid0.N, _)

/-- What a point that writes its block back writes: its block of `pooled`. -/
theorem flushed_eq (c : Dev nD) (t : Fin cfg0.N) (hf : (cfg0.win 6).flush t = true) :
    (dats m 0 c).flushed 6 t = ((cfg0.win 6).blk t).view.read (Elt Ideal) (pooled m c) := by
  have hN : cfg0.N = 48 := N_0
  have h23 : t.val % 24 = 23 := (flush0_6 t).mp hf
  obtain ⟨e0, e1, e2⟩ := idx_facts t
  obtain ⟨n, hn⟩ := t
  dsimp only at h23 e0
  obtain ⟨q, rfl⟩ : ∃ q, n = 24 * q + 22 + 1 := ⟨n / 24, by omega⟩
  show (cfg0.win 6).cut (grid0.coords ⟨24 * q + 22 + 1, hn⟩) ((dats m 0 c).after 6 ⟨24 * q + 22 + 1, hn⟩) = _
  rw [after0_6]
  show (cfg0.win 6).cut _ (outsAt0 m c (24 * q + 22 + 1) hn).1 = _
  rw [out_last m c (24 * q + 22) hn h23]
  funext y
  show k0_pay2 (scr m c (24 * q + 22 + 1) hn) y = pooled m c (((cfg0.win 6).blk ⟨24 * q + 22 + 1, hn⟩).view.emb y)
  have hy : (fun a : Fin 2 => y a.succ) = ix2 (y 1) (y 2) := funext fun a => by
    match a with
    | ⟨0, _⟩ => rfl
    | ⟨1, _⟩ => rfl
  have hq : q < 2 := by omega
  have hemb : ((cfg0.win 6).blk ⟨24 * q + 22 + 1, hn⟩).view.emb y = ix3 (⟨q, hq⟩ : Fin 2) (y 1) (y 2) := by
    funext a; apply Fin.ext
    have hy0' : (y 0).val < 1 := (y 0).isLt
    have hy0 : (y 0).val = 0 := by omega
    match a with
    | ⟨0, _⟩ => show win0_6.index ⟨24 * q + 22 + 1, hn⟩ (0 : Fin 3) * 1 + 1 * (y 0).val = q; rw [e0, hy0]; omega
    | ⟨1, _⟩ => show win0_6.index ⟨24 * q + 22 + 1, hn⟩ (1 : Fin 3) * 4 + 1 * (y 1).val = (y 1).val; rw [e1]; omega
    | ⟨2, _⟩ => show win0_6.index ⟨24 * q + 22 + 1, hn⟩ (2 : Fin 3) * 64 + 1 * (y 2).val = (y 2).val; rw [e2]; omega
  rw [hemb]
  unfold k0_pay2
  rw [shapeCast_addUnit_apply ![4, 64] _ shapeCasts_S4x64_S1x4x64 y, hy]
  exact scr_closed m c q (y 1) (y 2) 23 (by omega) hn

/-- An index of the output array is in a point's block iff each coordinate is in the block's range. -/
theorem mem_blk (t : Fin cfg0.N) (i : S2x4x64.Idx) :
    i ∈ ((cfg0.win 6).blk t).view.set ↔ ∀ a : Fin 3, win0_6.index t a * S1x4x64.size a ≤ (i a).val
      ∧ (i a).val < win0_6.index t a * S1x4x64.size a + S1x4x64.size a := by
  show i ∈ ((View.whole main_v20).slice (win0_6.rect t)).set ↔ _
  rw [View.set_slice_whole, Rect.mem_set_unit]
  exact Iff.rfl

/-- The two written blocks cover the output array: slab `q` is the block of point `24 q + 23`. -/
theorem cover (i : S2x4x64.Idx) : ∃ t : Fin cfg0.N, (cfg0.win 6).flush t = true ∧ i ∈ ((cfg0.win 6).blk t).view.set := by
  have hN : cfg0.N = 48 := N_0
  have hi0 : (i 0).val < 2 := (i 0).isLt
  have hi1 : (i 1).val < 4 := (i 1).isLt
  have hi2 : (i 2).val < 64 := (i 2).isLt
  refine ⟨⟨24 * (i 0).val + 23, by omega⟩, (flush0_6 _).mpr (by show (24 * (i 0).val + 23) % 24 = 23; omega), ?_⟩
  rw [mem_blk]
  obtain ⟨e0, e1, e2⟩ := idx_facts ⟨24 * (i 0).val + 23, by omega⟩
  dsimp only at e0
  intro a
  match a with
  | ⟨0, _⟩ => show win0_6.index _ (0 : Fin 3) * 1 ≤ (i 0).val ∧ (i 0).val < win0_6.index _ (0 : Fin 3) * 1 + 1; rw [e0]; omega
  | ⟨1, _⟩ => show win0_6.index _ (1 : Fin 3) * 4 ≤ (i 1).val ∧ (i 1).val < win0_6.index _ (1 : Fin 3) * 4 + 4; rw [e1]; omega
  | ⟨2, _⟩ => show win0_6.index _ (2 : Fin 3) * 64 ≤ (i 2).val ∧ (i 2).val < win0_6.index _ (2 : Fin 3) * 64 + 64; rw [e2]; omega

/-- The output array after the region. -/
theorem final (c : Dev nD) : (dats m 0 c).arrAt 6 cfg0.N = pooled m c :=
  (dats m 0 c).arrAt_eq_of_cover 6 (pooled m c) (fun t hf => flushed_eq m c t hf) cover

end Cert.KernelIdeal.Pool

end
-- ==== Proof.KernelBlocks.lean ====
/-
  The input blocks of the kernel's grid, read back to the arguments of the whole program.

  The grid has 2 × 24 points; point `t` has coordinates `(br, s) = (t / 24, t % 24)`.  Every input window's array is a
  STACK of two argument arrays along a new leading axis of size 2 (each argument is given a leading axis of size 1,
  and the two are joined along it), and every window's block index on that axis is `br`: the block at a point of the
  first half of the grid is a block of the first argument, at a point of the second half of the second.

  * window 0 reads the whole member `br` of the stack (first argument, second argument);
  * window 1 reads rows `16 s … 16 s + 15` of member `br` of a stack whose two members are BOTH the first argument;
  * windows 2 and 4 read the whole member `br` of the stacks of the two weight matrices;
  * windows 3 and 5 read member `br` of the stacks of the two bias vectors, which carry one more unit axis in the middle.

  A block's coordinate in its array is always (block index) × (block size) + (coordinate inside the block); the block
  indices are decided once over the 48 points.
-/
import proofs.«159682_j1322849927392_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## A stack of two arrays, read at an entry of either member -/

section Stack

variable {α : Type}

/-- Stacked [4,384,64] arrays: entry `(0, b, j, d)` is the first's `(b, j, d)`. -/
theorem stackA_fst (x y : S4x384x64.Idx → α) (b : Fin 4) (j : Fin 384) (d : Fin 64) :
    concatenate S2x4x384x64 0
      [⟨S1x4x384x64, broadcastInDim S1x4x384x64 ![1, 2, 3] bcast_S4x384x64_S1x4x384x64_1_2_3 x⟩,
       ⟨S1x4x384x64, broadcastInDim S1x4x384x64 ![1, 2, 3] bcast_S4x384x64_S1x4x384x64_1_2_3 y⟩]
      concatenates_S1x4x384x64_S1x4x384x64_S2x4x384x64_d0 (ix4 (0 : Fin 2) b j d) = x (ix3 b j d) := by
  refine (concatenate_pair_apply_left (t := S2x4x384x64) (s₁ := S1x4x384x64) (s₂ := S1x4x384x64) 0 _ _
    concatenates_S1x4x384x64_S1x4x384x64_S2x4x384x64_d0 (ix4 (0 : Fin 2) b j d) rfl (ix4 (0 : Fin 1) b j d) (fun a => ?_)).trans ?_
  · match a with
    | ⟨0, _⟩ => rfl
    | ⟨1, _⟩ => rfl
    | ⟨2, _⟩ => rfl
    | ⟨3, _⟩ => rfl
  · exact broadcastInDim_apply _ _ _ _ (ix3 b j d) (fun a => by
      match a with
      | ⟨0, _⟩ => rfl
      | ⟨1, _⟩ => rfl
      | ⟨2, _⟩ => rfl)

/-- Stacked [4,384,64] arrays: entry `(1, b, j, d)` is the second's `(b, j, d)`. -/
theorem stackA_snd (x y : S4x384x64.Idx → α) (b : Fin 4) (j : Fin 384) (d : Fin 64) :
    concatenate S2x4x384x64 0
      [⟨S1x4x384x64, broadcastInDim S1x4x384x64 ![1, 2, 3] bcast_S4x384x64_S1x4x384x64_1_2_3 x⟩,
       ⟨S1x4x384x64, broadcastInDim S1x4x384x64 ![1, 2, 3] bcast_S4x384x64_S1x4x384x64_1_2_3 y⟩]
      concatenates_S1x4x384x64_S1x4x384x64_S2x4x384x64_d0 (ix4 (1 : Fin 2) b j d) = y (ix3 b j d) := by
  refine (concatenate_pair_apply_right (t := S2x4x384x64) (s₁ := S1x4x384x64) (s₂ := S1x4x384x64) 0 _ _
    concatenates_S1x4x384x64_S1x4x384x64_S2x4x384x64_d0 (ix4 (1 : Fin 2) b j d) rfl rfl (ix4 (0 : Fin 1) b j d) (fun a ha => ?_) rfl).trans ?_
  · match a with
    | ⟨0, _⟩ => exact absurd rfl ha
    | ⟨1, _⟩ => rfl
    | ⟨2, _⟩ => rfl
    | ⟨3, _⟩ => rfl
  · exact broadcastInDim_apply _ _ _ _ (ix3 b j d) (fun a => by
      match a with
      | ⟨0, _⟩ => rfl
      | ⟨1, _⟩ => rfl
      | ⟨2, _⟩ => rfl)

/-- Stacked [128,64] matrices: entry `(0, r, h)` is the first's `(r, h)`. -/
theorem stackW1_fst (x y : S128x64.Idx → α) (r : Fin 128) (h : Fin 64) :
    concatenate S2x128x64 0
      [⟨S1x128x64, broadcastInDim S1x128x64 ![1, 2] bcast_S128x64_S1x128x64_1_2 x⟩,
       ⟨S1x128x64, broadcastInDim S1x128x64 ![1, 2] bcast_S128x64_S1x128x64_1_2 y⟩]
      concatenates_S1x128x64_S1x128x64_S2x128x64_d0 (ix3 (0 : Fin 2) r h) = x (ix2 r h) := by
  refine (concatenate_pair_apply_left (t := S2x128x64) (s₁ := S1x128x64) (s₂ := S1x128x64) 0 _ _
    concatenates_S1x128x64_S1x128x64_S2x128x64_d0 (ix3 (0 : Fin 2) r h) rfl (ix3 (0 : Fin 1) r h) (fun a => ?_)).trans ?_
  · match a with
    | ⟨0, _⟩ => rfl
    | ⟨1, _⟩ => rfl
    | ⟨2, _⟩ => rfl
  · exact broadcastInDim_apply _ _ _ _ (ix2 r h) (fun a => by
      match a with
      | ⟨0, _⟩ => rfl
      | ⟨1, _⟩ => rfl)

/-- Stacked [128,64] matrices: entry `(1, r, h)` is the second's `(r, h)`. -/
theorem stackW1_snd (x y : S128x64.Idx → α) (r : Fin 128) (h : Fin 64) :
    concatenate S2x128x64 0
      [⟨S1x128x64, broadcastInDim S1x128x64 ![1, 2] bcast_S128x64_S1x128x64_1_2 x⟩,
       ⟨S1x128x64, broadcastInDim S1x128x64 ![1, 2] bcast_S128x64_S1x128x64_1_2 y⟩]
      concatenates_S1x128x64_S1x128x64_S2x128x64_d0 (ix3 (1 : Fin 2) r h) = y (ix2 r h) := by
  refine (concatenate_pair_apply_right (t := S2x128x64) (s₁ := S1x128x64) (s₂ := S1x128x64) 0 _ _
    concatenates_S1x128x64_S1x128x64_S2x128x64_d0 (ix3 (1 : Fin 2) r h) rfl rfl (ix3 (0 : Fin 1) r h) (fun a ha => ?_) rfl).trans ?_
  · match a with
    | ⟨0, _⟩ => exact absurd rfl ha
    | ⟨1, _⟩ => rfl
    | ⟨2, _⟩ => rfl
  · exact broadcastInDim_apply _ _ _ _ (ix2 r h) (fun a => by
      match a with
      | ⟨0, _⟩ => rfl
      | ⟨1, _⟩ => rfl)

/-- Stacked [64,64] matrices: entry `(0, r, h)` is the first's `(r, h)`. -/
theorem stackW2_fst (x y : S64x64.Idx → α) (r : Fin 64) (h : Fin 64) :
    concatenate S2x64x64 0
      [⟨S1x64x64, broadcastInDim S1x64x64 ![1, 2] bcast_S64x64_S1x64x64_1_2 x⟩,
       ⟨S1x64x64, broadcastInDim S1x64x64 ![1, 2] bcast_S64x64_S1x64x64_1_2 y⟩]
      concatenates_S1x64x64_S1x64x64_S2x64x64_d0 (ix3 (0 : Fin 2) r h) = x (ix2 r h) := by
  refine (concatenate_pair_apply_left (t := S2x64x64) (s₁ := S1x64x64) (s₂ := S1x64x64) 0 _ _
    concatenates_S1x64x64_S1x64x64_S2x64x64_d0 (ix3 (0 : Fin 2) r h) rfl (ix3 (0 : Fin 1) r h) (fun a => ?_)).trans ?_
  · match a with
    | ⟨0, _⟩ => rfl
    | ⟨1, _⟩ => rfl
    | ⟨2, _⟩ => rfl
  · exact broadcastInDim_apply _ _ _ _ (ix2 r h) (fun a => by
      match a with
      | ⟨0, _⟩ => rfl
      | ⟨1, _⟩ => rfl)

/-- Stacked [64,64] matrices: entry `(1, r, h)` is the second's `(r, h)`. -/
theorem stackW2_snd (x y : S64x64.Idx → α) (r : Fin 64) (h : Fin 64) :
    concatenate S2x64x64 0
      [⟨S1x64x64, broadcastInDim S1x64x64 ![1, 2] bcast_S64x64_S1x64x64_1_2 x⟩,
       ⟨S1x64x64, broadcastInDim S1x64x64 ![1, 2] bcast_S64x64_S1x64x64_1_2 y⟩]
      concatenates_S1x64x64_S1x64x64_S2x64x64_d0 (ix3 (1 : Fin 2) r h) = y (ix2 r h) := by
  refine (concatenate_pair_apply_right (t := S2x64x64) (s₁ := S1x64x64) (s₂ := S1x64x64) 0 _ _
    concatenates_S1x64x64_S1x64x64_S2x64x64_d0 (ix3 (1 : Fin 2) r h) rfl rfl (ix3 (0 : Fin 1) r h) (fun a ha => ?_) rfl).trans ?_
  · match a with
    | ⟨0, _⟩ => exact absurd rfl ha
    | ⟨1, _⟩ => rfl
    | ⟨2, _⟩ => rfl
  · exact broadcastInDim_apply _ _ _ _ (ix2 r h) (fun a => by
      match a with
      | ⟨0, _⟩ => rfl
      | ⟨1, _⟩ => rfl)

/-- Stacked [64] vectors, given a unit axis in the middle: entry `(0, 0, h)` is the first's `h`. -/
theorem stackB_fst (x y : S64.Idx → α) (h : Fin 64) :
    broadcastInDim S2x1x64 ![0, 2] bcast_S2x64_S2x1x64_0_2
      (concatenate S2x64 0
        [⟨S1x64, broadcastInDim S1x64 ![1] bcast_S64_S1x64_1 x⟩,
         ⟨S1x64, broadcastInDim S1x64 ![1] bcast_S64_S1x64_1 y⟩]
        concatenates_S1x64_S1x64_S2x64_d0) (ix3 (0 : Fin 2) (0 : Fin 1) h) = x (ix1 h) := by
  refine (broadcastInDim_apply _ _ _ (ix3 (0 : Fin 2) (0 : Fin 1) h) (ix2 (0 : Fin 2) h) (fun a => by
    match a with
    | ⟨0, _⟩ => rfl
    | ⟨1, _⟩ => rfl)).trans ?_
  refine (concatenate_pair_apply_left (t := S2x64) (s₁ := S1x64) (s₂ := S1x64) 0 _ _
    concatenates_S1x64_S1x64_S2x64_d0 (ix2 (0 : Fin 2) h) rfl (ix2 (0 : Fin 1) h) (fun a => ?_)).trans ?_
  · match a with
    | ⟨0, _⟩ => rfl
    | ⟨1, _⟩ => rfl
  · exact broadcastInDim_apply _ _ _ _ (ix1 h) (fun a => by
      match a with
      | ⟨0, _⟩ => rfl)

/-- Stacked [64] vectors, given a unit axis in the middle: entry `(1, 0, h)` is the second's `h`. -/
theorem stackB_snd (x y : S64.Idx → α) (h : Fin 64) :
    broadcastInDim S2x1x64 ![0, 2] bcast_S2x64_S2x1x64_0_2
      (concatenate S2x64 0
        [⟨S1x64, broadcastInDim S1x64 ![1] bcast_S64_S1x64_1 x⟩,
         ⟨S1x64, broadcastInDim S1x64 ![1] bcast_S64_S1x64_1 y⟩]
        concatenates_S1x64_S1x64_S2x64_d0) (ix3 (1 : Fin 2) (0 : Fin 1) h) = y (ix1 h) := by
  refine (broadcastInDim_apply _ _ _ (ix3 (1 : Fin 2) (0 : Fin 1) h) (ix2 (1 : Fin 2) h) (fun a => by
    match a with
    | ⟨0, _⟩ => rfl
    | ⟨1, _⟩ => rfl)).trans ?_
  refine (concatenate_pair_apply_right (t := S2x64) (s₁ := S1x64) (s₂ := S1x64) 0 _ _
    concatenates_S1x64_S1x64_S2x64_d0 (ix2 (1 : Fin 2) h) rfl rfl (ix2 (0 : Fin 1) h) (fun a ha => ?_) rfl).trans ?_
  · match a with
    | ⟨0, _⟩ => exact absurd rfl ha
    | ⟨1, _⟩ => rfl
  · exact broadcastInDim_apply _ _ _ _ (ix1 h) (fun a => by
      match a with
      | ⟨0, _⟩ => rfl)

end Stack

/-! ## The window arrays as the region finds them: stacks of the arguments -/

/-- Window 0's array: the first argument stacked on the second. -/
theorem V_v2 (c : Dev nD) :
    (V m c main_v2 : S2x4x384x64.Idx → Elt F .f32)
      = concatenate S2x4x384x64 0
          [⟨S1x4x384x64, broadcastInDim S1x4x384x64 ![1, 2, 3] bcast_S4x384x64_S1x4x384x64_1_2_3 (m ((c : Thread nD τ).loc main_arg0))⟩,
           ⟨S1x4x384x64, broadcastInDim S1x4x384x64 ![1, 2, 3] bcast_S4x384x64_S1x4x384x64_1_2_3 (m ((c : Thread nD τ).loc main_arg1))⟩]
          concatenates_S1x4x384x64_S1x4x384x64_S2x4x384x64_d0 := by
  show StableHlo.after hostOps0 (fun b => m (c, b)) (Proc.devRef .tc main_v2) = _
  after_results

/-- Window 1's array: the first argument stacked on ITSELF. -/
theorem V_v5 (c : Dev nD) :
    (V m c main_v5 : S2x4x384x64.Idx → Elt F .f32)
      = concatenate S2x4x384x64 0
          [⟨S1x4x384x64, broadcastInDim S1x4x384x64 ![1, 2, 3] bcast_S4x384x64_S1x4x384x64_1_2_3 (m ((c : Thread nD τ).loc main_arg0))⟩,
           ⟨S1x4x384x64, broadcastInDim S1x4x384x64 ![1, 2, 3] bcast_S4x384x64_S1x4x384x64_1_2_3 (m ((c : Thread nD τ).loc main_arg0))⟩]
          concatenates_S1x4x384x64_S1x4x384x64_S2x4x384x64_d0 := by
  show StableHlo.after hostOps0 (fun b => m (c, b)) (Proc.devRef .tc main_v5) = _
  after_results

/-- Window 2's array: the two first-layer weight matrices stacked. -/
theorem V_v8 (c : Dev nD) :
    (V m c main_v8 : S2x128x64.Idx → Elt F .f32)
      = concatenate S2x128x64 0
          [⟨S1x128x64, broadcastInDim S1x128x64 ![1, 2] bcast_S128x64_S1x128x64_1_2 (m ((c : Thread nD τ).loc main_arg2))⟩,
           ⟨S1x128x64, broadcastInDim S1x128x64 ![1, 2] bcast_S128x64_S1x128x64_1_2 (m ((c : Thread nD τ).loc main_arg10))⟩]
          concatenates_S1x128x64_S1x128x64_S2x128x64_d0 := by
  show StableHlo.after hostOps0 (fun b => m (c, b)) (Proc.devRef .tc main_v8) = _
  after_results

/-- Window 3's array: the two first-layer bias vectors stacked, a unit axis in the middle. -/
theorem V_v12 (c : Dev nD) :
    (V m c main_v12 : S2x1x64.Idx → Elt F .f32)
      = broadcastInDim S2x1x64 ![0, 2] bcast_S2x64_S2x1x64_0_2
          (concatenate S2x64 0
            [⟨S1x64, broadcastInDim S1x64 ![1] bcast_S64_S1x64_1 (m ((c : Thread nD τ).loc main_arg3))⟩,
             ⟨S1x64, broadcastInDim S1x64 ![1] bcast_S64_S1x64_1 (m ((c : Thread nD τ).loc main_arg11))⟩]
            concatenates_S1x64_S1x64_S2x64_d0) := by
  show StableHlo.after hostOps0 (fun b => m (c, b)) (Proc.devRef .tc main_v12) = _
  after_results

/-- Window 4's array: the two second-layer weight matrices stacked. -/
theorem V_v15 (c : Dev nD) :
    (V m c main_v15 : S2x64x64.Idx → Elt F .f32)
      = concatenate S2x64x64 0
          [⟨S1x64x64, broadcastInDim S1x64x64 ![1, 2] bcast_S64x64_S1x64x64_1_2 (m ((c : Thread nD τ).loc main_arg4))⟩,
           ⟨S1x64x64, broadcastInDim S1x64x64 ![1, 2] bcast_S64x64_S1x64x64_1_2 (m ((c : Thread nD τ).loc main_arg12))⟩]
          concatenates_S1x64x64_S1x64x64_S2x64x64_d0 := by
  show StableHlo.after hostOps0 (fun b => m (c, b)) (Proc.devRef .tc main_v15) = _
  after_results

/-- Window 5's array: the two second-layer bias vectors stacked, a unit axis in the middle. -/
theorem V_v19 (c : Dev nD) :
    (V m c main_v19 : S2x1x64.Idx → Elt F .f32)
      = broadcastInDim S2x1x64 ![0, 2] bcast_S2x64_S2x1x64_0_2
          (concatenate S2x64 0
            [⟨S1x64, broadcastInDim S1x64 ![1] bcast_S64_S1x64_1 (m ((c : Thread nD τ).loc main_arg5))⟩,
             ⟨S1x64, broadcastInDim S1x64 ![1] bcast_S64_S1x64_1 (m ((c : Thread nD τ).loc main_arg13))⟩]
            concatenates_S1x64_S1x64_S2x64_d0) := by
  show StableHlo.after hostOps0 (fun b => m (c, b)) (Proc.devRef .tc main_v19) = _
  after_results

/-! ## The block indices, decided once over the 48 points -/

theorem idx0 : ∀ t : Fin cfg0.N, win0_0.index t 0 = t.val / 24 ∧ win0_0.index t 1 = 0 ∧ win0_0.index t 2 = 0 ∧ win0_0.index t 3 = 0 :=
  (by decide +kernel : ∀ t : Fin grid0.N, _)

theorem idx1 : ∀ t : Fin cfg0.N, win0_1.index t 0 = t.val / 24 ∧ win0_1.index t 1 = 0 ∧ win0_1.index t 2 = t.val % 24 ∧ win0_1.index t 3 = 0 :=
  (by decide +kernel : ∀ t : Fin grid0.N, _)

theorem idx2 : ∀ t : Fin cfg0.N, win0_2.index t 0 = t.val / 24 ∧ win0_2.index t 1 = 0 ∧ win0_2.index t 2 = 0 :=
  (by decide +kernel : ∀ t : Fin grid0.N, _)

theorem idx3 : ∀ t : Fin cfg0.N, win0_3.index t 0 = t.val / 24 ∧ win0_3.index t 1 = 0 ∧ win0_3.index t 2 = 0 :=
  (by decide +kernel : ∀ t : Fin grid0.N, _)

theorem idx4 : ∀ t : Fin cfg0.N, win0_4.index t 0 = t.val / 24 ∧ win0_4.index t 1 = 0 ∧ win0_4.index t 2 = 0 :=
  (by decide +kernel : ∀ t : Fin grid0.N, _)

theorem idx5 : ∀ t : Fin cfg0.N, win0_5.index t 0 = t.val / 24 ∧ win0_5.index t 1 = 0 ∧ win0_5.index t 2 = 0 :=
  (by decide +kernel : ∀ t : Fin grid0.N, _)

/-- A point of the grid is one of 48. -/
theorem lt48 (t : Fin cfg0.N) : t.val < 48 := by
  have h : t.val < grid0.N := t.isLt
  rwa [N_0] at h

/-! ## Each block read where its rectangle says

A block's coordinate in its array is (block index) × (block size) + 1 × (coordinate inside the block). -/

/-- Window 0's block at `t` is member `t / 24` of its stack, whole. -/
theorem read0 (c : Dev nD) (t : Fin cfg0.N) (br : Fin 2) (hbr : br.val = t.val / 24) (b : Fin 4) (j : Fin 384) (d : Fin 64) :
    (iblk m c 0 t : Vec F S1x4x384x64 .f32) (ix4 (0 : Fin 1) b j d) = V m c main_v2 (ix4 br b j d) := by
  obtain ⟨h0, h1, h2, h3⟩ := idx0 t
  unfold iblk
  rw [View.read_apply]
  show V m c main_v2 _ = V m c main_v2 _
  refine congrArg (V m c main_v2) (funext fun a => Fin.ext ?_)
  match a with
  | ⟨0, _⟩ => show win0_0.index t 0 * 1 + 1 * 0 = br.val; rw [h0]; omega
  | ⟨1, _⟩ => show win0_0.index t 1 * 4 + 1 * b.val = b.val; rw [h1]; omega
  | ⟨2, _⟩ => show win0_0.index t 2 * 384 + 1 * j.val = j.val; rw [h2]; omega
  | ⟨3, _⟩ => show win0_0.index t 3 * 64 + 1 * d.val = d.val; rw [h3]; omega

/-- Window 1's block at `t` is rows `16 (t % 24) …` of member `t / 24` of its stack. -/
theorem read1 (c : Dev nD) (t : Fin cfg0.N) (br : Fin 2) (hbr : br.val = t.val / 24) (b : Fin 4) (ii : Fin 16) (d : Fin 64)
    (r : Fin 384) (hr : r.val = 16 * (t.val % 24) + ii.val) :
    (iblk m c 1 t : Vec F S1x4x16x64 .f32) (ix4 (0 : Fin 1) b ii d) = V m c main_v5 (ix4 br b r d) := by
  obtain ⟨h0, h1, h2, h3⟩ := idx1 t
  unfold iblk
  rw [View.read_apply]
  show V m c main_v5 _ = V m c main_v5 _
  refine congrArg (V m c main_v5) (funext fun a => Fin.ext ?_)
  match a with
  | ⟨0, _⟩ => show win0_1.index t 0 * 1 + 1 * 0 = br.val; rw [h0]; omega
  | ⟨1, _⟩ => show win0_1.index t 1 * 4 + 1 * b.val = b.val; rw [h1]; omega
  | ⟨2, _⟩ => show win0_1.index t 2 * 16 + 1 * ii.val = r.val; rw [h2]; omega
  | ⟨3, _⟩ => show win0_1.index t 3 * 64 + 1 * d.val = d.val; rw [h3]; omega

/-- Window 2's block at `t` is member `t / 24` of its stack, whole. -/
theorem read2 (c : Dev nD) (t : Fin cfg0.N) (br : Fin 2) (hbr : br.val = t.val / 24) (r : Fin 128) (h : Fin 64) :
    (iblk m c 2 t : Vec F S1x128x64 .f32) (ix3 (0 : Fin 1) r h) = V m c main_v8 (ix3 br r h) := by
  obtain ⟨h0, h1, h2⟩ := idx2 t
  unfold iblk
  rw [View.read_apply]
  show V m c main_v8 _ = V m c main_v8 _
  refine congrArg (V m c main_v8) (funext fun a => Fin.ext ?_)
  match a with
  | ⟨0, _⟩ => show win0_2.index t 0 * 1 + 1 * 0 = br.val; rw [h0]; omega
  | ⟨1, _⟩ => show win0_2.index t 1 * 128 + 1 * r.val = r.val; rw [h1]; omega
  | ⟨2, _⟩ => show win0_2.index t 2 * 64 + 1 * h.val = h.val; rw [h2]; omega

/-- Window 3's block at `t` is member `t / 24` of its stack. -/
theorem read3 (c : Dev nD) (t : Fin cfg0.N) (br : Fin 2) (hbr : br.val = t.val / 24) (h : Fin 64) :
    (iblk m c 3 t : Vec F S1x1x64 .f32) (ix3 (0 : Fin 1) (0 : Fin 1) h) = V m c main_v12 (ix3 br (0 : Fin 1) h) := by
  obtain ⟨h0, h1, h2⟩ := idx3 t
  unfold iblk
  rw [View.read_apply]
  show V m c main_v12 _ = V m c main_v12 _
  refine congrArg (V m c main_v12) (funext fun a => Fin.ext ?_)
  match a with
  | ⟨0, _⟩ => show win0_3.index t 0 * 1 + 1 * 0 = br.val; rw [h0]; omega
  | ⟨1, _⟩ => show win0_3.index t 1 * 1 + 1 * 0 = 0; rw [h1]
  | ⟨2, _⟩ => show win0_3.index t 2 * 64 + 1 * h.val = h.val; rw [h2]; omega

/-- Window 4's block at `t` is member `t / 24` of its stack, whole. -/
theorem read4 (c : Dev nD) (t : Fin cfg0.N) (br : Fin 2) (hbr : br.val = t.val / 24) (h k : Fin 64) :
    (iblk m c 4 t : Vec F S1x64x64 .f32) (ix3 (0 : Fin 1) h k) = V m c main_v15 (ix3 br h k) := by
  obtain ⟨h0, h1, h2⟩ := idx4 t
  unfold iblk
  rw [View.read_apply]
  show V m c main_v15 _ = V m c main_v15 _
  refine congrArg (V m c main_v15) (funext fun a => Fin.ext ?_)
  match a with
  | ⟨0, _⟩ => show win0_4.index t 0 * 1 + 1 * 0 = br.val; rw [h0]; omega
  | ⟨1, _⟩ => show win0_4.index t 1 * 64 + 1 * h.val = h.val; rw [h1]; omega
  | ⟨2, _⟩ => show win0_4.index t 2 * 64 + 1 * k.val = k.val; rw [h2]; omega

/-- Window 5's block at `t` is member `t / 24` of its stack. -/
theorem read5 (c : Dev nD) (t : Fin cfg0.N) (br : Fin 2) (hbr : br.val = t.val / 24) (k : Fin 64) :
    (iblk m c 5 t : Vec F S1x1x64 .f32) (ix3 (0 : Fin 1) (0 : Fin 1) k) = V m c main_v19 (ix3 br (0 : Fin 1) k) := by
  obtain ⟨h0, h1, h2⟩ := idx5 t
  unfold iblk
  rw [View.read_apply]
  show V m c main_v19 _ = V m c main_v19 _
  refine congrArg (V m c main_v19) (funext fun a => Fin.ext ?_)
  match a with
  | ⟨0, _⟩ => show win0_5.index t 0 * 1 + 1 * 0 = br.val; rw [h0]; omega
  | ⟨1, _⟩ => show win0_5.index t 1 * 1 + 1 * 0 = 0; rw [h1]
  | ⟨2, _⟩ => show win0_5.index t 2 * 64 + 1 * k.val = k.val; rw [h2]; omega

/-! ## The blocks in terms of the arguments

Unprimed: a point of the first half of the grid (`t < 24`, stack member 0).  Primed: of the second half (member 1). -/

/-- Window 0, first half: the whole first argument. -/
theorem blk0 (c : Dev nD) (t : Fin cfg0.N) (hbr : t.val < 24) (b : Fin 4) (j : Fin 384) (d : Fin 64) :
    (iblk m c 0 t : Vec F S1x4x384x64 .f32) (ix4 (0 : Fin 1) b j d) = m ((c : Thread nD τ).loc main_arg0) (ix3 b j d) := by
  refine (read0 m c t 0 (by show 0 = t.val / 24; omega) b j d).trans ?_
  rw [V_v2]
  exact stackA_fst _ _ b j d

/-- Window 0, second half: the whole second argument. -/
theorem blk0' (c : Dev nD) (t : Fin cfg0.N) (hbr : 24 ≤ t.val) (b : Fin 4) (j : Fin 384) (d : Fin 64) :
    (iblk m c 0 t : Vec F S1x4x384x64 .f32) (ix4 (0 : Fin 1) b j d) = m ((c : Thread nD τ).loc main_arg1) (ix3 b j d) := by
  have h48 := lt48 t
  refine (read0 m c t 1 (by show 1 = t.val / 24; omega) b j d).trans ?_
  rw [V_v2]
  exact stackA_snd _ _ b j d

/-- Window 1, either half: rows `16 (t % 24) … + 15` of the FIRST argument (both members of its stack are the first argument). -/
theorem blk1 (c : Dev nD) (t : Fin cfg0.N) (b : Fin 4) (ii : Fin 16) (d : Fin 64) :
    (iblk m c 1 t : Vec F S1x4x16x64 .f32) (ix4 (0 : Fin 1) b ii d)
      = m ((c : Thread nD τ).loc main_arg0) (ix3 b (⟨16 * (t.val % 24) + ii.val, by have := ii.isLt; omega⟩ : Fin 384) d) := by
  have h48 := lt48 t
  rcases Nat.lt_or_ge t.val 24 with hbr | hbr
  · refine (read1 m c t 0 (by show 0 = t.val / 24; omega) b ii d ⟨16 * (t.val % 24) + ii.val, by have := ii.isLt; omega⟩ rfl).trans ?_
    rw [V_v5]
    exact stackA_fst _ _ b _ d
  · refine (read1 m c t 1 (by show 1 = t.val / 24; omega) b ii d ⟨16 * (t.val % 24) + ii.val, by have := ii.isLt; omega⟩ rfl).trans ?_
    rw [V_v5]
    exact stackA_snd _ _ b _ d

/-- Window 2, first half: the first of the two first-layer weight matrices. -/
theorem blk2 (c : Dev nD) (t : Fin cfg0.N) (hbr : t.val < 24) (r : Fin 128) (h : Fin 64) :
    (iblk m c 2 t : Vec F S1x128x64 .f32) (ix3 (0 : Fin 1) r h) = m ((c : Thread nD τ).loc main_arg2) (ix2 r h) := by
  refine (read2 m c t 0 (by show 0 = t.val / 24; omega) r h).trans ?_
  rw [V_v8]
  exact stackW1_fst _ _ r h

/-- Window 2, second half: the second. -/
theorem blk2' (c : Dev nD) (t : Fin cfg0.N) (hbr : 24 ≤ t.val) (r : Fin 128) (h : Fin 64) :
    (iblk m c 2 t : Vec F S1x128x64 .f32) (ix3 (0 : Fin 1) r h) = m ((c : Thread nD τ).loc main_arg10) (ix2 r h) := by
  have h48 := lt48 t
  refine (read2 m c t 1 (by show 1 = t.val / 24; omega) r h).trans ?_
  rw [V_v8]
  exact stackW1_snd _ _ r h

/-- Window 3, first half: the first of the two first-layer bias vectors. -/
theorem blk3 (c : Dev nD) (t : Fin cfg0.N) (hbr : t.val < 24) (h : Fin 64) :
    (iblk m c 3 t : Vec F S1x1x64 .f32) (ix3 (0 : Fin 1) (0 : Fin 1) h) = m ((c : Thread nD τ).loc main_arg3) (ix1 h) := by
  refine (read3 m c t 0 (by show 0 = t.val / 24; omega) h).trans ?_
  rw [V_v12]
  exact stackB_fst _ _ h

/-- Window 3, second half: the second. -/
theorem blk3' (c : Dev nD) (t : Fin cfg0.N) (hbr : 24 ≤ t.val) (h : Fin 64) :
    (iblk m c 3 t : Vec F S1x1x64 .f32) (ix3 (0 : Fin 1) (0 : Fin 1) h) = m ((c : Thread nD τ).loc main_arg11) (ix1 h) := by
  have h48 := lt48 t
  refine (read3 m c t 1 (by show 1 = t.val / 24; omega) h).trans ?_
  rw [V_v12]
  exact stackB_snd _ _ h

/-- Window 4, first half: the first of the two second-layer weight matrices. -/
theorem blk4 (c : Dev nD) (t : Fin cfg0.N) (hbr : t.val < 24) (h k : Fin 64) :
    (iblk m c 4 t : Vec F S1x64x64 .f32) (ix3 (0 : Fin 1) h k) = m ((c : Thread nD τ).loc main_arg4) (ix2 h k) := by
  refine (read4 m c t 0 (by show 0 = t.val / 24; omega) h k).trans ?_
  rw [V_v15]
  exact stackW2_fst _ _ h k

/-- Window 4, second half: the second. -/
theorem blk4' (c : Dev nD) (t : Fin cfg0.N) (hbr : 24 ≤ t.val) (h k : Fin 64) :
    (iblk m c 4 t : Vec F S1x64x64 .f32) (ix3 (0 : Fin 1) h k) = m ((c : Thread nD τ).loc main_arg12) (ix2 h k) := by
  have h48 := lt48 t
  refine (read4 m c t 1 (by show 1 = t.val / 24; omega) h k).trans ?_
  rw [V_v15]
  exact stackW2_snd _ _ h k

/-- Window 5, first half: the first of the two second-layer bias vectors. -/
theorem blk5 (c : Dev nD) (t : Fin cfg0.N) (hbr : t.val < 24) (k : Fin 64) :
    (iblk m c 5 t : Vec F S1x1x64 .f32) (ix3 (0 : Fin 1) (0 : Fin 1) k) = m ((c : Thread nD τ).loc main_arg5) (ix1 k) := by
  refine (read5 m c t 0 (by show 0 = t.val / 24; omega) k).trans ?_
  rw [V_v19]
  exact stackB_fst _ _ k

/-- Window 5, second half: the second. -/
theorem blk5' (c : Dev nD) (t : Fin cfg0.N) (hbr : 24 ≤ t.val) (k : Fin 64) :
    (iblk m c 5 t : Vec F S1x1x64 .f32) (ix3 (0 : Fin 1) (0 : Fin 1) k) = m ((c : Thread nD τ).loc main_arg13) (ix1 k) := by
  have h48 := lt48 t
  refine (read5 m c t 1 (by show 1 = t.val / 24; omega) k).trans ?_
  rw [V_v19]
  exact stackB_snd _ _ k

end Cert.KernelIdeal.Blocks

end
-- ==== Proof.KernelTail.lean ====
/-
  What the idealized kernel's @main computes after its one pipelined region.

  The region leaves an array `O` of shape [2, 4, 64]: slab 0 and slab 1 are the pooled sums of the two pair
  encoders.  The lines after the region take the difference of the two slabs, `D = O[0] - O[1]` (shape [4, 64]),
  and feed it to the decoder: `relu ([D, D] · Wd1 + bd1) · Wd2 + bd2`.  This module names the two stages
  (`pooledDiff`, `decoder`) and reads the result buffer of @main as their composition, applied to the array
  the region leaves and to the argument arrays, which no line writes.
-/
import proofs.«159682_j1322849927392_1_alg».proof.Proof.Gen.KernelIdeal.Frame

import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ) (ρ : Dev nD → PrngReg)

/-- The difference of the two slabs of the region's output: `O[0] - O[1]`. -/
def pooledDiff (O : (⟨S2x4x64, .f32⟩ : BufTy).Contents (Elt F)) : (⟨S4x64, .f32⟩ : BufTy).Contents (Elt F) :=
  subf (shapeCast S4x64 (extractStridedSlice S1x4x64 ![0, 0, 0] O slices_S2x4x64_S1x4x64_0_0_0) shapeCasts_S1x4x64_S4x64)
    (shapeCast S4x64 (extractStridedSlice S1x4x64 ![1, 0, 0] O slices_S2x4x64_S1x4x64_1_0_0) shapeCasts_S1x4x64_S4x64)

/-- The decoder: `relu ([D, D] · Wd1 + bd1) · Wd2 + bd2`. -/
def decoder (D : (⟨S4x64, .f32⟩ : BufTy).Contents (Elt F)) (W18 : (⟨S128x64, .f32⟩ : BufTy).Contents (Elt F))
    (b19 : (⟨S64, .f32⟩ : BufTy).Contents (Elt F)) (W20 : (⟨S64x1, .f32⟩ : BufTy).Contents (Elt F))
    (b21 : (⟨S1, .f32⟩ : BufTy).Contents (Elt F)) : (⟨S4x1, .f32⟩ : BufTy).Contents (Elt F) :=
  addf
    (Host.dotGeneral dot_S4x64_S64x1_S4x1_1_0_0_1_n_n none
      (maximumf
        (addf
          (Host.dotGeneral dot_S4x128_S128x64_S4x64_1_0_0_1_n_n none
            (concatenate S4x128 1 [⟨S4x64, D⟩, ⟨S4x64, D⟩] concatenates_S4x64_S4x64_S4x128_d1) W18)
          (broadcastInDim S4x64 ![0, 1] bcast_S1x64_S4x64_0_1 (broadcastInDim S1x64 ![1] bcast_S64_S1x64_1 b19)))
        (broadcastInDim S4x64 ![] bcast_S_S4x64 (constant S_ .f32 0x00000000#32)))
      W20)
    (broadcastInDim S4x1 ![0, 1] bcast_S1x1_S4x1_0_1 (broadcastInDim S1x1 ![1] bcast_S1_S1x1_1 b21))

set_option maxHeartbeats 4000000 in
/-- @main's result buffer after the lines that follow the region: the decoder of the slab difference of the array
    the region leaves, at the argument arrays as launched. -/
theorem result_eq (c : Dev nD) :
    Pipeline.afterTail₀ cfgs (dats m) 0 (V0 m) [hostOps1, hostOps1_1, hostOps1_2] c main_v35
      = decoder (pooledDiff ((dats m 0 c).arrAt 6 cfg0.N)) (m ((c : Thread nD τ).loc main_arg18))
          (m ((c : Thread nD τ).loc main_arg19)) (m ((c : Thread nD τ).loc main_arg20)) (m ((c : Thread nD τ).loc main_arg21)) := by
  unfold Pipeline.afterTail₀
  simp only [hostOps1, hostOps1_1, hostOps1_2, List.flatten_cons, List.flatten_nil, List.append_nil, List.cons_append, List.nil_append]
  after_results
  rw [Pipeline.withArrays_arr spec0 launch0.win.arr_inj c (V0 m c) _ 6,
    Pipeline.withArrays_of_ne _ c (V0 m c) _ main_arg18 (by exact (by decide : ∀ w, Pipeline.arrRef spec0 w ≠ main_arg18)),
    Pipeline.withArrays_of_ne _ c (V0 m c) _ main_arg19 (by exact (by decide : ∀ w, Pipeline.arrRef spec0 w ≠ main_arg19)),
    Pipeline.withArrays_of_ne _ c (V0 m c) _ main_arg20 (by exact (by decide : ∀ w, Pipeline.arrRef spec0 w ≠ main_arg20)),
    Pipeline.withArrays_of_ne _ c (V0 m c) _ main_arg21 (by exact (by decide : ∀ w, Pipeline.arrRef spec0 w ≠ main_arg21))]
  rw [show V0 m c (Proc.devRef .tc main_arg18) = m ((c : Thread nD τ).loc main_arg18) from V_main_arg18 m c,
    show V0 m c (Proc.devRef .tc main_arg19) = m ((c : Thread nD τ).loc main_arg19) from V_main_arg19 m c,
    show V0 m c (Proc.devRef .tc main_arg20) = m ((c : Thread nD τ).loc main_arg20) from V_main_arg20 m c,
    show V0 m c (Proc.devRef .tc main_arg21) = m ((c : Thread nD τ).loc main_arg21) from V_main_arg21 m c]
  rfl

end Cert.KernelIdeal.Tail

end
-- ==== Proof.KernelValue.lean ====
/-
  The value the idealized kernel's region leaves, in terms of @main's argument arrays.

  A point of row `q` of the grid (`q = 0`: points 0 … 23; `q = 1`: points 24 … 47) reads, as its blocks, slab
  `q` of the stacked arrays: for `q = 0` the rows of `X` and the `xx` encoder's weights, for `q = 1` the rows of
  `Y` and the `yx` encoder's; in both rows of the grid the 16 rows being pooled are rows `16 s … 16 s + 15` of
  `X`, `s` the point's position in its row.  So the sum of point `24 q + s` is the sum over those 16 rows of the
  pooled values (`pooledXX` / `pooledYX`), a slab of the output is zero plus the sum of all 384 pooled values, and the
  difference of the two slabs is — every pooled value being a real number — zero plus the sum of the 384 differences.
-/
import proofs.«159682_j1322849927392_1_alg».proof.Proof.Gen.KernelIdeal.Frame
import proofs.«159682_j1322849927392_1_alg».proof.Proof.KernelPool
import proofs.«159682_j1322849927392_1_alg».proof.Proof.KernelBlocks
import proofs.«159682_j1322849927392_1_alg».proof.Proof.KernelTail
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Pieces Cert.KernelIdeal.Acc Cert.KernelIdeal.Pool
open Cert.KernelIdeal.Blocks Cert.KernelIdeal.Tail Cert.PairPool
open Idealize.ShloMosaic.ValueIdx

variable (m : (ℓ : Loc nD τ sig) → Buf (Elt Ideal) ℓ)

/-- The pooled value of row `i` of `X` (batch `b`) against the rows of `X`, through the `xx` encoder. -/
def pooledXX (c : Dev nD) (b : Fin 4) (k : Fin 64) (i : Fin 384) : EReal :=
  pool (fun j d => m ((c : Thread nD τ).loc main_arg0) (ix3 b j d)) (fun d => m ((c : Thread nD τ).loc main_arg0) (ix3 b i d))
    (fun d h => m ((c : Thread nD τ).loc main_arg2) (ix2 (⟨d.val, Nat.lt_of_lt_of_le d.isLt (by decide)⟩ : Fin 128) h))
    (fun d h => m ((c : Thread nD τ).loc main_arg2) (ix2 (⟨64 + d.val, Nat.add_lt_add_left d.isLt 64⟩ : Fin 128) h))
    (fun h => m ((c : Thread nD τ).loc main_arg3) (ix1 h)) (fun h k' => m ((c : Thread nD τ).loc main_arg4) (ix2 h k')) (fun k' => m ((c : Thread nD τ).loc main_arg5) (ix1 k')) k

/-- The pooled value of row `i` of `X` (batch `b`) against the rows of `Y`, through the `yx` encoder. -/
def pooledYX (c : Dev nD) (b : Fin 4) (k : Fin 64) (i : Fin 384) : EReal :=
  pool (fun j d => m ((c : Thread nD τ).loc main_arg1) (ix3 b j d)) (fun d => m ((c : Thread nD τ).loc main_arg0) (ix3 b i d))
    (fun d h => m ((c : Thread nD τ).loc main_arg10) (ix2 (⟨d.val, Nat.lt_of_lt_of_le d.isLt (by decide)⟩ : Fin 128) h))
    (fun d h => m ((c : Thread nD τ).loc main_arg10) (ix2 (⟨64 + d.val, Nat.add_lt_add_left d.isLt 64⟩ : Fin 128) h))
    (fun h => m ((c : Thread nD τ).loc main_arg11) (ix1 h)) (fun h k' => m ((c : Thread nD τ).loc main_arg12) (ix2 h k')) (fun k' => m ((c : Thread nD τ).loc main_arg13) (ix1 k')) k

/-- The sum of a point of the first row of the grid. -/
theorem pointSum_xx (c : Dev nD) (t : Fin cfg0.N) (ht : t.val < 24) (b : Fin 4) (k : Fin 64) :
    pointSum m c t b k
      = ∑ ii : Fin 16, pooledXX m c b k (⟨16 * (t.val % 24) + ii.val, by have := ii.isLt; omega⟩ : Fin 384) := by
  unfold pointSum pooledXX
  refine Finset.sum_congr rfl fun ii _ => ?_
  simp only [lo_apply, hi_apply, blkA, blkC, blkW1, blkB1, blkW2, blkB2, blk0 m c t ht, blk1 m c t, blk2 m c t ht, blk3 m c t ht,
    blk4 m c t ht, blk5 m c t ht]

/-- The sum of a point of the second row of the grid. -/
theorem pointSum_yx (c : Dev nD) (t : Fin cfg0.N) (ht : 24 ≤ t.val) (b : Fin 4) (k : Fin 64) :
    pointSum m c t b k
      = ∑ ii : Fin 16, pooledYX m c b k (⟨16 * (t.val % 24) + ii.val, by have := ii.isLt; omega⟩ : Fin 384) := by
  unfold pointSum pooledYX
  refine Finset.sum_congr rfl fun ii _ => ?_
  simp only [lo_apply, hi_apply, blkA, blkC, blkW1, blkB1, blkW2, blkB2, blk0' m c t ht, blk1 m c t, blk2' m c t ht, blk3' m c t ht,
    blk4' m c t ht, blk5' m c t ht]

/-- Slab 0 of the output: zero plus the sum of the 384 pooled values of the `xx` encoder. -/
theorem slab_xx (c : Dev nD) (b : Fin 4) (k : Fin 64) :
    pooled m c (ix3 (0 : Fin 2) b k) = 0 + ∑ i : Fin 384, pooledXX m c b k i := by
  have hN : cfg0.N = 48 := N_0
  show (0 : EReal) + ∑ s ∈ Finset.range 24, addend m c (24 * 0 + s) b k = _
  congr 1
  rw [Finset.sum_range (fun s => addend m c (24 * 0 + s) b k),
    ← sum_tiles (fun i => pooledXX m c b k i)
      (fun s ii => (⟨16 * s.val + ii.val, by have := s.isLt; have := ii.isLt; omega⟩ : Fin 384)) (fun _ _ => rfl)]
  refine Finset.sum_congr rfl fun s _ => ?_
  have hs : s.val < 24 := s.isLt
  have h : 24 * 0 + s.val < cfg0.N := by omega
  rw [addend_of_lt m c _ h, pointSum_xx m c ⟨24 * 0 + s.val, h⟩ (by show 24 * 0 + s.val < 24; omega)]
  refine Finset.sum_congr rfl fun ii _ => ?_
  congr 1
  apply Fin.ext
  show 16 * ((24 * 0 + s.val) % 24) + ii.val = 16 * s.val + ii.val
  omega

/-- Slab 1 of the output: zero plus the sum of the 384 pooled values of the `yx` encoder. -/
theorem slab_yx (c : Dev nD) (b : Fin 4) (k : Fin 64) :
    pooled m c (ix3 (1 : Fin 2) b k) = 0 + ∑ i : Fin 384, pooledYX m c b k i := by
  have hN : cfg0.N = 48 := N_0
  show (0 : EReal) + ∑ s ∈ Finset.range 24, addend m c (24 * 1 + s) b k = _
  congr 1
  rw [Finset.sum_range (fun s => addend m c (24 * 1 + s) b k),
    ← sum_tiles (fun i => pooledYX m c b k i)
      (fun s ii => (⟨16 * s.val + ii.val, by have := s.isLt; have := ii.isLt; omega⟩ : Fin 384)) (fun _ _ => rfl)]
  refine Finset.sum_congr rfl fun s _ => ?_
  have hs : s.val < 24 := s.isLt
  have h : 24 * 1 + s.val < cfg0.N := by omega
  rw [addend_of_lt m c _ h, pointSum_yx m c ⟨24 * 1 + s.val, h⟩ (by show 24 ≤ 24 * 1 + s.val; omega)]
  refine Finset.sum_congr rfl fun ii _ => ?_
  congr 1
  apply Fin.ext
  show 16 * ((24 * 1 + s.val) % 24) + ii.val = 16 * s.val + ii.val
  omega

/-- Slab `q` of a [2, 4, 64] array, read through the slice and the reshape the program uses. -/
theorem slab_read (O : S2x4x64.Idx → Elt Ideal .f32) (q : Fin 2) (off : Fin 3 → ℕ) (hoff : off = ![q.val, 0, 0])
    (h : S2x4x64.Slices off S1x4x64) (b : Fin 4) (k : Fin 64) :
    shapeCast S4x64 (extractStridedSlice S1x4x64 off O h) shapeCasts_S1x4x64_S4x64 (ix2 b k) = O (ix3 q b k) := by
  subst hoff
  rw [shapeCast_dropUnit_apply ![4, 64] _ shapeCasts_S1x4x64_S4x64 (ix2 b k)]
  exact extractStridedSlice_apply _ O h _ (ix3 q b k) (fun a => match a with
    | ⟨0, _⟩ => by show q.val = q.val + 0; omega
    | ⟨1, _⟩ => by show b.val = 0 + b.val; omega
    | ⟨2, _⟩ => by show k.val = 0 + k.val; omega)

/-- The slab difference the decoder is fed, entry by entry: zero plus the sum over the 384 rows of the difference of
    the two pooled values — given that every pooled value is a real number. -/
theorem diff_apply (c : Dev nD) (b : Fin 4) (k : Fin 64) (hxx : ∀ i, IsReal (pooledXX m c b k i))
    (hyx : ∀ i, IsReal (pooledYX m c b k i)) :
    pooledDiff (pooled m c) (ix2 b k) = 0 + ∑ i : Fin 384, (pooledXX m c b k i - pooledYX m c b k i) := by
  have e : pooledDiff (pooled m c) (ix2 b k) = pooled m c (ix3 (0 : Fin 2) b k) - pooled m c (ix3 (1 : Fin 2) b k) := by
    unfold pooledDiff
    show shapeCast S4x64 (extractStridedSlice S1x4x64 ![0, 0, 0] (pooled m c) slices_S2x4x64_S1x4x64_0_0_0) shapeCasts_S1x4x64_S4x64 (ix2 b k)
        - shapeCast S4x64 (extractStridedSlice S1x4x64 ![1, 0, 0] (pooled m c) slices_S2x4x64_S1x4x64_1_0_0) shapeCasts_S1x4x64_S4x64 (ix2 b k) = _
    rw [slab_read (pooled m c) 0 ![0, 0, 0] rfl, slab_read (pooled m c) 1 ![1, 0, 0] rfl]
  rw [e, slab_xx, slab_yx, zero_add, zero_add, zero_add, sum_sub_of_isReal _ _ hxx hyx]

end Cert.KernelIdeal.Value

end
-- ==== Proof.Finite.lean ====
/-
  Finiteness of the inputs, read back from the printed precondition.

  The precondition is the conjunction, over the 22 float arguments, of "every entry satisfies `|x| < +∞`": for each
  argument the elementwise compare of `|x| = max x (-x)` against the constant `+∞` (bit pattern `0x7F800000`), reduced by `and`
  over all axes from the constant 1, and the 22 results and-ed together.  It is stated to be 1.

  An `and` of bits is 1 exactly when both are, so each of the 22 reduces is 1; a reduce by `and` over all axes that is 1
  met a 1 at every index, so every entry satisfies `max x (-x) < ⊤`.  Over the extended reals that excludes `⊤` and `⊥`
  (at either the maximum is `⊤`), which leaves the real numbers.  Ten of the 22 arrays are the ones the equivalence
  needs; the other twelve conjuncts are dropped.
-/
import proofs.«159682_j1322849927392_1_alg».proof.Defs
import proofs.«159682_j1322849927392_1_alg».proof.Proof.PairSpec
import Idealize.ShloMosaic.Lib.ReduceAll
import Idealize.ShloMosaic.Lib.ValueIdx

noncomputable section

namespace Cert.Finite

open Idealize.ShloMosaic Idealize.SL.Sem

/-- The rank-0 shape has exactly one index. -/
instance : Subsingleton Cert.Pre_finite_inputs.S_.Idx := ⟨fun a b => funext fun d => d.elim0⟩

/-- The bit pattern `0x7F800000` is `+∞`. -/
theorem ofBits_posInf : Ideal.ofBits .f32 0x7F800000#32 = (⊤ : EReal) := by
  simp [Ideal.ofBits, Ideal.ieee]

/-- An extended real `x` with `|x| < +∞`, where `|x| = max x (-x)`, is a real number: at `x = ⊤` and at `x = ⊥`
    the maximum is `⊤`, which is not below `⊤`. -/
theorem isReal_of_abs_lt_inf (x : EReal)
    (h : Ideal.cmp .olt (max x (-x)) (Ideal.ofBits .f32 0x7F800000#32) = 1#1) : Cert.PairPool.IsReal x := by
  rw [ofBits_posInf] at h
  induction x using EReal.rec with
  | bot => simp [Ideal.cmp] at h
  | coe r => exact ⟨r, rfl⟩
  | top => simp [Ideal.cmp] at h

/-- One array's conjunct read back: if the reduce by `and`, over all axes, of the compare `|x| < +∞` is 1, every entry
    of `x` is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) (i : s.Idx) :
    Cert.PairPool.IsReal (x i) :=
  isReal_of_abs_lt_inf (x i) (Host.reduce_andi_all _ _ hr hu ValueIdx.ix0 e i)

/-- Every entry of the ten argument arrays the two programs read is a real number. -/
theorem args_real (m : (ℓ : Loc Cert.KernelIdeal.nD Cert.KernelIdeal.τ Cert.KernelIdeal.sig) → Buf (Elt Ideal) ℓ)
    [Cert.Pre_finite_inputs.Facts] (h : Cert.Pre_KernelIdeal m) (c : Dev Cert.KernelIdeal.nD) :
    (∀ i, Cert.PairPool.IsReal (m ((c.tc : Thread Cert.KernelIdeal.nD Cert.KernelIdeal.τ).loc Cert.KernelIdeal.main_arg0) i))
      ∧ (∀ i, Cert.PairPool.IsReal (m ((c.tc : Thread Cert.KernelIdeal.nD Cert.KernelIdeal.τ).loc Cert.KernelIdeal.main_arg1) i))
      ∧ (∀ i, Cert.PairPool.IsReal (m ((c.tc : Thread Cert.KernelIdeal.nD Cert.KernelIdeal.τ).loc Cert.KernelIdeal.main_arg2) i))
      ∧ (∀ i, Cert.PairPool.IsReal (m ((c.tc : Thread Cert.KernelIdeal.nD Cert.KernelIdeal.τ).loc Cert.KernelIdeal.main_arg3) i))
      ∧ (∀ i, Cert.PairPool.IsReal (m ((c.tc : Thread Cert.KernelIdeal.nD Cert.KernelIdeal.τ).loc Cert.KernelIdeal.main_arg4) i))
      ∧ (∀ i, Cert.PairPool.IsReal (m ((c.tc : Thread Cert.KernelIdeal.nD Cert.KernelIdeal.τ).loc Cert.KernelIdeal.main_arg5) i))
      ∧ (∀ i, Cert.PairPool.IsReal (m ((c.tc : Thread Cert.KernelIdeal.nD Cert.KernelIdeal.τ).loc Cert.KernelIdeal.main_arg10) i))
      ∧ (∀ i, Cert.PairPool.IsReal (m ((c.tc : Thread Cert.KernelIdeal.nD Cert.KernelIdeal.τ).loc Cert.KernelIdeal.main_arg11) i))
      ∧ (∀ i, Cert.PairPool.IsReal (m ((c.tc : Thread Cert.KernelIdeal.nD Cert.KernelIdeal.τ).loc Cert.KernelIdeal.main_arg12) i))
      ∧ (∀ i, Cert.PairPool.IsReal (m ((c.tc : Thread Cert.KernelIdeal.nD Cert.KernelIdeal.τ).loc Cert.KernelIdeal.main_arg13) i)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, andi] at h0
  -- an `and` of two bits is 1 exactly when both are: the chain of 21 `and`s becomes 22 facts, nested to the left
  simp only [IntOp.andi_eq_one] at h0
  obtain ⟨⟨⟨⟨⟨⟨⟨⟨⟨⟨⟨⟨⟨⟨⟨⟨⟨⟨⟨⟨⟨e0, e1⟩, e2⟩, e3⟩, e4⟩, e5⟩, _⟩, _⟩, _⟩, _⟩, e10⟩, e11⟩, e12⟩, e13⟩, _⟩, _⟩, _⟩, _⟩, _⟩, _⟩, _⟩, _⟩ := h0
  exact ⟨real_of_all _ _ _ _ e0,
    real_of_all _ _ _ _ e1,
    real_of_all _ _ _ _ e2,
    real_of_all _ _ _ _ e3,
    real_of_all _ _ _ _ e4,
    real_of_all _ _ _ _ e5,
    real_of_all _ _ _ _ e10,
    real_of_all _ _ _ _ e11,
    real_of_all _ _ _ _ e12,
    real_of_all _ _ _ _ e13⟩

end Cert.Finite

end
-- ==== Proof.RefPool.lean ====
/-
  The reference program's two pooled arrays and their summed difference, read at an index.

  The reference encodes every pair (row j, row i) of a batch b: the hidden layer is the rectified sum of row j times
  rows 0..63 of the first weight matrix, row i times its rows 64..127, and the first bias; the encoding is the hidden
  layer times the second weight matrix plus the second bias.  It forms these as four-axis arrays indexed (b, i, j, k),
  each summand broadcast along the axis it does not depend on, and then takes the maximum over j from −∞.  Read at
  (b, i, k) that maximum is the specification's pooled value of row i against the 384 rows j: once with both rows
  taken from X and the first set of weights, once with the rows j taken from Y, the row i from X and the second set.
  The summed array at (b, k) is zero plus the sum over the 384 rows i of the difference of the two pooled values, and
  the program computes that sum twice, from the same operand and the same zero.

  Each stage of the imported generated module is read at explicit coordinates: a broadcast reads its operand with
  the broadcast coordinate dropped, a slice of the weight matrix reads rows 0..63 or 64..127, a contraction is the
  sum over its one contracted coordinate, and the reduce with a maximum body is a fold of max over the dropped
  axis's coordinates whose initial value, the bit pattern of −∞, is the bottom of the extended reals.
-/
import proofs.«159682_j1322849927392_1_alg».proof.Proof.RefRead
import proofs.«159682_j1322849927392_1_alg».proof.Proof.PairSpec
import Idealize.ShloMosaic.Lib.ValueIdx
import Idealize.ShloMosaic.PureOps.Ideal.Laws
import Idealize.ShloMosaic.PureOps.Reduce

noncomputable section

namespace Cert.ReferenceIdeal.RefPool

open Cert.ReferenceIdeal Cert.ReferenceIdeal.Gen Idealize.ShloMosaic Idealize.ShloMosaic.ValueIdx Idealize.ShloMosaic.StableHlo

/-! ## A maximum over one axis, read at an index -/

/-- The reduced index (b, i, k) with coordinate j put back on the dropped axis is (b, i, j, k). -/
theorem lift_ix3 (h : S4x384x384x64.Reduces [2] S4x384x64) (b : Fin 4) (i : Fin 384) (k : Fin 64)
    (j : Fin (S4x384x384x64.size 2)) :
    h.lift (ix3 b i k) j = ix4 b i (⟨j.val, j.isLt⟩ : Fin 384) k := by
  funext c; apply Fin.ext
  fin_cases c <;> rfl

/-- From −∞ the reduce with a maximum body over the third axis, at (b, i, k), is the maximum from ⊥ over j of the
    operand's entries (b, i, j, k). -/
theorem maxReduce_apply (y : (⟨S4x384x384x64, .f32⟩ : BufTy).Contents (Elt Ideal))
    (init : (⟨S_, .f32⟩ : BufTy).Contents (Elt Ideal))
    (hinit : init (Shape.Idx.first h_S_) = FloatOps.ofBits (F := Ideal) .f32 0xFF800000#32)
    (b : Fin 4) (i : Fin 384) (k : Fin 64) :
    Host.reduce (FloatOps.maximumf (F := Ideal) (φ := .f32)) y init reducesTo_S4x384x384x64_S4x384x64_d2 h_S_ (ix3 b i k)
      = (Finset.univ : Finset (Fin 384)).fold max ⊥ (fun j => y (ix4 b i j k)) := by
  have h : S4x384x384x64.Reduces [2] S4x384x64 := by decide
  refine (Host.reduce_eq_fold_single (FloatOps.maximumf (F := Ideal) (φ := .f32)) y init reducesTo_S4x384x384x64_S4x384x64_d2 h h_S_ (ix3 b i k)).trans ?_
  rw [hinit, Cert.PairPool.ofBits_negInf]
  have hf : (y ∘ h.lift (ix3 b i k)) = fun j : Fin 384 => y (ix4 b i j k) :=
    funext fun j => congrArg y (lift_ix3 h b i k j)
  exact congrArg (fun f => Finset.fold max (⊥ : EReal) f (Finset.univ : Finset (Fin 384))) hf

/-! ## The pair encoder on the rows of X against a row of X, stage by stage at explicit coordinates -/

/-- Rows j against rows 0..63 of the first weight matrix: entry (b, i, j, h) is row j times column h, whatever i. -/
theorem jrow_xx (x0 : (⟨S4x384x64, .f32⟩ : BufTy).Contents (Elt Ideal)) (x2 : (⟨S128x64, .f32⟩ : BufTy).Contents (Elt Ideal)) (b : Fin 4) (i j : Fin 384) (h : Fin 64) :
    Read.val_main_v6 (F := Ideal) x0 x2 (ix4 b i j h) = ∑ d : Fin 64, x0 (ix3 b j d) * x2 (ix2 (⟨d.val, Nat.lt_of_lt_of_le d.isLt (by decide)⟩ : Fin 128) h) := by
  rw [Read.val_main_v6_apply, Read.val_main_v4_apply, Read.val_main_v1_apply]
  refine Finset.sum_congr rfl fun d _ => ?_
  rw [Read.val_main_v0_apply]
  exact congrArg₂ (· * ·) (congrArg x0 (funext fun a => Fin.ext (by match a with | ⟨0, _⟩ => rfl | ⟨1, _⟩ => rfl | ⟨2, _⟩ => rfl))) (congrArg x2 (funext fun a => Fin.ext (by match a with | ⟨0, _⟩ => rfl | ⟨1, _⟩ => rfl)))

/-- Row i against rows 64..127 of the first weight matrix: entry (b, i, j, h) is row i times column h, whatever j. -/
theorem irow_xx (x0 : (⟨S4x384x64, .f32⟩ : BufTy).Contents (Elt Ideal)) (x2 : (⟨S128x64, .f32⟩ : BufTy).Contents (Elt Ideal)) (b : Fin 4) (i j : Fin 384) (h : Fin 64) :
    Read.val_main_v7 (F := Ideal) x0 x2 (ix4 b i j h) = ∑ d : Fin 64, x0 (ix3 b i d) * x2 (ix2 (⟨64 + d.val, Nat.add_lt_add_left d.isLt 64⟩ : Fin 128) h) := by
  rw [Read.val_main_v7_apply, Read.val_main_v5_apply, Read.val_main_v3_apply]
  refine Finset.sum_congr rfl fun d _ => ?_
  rw [Read.val_main_v2_apply]
  exact congrArg₂ (· * ·) (congrArg x0 (funext fun a => Fin.ext (by match a with | ⟨0, _⟩ => rfl | ⟨1, _⟩ => rfl | ⟨2, _⟩ => rfl))) (congrArg x2 (funext fun a => Fin.ext (by match a with | ⟨0, _⟩ => rfl | ⟨1, _⟩ => rfl)))

/-- The first bias, broadcast: entry (b, i, j, h) is its entry h. -/
theorem bias1_xx (x3 : (⟨S64, .f32⟩ : BufTy).Contents (Elt Ideal)) (b : Fin 4) (i j : Fin 384) (h : Fin 64) :
    Read.val_main_v10 (F := Ideal) x3 (ix4 b i j h) = x3 (ix1 h) := by
  rw [Read.val_main_v10_apply, Read.val_main_v9_apply]
  exact congrArg x3 (funext fun a => Fin.ext (by match a with | ⟨0, _⟩ => rfl))

/-- The rectifier's threshold, broadcast: every entry is zero. -/
theorem zero_xx (b : Fin 4) (i j : Fin 384) (h : Fin 64) :
    Read.val_main_call0_v0 (F := Ideal) (ix4 b i j h) = (0 : EReal) := by
  rw [Read.val_main_call0_v0_apply, Read.val_main_call0_cst_apply]
  exact Cert.PairPool.ofBits_zero

/-- The second bias, broadcast: entry (b, i, j, k) is its entry k. -/
theorem bias2_xx (x5 : (⟨S64, .f32⟩ : BufTy).Contents (Elt Ideal)) (b : Fin 4) (i j : Fin 384) (k : Fin 64) :
    Read.val_main_v15 (F := Ideal) x5 (ix4 b i j k) = x5 (ix1 k) := by
  rw [Read.val_main_v15_apply, Read.val_main_v14_apply]
  exact congrArg x5 (funext fun a => Fin.ext (by match a with | ⟨0, _⟩ => rfl))

/-- The hidden layer of the pair (row j, row i) of batch b, coordinate h. -/
theorem hid_xx (x0 : (⟨S4x384x64, .f32⟩ : BufTy).Contents (Elt Ideal)) (x2 : (⟨S128x64, .f32⟩ : BufTy).Contents (Elt Ideal)) (x3 : (⟨S64, .f32⟩ : BufTy).Contents (Elt Ideal)) (b : Fin 4) (i j : Fin 384) (h : Fin 64) :
    Read.val_main_v12 (F := Ideal) x0 x2 x3 (ix4 b i j h)
      = Cert.PairPool.hid (fun d => x0 (ix3 b j d)) (fun d => x0 (ix3 b i d)) (fun d h' => x2 (ix2 (⟨d.val, Nat.lt_of_lt_of_le d.isLt (by decide)⟩ : Fin 128) h'))
          (fun d h' => x2 (ix2 (⟨64 + d.val, Nat.add_lt_add_left d.isLt 64⟩ : Fin 128) h')) (fun h' => x3 (ix1 h')) h := by
  rw [Read.val_main_v12_apply, Read.val_main_v11_apply, Read.val_main_v8_apply, jrow_xx, irow_xx, bias1_xx, zero_xx]
  rfl

/-- The encoding of the pair (row j, row i) of batch b, coordinate k. -/
theorem enc_xx (x0 : (⟨S4x384x64, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (b : Fin 4) (i j : Fin 384) (k : Fin 64) :
    Read.val_main_v16 (F := Ideal) x0 x2 x3 x4 x5 (ix4 b i j k)
      = Cert.PairPool.enc (fun d => x0 (ix3 b j d)) (fun d => x0 (ix3 b i d)) (fun d h' => x2 (ix2 (⟨d.val, Nat.lt_of_lt_of_le d.isLt (by decide)⟩ : Fin 128) h'))
          (fun d h' => x2 (ix2 (⟨64 + d.val, Nat.add_lt_add_left d.isLt 64⟩ : Fin 128) h')) (fun h' => x3 (ix1 h')) (fun h' k' => x4 (ix2 h' k')) (fun k' => x5 (ix1 k')) k := by
  rw [Read.val_main_v16_apply, Read.val_main_v13_apply, bias2_xx, Ideal.addf_def]
  unfold Cert.PairPool.enc
  refine congrArg₂ (· + ·) (Finset.sum_congr rfl fun h _ => ?_) rfl
  refine congrArg₂ (· * ·) ?_ (congrArg x4 (funext fun a => Fin.ext (by match a with | ⟨0, _⟩ => rfl | ⟨1, _⟩ => rfl)))
  exact (congrArg (Read.val_main_v12 (F := Ideal) x0 x2 x3) (funext fun a => Fin.ext (by match a with | ⟨0, _⟩ => rfl | ⟨1, _⟩ => rfl | ⟨2, _⟩ => rfl | ⟨3, _⟩ => rfl))).trans (hid_xx x0 x2 x3 b i j h)

/-- The pooled value of row i of batch b against the rows of X, coordinate k: what the first max-reduce holds. -/
theorem v17_apply (x0 : (⟨S4x384x64, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (b : Fin 4) (i : Fin 384) (k : Fin 64) :
    Read.val_main_v17 (F := Ideal) x0 x2 x3 x4 x5 (ix3 b i k)
      = Cert.PairPool.pool (fun j d => x0 (ix3 b j d)) (fun d => x0 (ix3 b i d)) (fun d h => x2 (ix2 (⟨d.val, Nat.lt_of_lt_of_le d.isLt (by decide)⟩ : Fin 128) h))
          (fun d h => x2 (ix2 (⟨64 + d.val, Nat.add_lt_add_left d.isLt 64⟩ : Fin 128) h)) (fun h => x3 (ix1 h)) (fun h k' => x4 (ix2 h k')) (fun k' => x5 (ix1 k')) k := by
  unfold Read.val_main_v17 Cert.PairPool.pool
  rw [maxReduce_apply _ _ (Read.val_main_cst_apply (F := Ideal) _) b i k]
  exact congrArg (fun f => Finset.fold max (⊥ : EReal) f (Finset.univ : Finset (Fin 384)))
    (funext fun j => enc_xx x0 x2 x3 x4 x5 b i j k)

/-! ## The pair encoder on the rows of Y against a row of X, stage by stage at explicit coordinates -/

/-- Rows j of Y against rows 0..63 of the first weight matrix: entry (b, i, j, h) is row j times column h, whatever i. -/
theorem jrow_yx (x1 : (⟨S4x384x64, .f32⟩ : BufTy).Contents (Elt Ideal)) (x10 : (⟨S128x64, .f32⟩ : BufTy).Contents (Elt Ideal)) (b : Fin 4) (i j : Fin 384) (h : Fin 64) :
    Read.val_main_v24 (F := Ideal) x1 x10 (ix4 b i j h) = ∑ d : Fin 64, x1 (ix3 b j d) * x10 (ix2 (⟨d.val, Nat.lt_of_lt_of_le d.isLt (by decide)⟩ : Fin 128) h) := by
  rw [Read.val_main_v24_apply, Read.val_main_v22_apply, Read.val_main_v19_apply]
  refine Finset.sum_congr rfl fun d _ => ?_
  rw [Read.val_main_v18_apply]
  exact congrArg₂ (· * ·) (congrArg x1 (funext fun a => Fin.ext (by match a with | ⟨0, _⟩ => rfl | ⟨1, _⟩ => rfl | ⟨2, _⟩ => rfl))) (congrArg x10 (funext fun a => Fin.ext (by match a with | ⟨0, _⟩ => rfl | ⟨1, _⟩ => rfl)))

/-- Row i of X against rows 64..127 of the first weight matrix: entry (b, i, j, h) is row i times column h, whatever j. -/
theorem irow_yx (x0 : (⟨S4x384x64, .f32⟩ : BufTy).Contents (Elt Ideal)) (x10 : (⟨S128x64, .f32⟩ : BufTy).Contents (Elt Ideal)) (b : Fin 4) (i j : Fin 384) (h : Fin 64) :
    Read.val_main_v25 (F := Ideal) x0 x10 (ix4 b i j h) = ∑ d : Fin 64, x0 (ix3 b i d) * x10 (ix2 (⟨64 + d.val, Nat.add_lt_add_left d.isLt 64⟩ : Fin 128) h) := by
  rw [Read.val_main_v25_apply, Read.val_main_v23_apply, Read.val_main_v21_apply]
  refine Finset.sum_congr rfl fun d _ => ?_
  rw [Read.val_main_v20_apply]
  exact congrArg₂ (· * ·) (congrArg x0 (funext fun a => Fin.ext (by match a with | ⟨0, _⟩ => rfl | ⟨1, _⟩ => rfl | ⟨2, _⟩ => rfl))) (congrArg x10 (funext fun a => Fin.ext (by match a with | ⟨0, _⟩ => rfl | ⟨1, _⟩ => rfl)))

/-- The first bias, broadcast: entry (b, i, j, h) is its entry h. -/
theorem bias1_yx (x11 : (⟨S64, .f32⟩ : BufTy).Contents (Elt Ideal)) (b : Fin 4) (i j : Fin 384) (h : Fin 64) :
    Read.val_main_v28 (F := Ideal) x11 (ix4 b i j h) = x11 (ix1 h) := by
  rw [Read.val_main_v28_apply, Read.val_main_v27_apply]
  exact congrArg x11 (funext fun a => Fin.ext (by match a with | ⟨0, _⟩ => rfl))

/-- The rectifier's threshold, broadcast: every entry is zero. -/
theorem zero_yx (b : Fin 4) (i j : Fin 384) (h : Fin 64) :
    Read.val_main_call1_v0 (F := Ideal) (ix4 b i j h) = (0 : EReal) := by
  rw [Read.val_main_call1_v0_apply, Read.val_main_call1_cst_apply]
  exact Cert.PairPool.ofBits_zero

/-- The second bias, broadcast: entry (b, i, j, k) is its entry k. -/
theorem bias2_yx (x13 : (⟨S64, .f32⟩ : BufTy).Contents (Elt Ideal)) (b : Fin 4) (i j : Fin 384) (k : Fin 64) :
    Read.val_main_v33 (F := Ideal) x13 (ix4 b i j k) = x13 (ix1 k) := by
  rw [Read.val_main_v33_apply, Read.val_main_v32_apply]
  exact congrArg x13 (funext fun a => Fin.ext (by match a with | ⟨0, _⟩ => rfl))

/-- The hidden layer of the pair (row j of Y, row i of X) of batch b, coordinate h. -/
theorem hid_yx (x0 x1 : (⟨S4x384x64, .f32⟩ : BufTy).Contents (Elt Ideal)) (x10 : (⟨S128x64, .f32⟩ : BufTy).Contents (Elt Ideal)) (x11 : (⟨S64, .f32⟩ : BufTy).Contents (Elt Ideal)) (b : Fin 4) (i j : Fin 384) (h : Fin 64) :
    Read.val_main_v30 (F := Ideal) x0 x1 x10 x11 (ix4 b i j h)
      = Cert.PairPool.hid (fun d => x1 (ix3 b j d)) (fun d => x0 (ix3 b i d)) (fun d h' => x10 (ix2 (⟨d.val, Nat.lt_of_lt_of_le d.isLt (by decide)⟩ : Fin 128) h'))
          (fun d h' => x10 (ix2 (⟨64 + d.val, Nat.add_lt_add_left d.isLt 64⟩ : Fin 128) h')) (fun h' => x11 (ix1 h')) h := by
  rw [Read.val_main_v30_apply, Read.val_main_v29_apply, Read.val_main_v26_apply, jrow_yx, irow_yx, bias1_yx, zero_yx]
  rfl

/-- The encoding of the pair (row j of Y, row i of X) of batch b, coordinate k. -/
theorem enc_yx (x0 x1 : (⟨S4x384x64, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (b : Fin 4) (i j : Fin 384) (k : Fin 64) :
    Read.val_main_v34 (F := Ideal) x0 x1 x10 x11 x12 x13 (ix4 b i j k)
      = Cert.PairPool.enc (fun d => x1 (ix3 b j d)) (fun d => x0 (ix3 b i d)) (fun d h' => x10 (ix2 (⟨d.val, Nat.lt_of_lt_of_le d.isLt (by decide)⟩ : Fin 128) h'))
          (fun d h' => x10 (ix2 (⟨64 + d.val, Nat.add_lt_add_left d.isLt 64⟩ : Fin 128) h')) (fun h' => x11 (ix1 h')) (fun h' k' => x12 (ix2 h' k')) (fun k' => x13 (ix1 k')) k := by
  rw [Read.val_main_v34_apply, Read.val_main_v31_apply, bias2_yx, Ideal.addf_def]
  unfold Cert.PairPool.enc
  refine congrArg₂ (· + ·) (Finset.sum_congr rfl fun h _ => ?_) rfl
  refine congrArg₂ (· * ·) ?_ (congrArg x12 (funext fun a => Fin.ext (by match a with | ⟨0, _⟩ => rfl | ⟨1, _⟩ => rfl)))
  exact (congrArg (Read.val_main_v30 (F := Ideal) x0 x1 x10 x11) (funext fun a => Fin.ext (by match a with | ⟨0, _⟩ => rfl | ⟨1, _⟩ => rfl | ⟨2, _⟩ => rfl | ⟨3, _⟩ => rfl))).trans (hid_yx x0 x1 x10 x11 b i j h)

/-- The pooled value of row i of X of batch b against the rows of Y, coordinate k: what the second max-reduce holds. -/
theorem v35_apply (x0 x1 : (⟨S4x384x64, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (b : Fin 4) (i : Fin 384) (k : Fin 64) :
    Read.val_main_v35 (F := Ideal) x0 x1 x10 x11 x12 x13 (ix3 b i k)
      = Cert.PairPool.pool (fun j d => x1 (ix3 b j d)) (fun d => x0 (ix3 b i d)) (fun d h => x10 (ix2 (⟨d.val, Nat.lt_of_lt_of_le d.isLt (by decide)⟩ : Fin 128) h))
          (fun d h => x10 (ix2 (⟨64 + d.val, Nat.add_lt_add_left d.isLt 64⟩ : Fin 128) h)) (fun h => x11 (ix1 h)) (fun h k' => x12 (ix2 h k')) (fun k' => x13 (ix1 k')) k := by
  unfold Read.val_main_v35 Cert.PairPool.pool
  rw [maxReduce_apply _ _ (Read.val_main_cst_0_apply (F := Ideal) _) b i k]
  exact congrArg (fun f => Finset.fold max (⊥ : EReal) f (Finset.univ : Finset (Fin 384)))
    (funext fun j => enc_yx x0 x1 x10 x11 x12 x13 b i j k)

/-! ## The sum over the rows -/

/-- Entry (b, k) of the first sum over the rows: zero plus the sum over i of the difference of the two pooled values of row i. -/
theorem v73_apply (x0 x1 : (⟨S4x384x64, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (b : Fin 4) (k : Fin 64) :
    Read.val_main_v73 (F := Ideal) x0 x1 x2 x3 x4 x5 x10 x11 x12 x13 (ix2 b k)
      = 0 + ∑ i : Fin 384, (Read.val_main_v17 (F := Ideal) x0 x2 x3 x4 x5 (ix3 b i k)
          - Read.val_main_v35 (F := Ideal) x0 x1 x10 x11 x12 x13 (ix3 b i k)) := by
  rw [Read.val_main_v73_apply, Read.val_main_cst_3_apply, Cert.PairPool.ofBits_zero]
  refine congrArg (0 + ·) (Finset.sum_congr rfl fun i _ => ?_)
  rw [Read.val_main_v72_apply, Ideal.subf_def]
  exact congrArg₂ (· - ·) (congrArg (Read.val_main_v17 (F := Ideal) x0 x2 x3 x4 x5) (funext fun a => Fin.ext (by match a with | ⟨0, _⟩ => rfl | ⟨1, _⟩ => rfl | ⟨2, _⟩ => rfl)))
    (congrArg (Read.val_main_v35 (F := Ideal) x0 x1 x10 x11 x12 x13) (funext fun a => Fin.ext (by match a with | ⟨0, _⟩ => rfl | ⟨1, _⟩ => rfl | ⟨2, _⟩ => rfl)))

/-- The second sum over the rows is the first: the same operand, the same zero. -/
theorem v74_eq_v73 (x0 x1 : (⟨S4x384x64, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) :
    Read.val_main_v74 (F := Ideal) x0 x1 x2 x3 x4 x5 x10 x11 x12 x13 = Read.val_main_v73 (F := Ideal) x0 x1 x2 x3 x4 x5 x10 x11 x12 x13 := rfl

end Cert.ReferenceIdeal.RefPool

end
-- ==== Proof.Bridge.lean ====
/-
  The two idealized programs compute the same result.

  Both end with the same decoder, `relu ([D, D] · Wd1 + bd1) · Wd2 + bd2`, applied to a [4, 64] array `D`.
  The kernel's `D` is the difference of the two slabs its region leaves, each slab zero plus the sum over the 384
  rows of the pooled values of one encoder; the reference's `D` is zero plus the sum over the 384 rows of the
  difference of the two pooled values.  Under the precondition every input entry is a real number, hence every pooled
  value is, and the sum of the differences is the difference of the sums: the two arrays `D` agree entry by entry.
-/
import proofs.«159682_j1322849927392_1_alg».proof.Defs
import proofs.«159682_j1322849927392_1_alg».proof.Proof.KernelValue
import proofs.«159682_j1322849927392_1_alg».proof.Proof.Finite
import proofs.«159682_j1322849927392_1_alg».proof.Proof.RefPool
import Idealize.ShloMosaic.Lib.Pipeline.Value
import Idealize.ShloMosaic.Lib.ValueIdx

noncomputable section

open Idealize.ShloMosaic Idealize.ShloMosaic.TcCoe Idealize.SL.Sem
open Idealize.ShloMosaic.ValueIdx

namespace Cert.Proof.Bridge

open Cert.PairPool

/-! ## The kernel's run, read -/

section Kernel

variable (m : (ℓ : Loc Cert.KernelIdeal.nD Cert.KernelIdeal.τ Cert.KernelIdeal.sig) → Buf (Elt Ideal) ℓ) (ρ : Dev Cert.KernelIdeal.nD → PrngReg)

/-- The idealized kernel's result: the decoder of the slab difference of the pooled array. -/
def kernelResult (c : Dev Cert.KernelIdeal.nD) : Buf (Elt Ideal) ((c.tc : Thread Cert.KernelIdeal.nD Cert.KernelIdeal.τ).loc Cert.KernelIdeal.main_v35) :=
  Cert.KernelIdeal.Tail.decoder (Cert.KernelIdeal.Tail.pooledDiff (Cert.KernelIdeal.Pool.pooled m c)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))

/-- Every weakly fair execution of the idealized kernel's @main terminates with its result buffer at `kernelResult` and
    its argument arrays unchanged. -/
theorem kernel_run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v35) = kernelResult m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)) :=
  (θ_run Cert.KernelIdeal.defs _ _).mono (fun _ h c =>
    ⟨((h c).2 Cert.KernelIdeal.main_v35 (Pipeline.mem_restRefs_of Cert.KernelIdeal.main_v35 (by decide) (by decide))).trans
        ((Cert.KernelIdeal.Tail.result_eq m c).trans (by unfold kernelResult; rw [Cert.KernelIdeal.Pool.final m c])),
      (((h c).2 Cert.KernelIdeal.main_arg0 (Pipeline.mem_restRefs_of Cert.KernelIdeal.main_arg0 (by decide) (by decide))).trans (Cert.KernelIdeal.Gen.W_main_arg0 m (Cert.KernelIdeal.Gen.dats m) c)),
      (((h c).2 Cert.KernelIdeal.main_arg1 (Pipeline.mem_restRefs_of Cert.KernelIdeal.main_arg1 (by decide) (by decide))).trans (Cert.KernelIdeal.Gen.W_main_arg1 m (Cert.KernelIdeal.Gen.dats m) c)),
      (((h c).2 Cert.KernelIdeal.main_arg2 (Pipeline.mem_restRefs_of Cert.KernelIdeal.main_arg2 (by decide) (by decide))).trans (Cert.KernelIdeal.Gen.W_main_arg2 m (Cert.KernelIdeal.Gen.dats m) c)),
      (((h c).2 Cert.KernelIdeal.main_arg3 (Pipeline.mem_restRefs_of Cert.KernelIdeal.main_arg3 (by decide) (by decide))).trans (Cert.KernelIdeal.Gen.W_main_arg3 m (Cert.KernelIdeal.Gen.dats m) c)),
      (((h c).2 Cert.KernelIdeal.main_arg4 (Pipeline.mem_restRefs_of Cert.KernelIdeal.main_arg4 (by decide) (by decide))).trans (Cert.KernelIdeal.Gen.W_main_arg4 m (Cert.KernelIdeal.Gen.dats m) c)),
      (((h c).2 Cert.KernelIdeal.main_arg5 (Pipeline.mem_restRefs_of Cert.KernelIdeal.main_arg5 (by decide) (by decide))).trans (Cert.KernelIdeal.Gen.W_main_arg5 m (Cert.KernelIdeal.Gen.dats m) c)),
      (((h c).2 Cert.KernelIdeal.main_arg6 (Pipeline.mem_restRefs_of Cert.KernelIdeal.main_arg6 (by decide) (by decide))).trans (Cert.KernelIdeal.Gen.W_main_arg6 m (Cert.KernelIdeal.Gen.dats m) c)),
      (((h c).2 Cert.KernelIdeal.main_arg7 (Pipeline.mem_restRefs_of Cert.KernelIdeal.main_arg7 (by decide) (by decide))).trans (Cert.KernelIdeal.Gen.W_main_arg7 m (Cert.KernelIdeal.Gen.dats m) c)),
      (((h c).2 Cert.KernelIdeal.main_arg8 (Pipeline.mem_restRefs_of Cert.KernelIdeal.main_arg8 (by decide) (by decide))).trans (Cert.KernelIdeal.Gen.W_main_arg8 m (Cert.KernelIdeal.Gen.dats m) c)),
      (((h c).2 Cert.KernelIdeal.main_arg9 (Pipeline.mem_restRefs_of Cert.KernelIdeal.main_arg9 (by decide) (by decide))).trans (Cert.KernelIdeal.Gen.W_main_arg9 m (Cert.KernelIdeal.Gen.dats m) c)),
      (((h c).2 Cert.KernelIdeal.main_arg10 (Pipeline.mem_restRefs_of Cert.KernelIdeal.main_arg10 (by decide) (by decide))).trans (Cert.KernelIdeal.Gen.W_main_arg10 m (Cert.KernelIdeal.Gen.dats m) c)),
      (((h c).2 Cert.KernelIdeal.main_arg11 (Pipeline.mem_restRefs_of Cert.KernelIdeal.main_arg11 (by decide) (by decide))).trans (Cert.KernelIdeal.Gen.W_main_arg11 m (Cert.KernelIdeal.Gen.dats m) c)),
      (((h c).2 Cert.KernelIdeal.main_arg12 (Pipeline.mem_restRefs_of Cert.KernelIdeal.main_arg12 (by decide) (by decide))).trans (Cert.KernelIdeal.Gen.W_main_arg12 m (Cert.KernelIdeal.Gen.dats m) c)),
      (((h c).2 Cert.KernelIdeal.main_arg13 (Pipeline.mem_restRefs_of Cert.KernelIdeal.main_arg13 (by decide) (by decide))).trans (Cert.KernelIdeal.Gen.W_main_arg13 m (Cert.KernelIdeal.Gen.dats m) c)),
      (((h c).2 Cert.KernelIdeal.main_arg14 (Pipeline.mem_restRefs_of Cert.KernelIdeal.main_arg14 (by decide) (by decide))).trans (Cert.KernelIdeal.Gen.W_main_arg14 m (Cert.KernelIdeal.Gen.dats m) c)),
      (((h c).2 Cert.KernelIdeal.main_arg15 (Pipeline.mem_restRefs_of Cert.KernelIdeal.main_arg15 (by decide) (by decide))).trans (Cert.KernelIdeal.Gen.W_main_arg15 m (Cert.KernelIdeal.Gen.dats m) c)),
      (((h c).2 Cert.KernelIdeal.main_arg16 (Pipeline.mem_restRefs_of Cert.KernelIdeal.main_arg16 (by decide) (by decide))).trans (Cert.KernelIdeal.Gen.W_main_arg16 m (Cert.KernelIdeal.Gen.dats m) c)),
      (((h c).2 Cert.KernelIdeal.main_arg17 (Pipeline.mem_restRefs_of Cert.KernelIdeal.main_arg17 (by decide) (by decide))).trans (Cert.KernelIdeal.Gen.W_main_arg17 m (Cert.KernelIdeal.Gen.dats m) c)),
      (((h c).2 Cert.KernelIdeal.main_arg18 (Pipeline.mem_restRefs_of Cert.KernelIdeal.main_arg18 (by decide) (by decide))).trans (Cert.KernelIdeal.Gen.W_main_arg18 m (Cert.KernelIdeal.Gen.dats m) c)),
      (((h c).2 Cert.KernelIdeal.main_arg19 (Pipeline.mem_restRefs_of Cert.KernelIdeal.main_arg19 (by decide) (by decide))).trans (Cert.KernelIdeal.Gen.W_main_arg19 m (Cert.KernelIdeal.Gen.dats m) c)),
      (((h c).2 Cert.KernelIdeal.main_arg20 (Pipeline.mem_restRefs_of Cert.KernelIdeal.main_arg20 (by decide) (by decide))).trans (Cert.KernelIdeal.Gen.W_main_arg20 m (Cert.KernelIdeal.Gen.dats m) c)),
      (((h c).2 Cert.KernelIdeal.main_arg21 (Pipeline.mem_restRefs_of Cert.KernelIdeal.main_arg21 (by decide) (by decide))).trans (Cert.KernelIdeal.Gen.W_main_arg21 m (Cert.KernelIdeal.Gen.dats m) c))⟩)
    (Cert.KernelIdeal.Gen.run_main m ρ)

end Kernel

/-! ## The reference's result is the same decoder of its own pooled difference -/

section Ref

variable {F : FTy → Type} [FloatOps F]

theorem ref_result (x0 x1 : (⟨Cert.ReferenceIdeal.S4x384x64, .f32⟩ : BufTy).Contents (Elt F)) (x2 : (⟨Cert.ReferenceIdeal.S128x64, .f32⟩ : BufTy).Contents (Elt F))
    (x3 : (⟨Cert.ReferenceIdeal.S64, .f32⟩ : BufTy).Contents (Elt F)) (x4 : (⟨Cert.ReferenceIdeal.S64x64, .f32⟩ : BufTy).Contents (Elt F)) (x5 : (⟨Cert.ReferenceIdeal.S64, .f32⟩ : BufTy).Contents (Elt F))
    (x10 : (⟨Cert.ReferenceIdeal.S128x64, .f32⟩ : BufTy).Contents (Elt F)) (x11 : (⟨Cert.ReferenceIdeal.S64, .f32⟩ : BufTy).Contents (Elt F))
    (x12 : (⟨Cert.ReferenceIdeal.S64x64, .f32⟩ : BufTy).Contents (Elt F)) (x13 : (⟨Cert.ReferenceIdeal.S64, .f32⟩ : BufTy).Contents (Elt F))
    (x18 : (⟨Cert.ReferenceIdeal.S128x64, .f32⟩ : BufTy).Contents (Elt F)) (x19 : (⟨Cert.ReferenceIdeal.S64, .f32⟩ : BufTy).Contents (Elt F))
    (x20 : (⟨Cert.ReferenceIdeal.S64x1, .f32⟩ : BufTy).Contents (Elt F)) (x21 : (⟨Cert.ReferenceIdeal.S1, .f32⟩ : BufTy).Contents (Elt F)) :
    Cert.ReferenceIdeal.Read.val_main_v84 (F := F) x0 x1 x2 x3 x4 x5 x10 x11 x12 x13 x18 x19 x20 x21
      = Cert.KernelIdeal.Tail.decoder (F := F) (Cert.ReferenceIdeal.Read.val_main_v73 (F := F) x0 x1 x2 x3 x4 x5 x10 x11 x12 x13) x18 x19 x20 x21 := by
  unfold Cert.ReferenceIdeal.Read.val_main_v84 Cert.ReferenceIdeal.Read.val_main_v83 Cert.ReferenceIdeal.Read.val_main_v82 Cert.ReferenceIdeal.Read.val_main_v81 Cert.ReferenceIdeal.Read.val_main_v80
    Cert.ReferenceIdeal.Read.val_main_v79 Cert.ReferenceIdeal.Read.val_main_v78 Cert.ReferenceIdeal.Read.val_main_v77 Cert.ReferenceIdeal.Read.val_main_v76 Cert.ReferenceIdeal.Read.val_main_v75
    Cert.ReferenceIdeal.Read.val_main_call4_v0 Cert.ReferenceIdeal.Read.val_main_call4_cst Cert.KernelIdeal.Tail.decoder
  rfl

end Ref

/-! ## The claim -/

section Claim

variable [hKernelIdeal : Cert.KernelIdeal.Facts] [hReferenceIdeal : Cert.ReferenceIdeal.Facts] [hPre : Cert.Pre_finite_inputs.Facts]

/-- The two pooled differences agree, entry by entry, when every input entry is a real number. -/
theorem diff_eq (m : (ℓ : Loc Cert.KernelIdeal.nD Cert.KernelIdeal.τ Cert.KernelIdeal.sig) → Buf (Elt Ideal) ℓ) (hpre : Cert.Pre_KernelIdeal m) (c : Dev Cert.KernelIdeal.nD) :
    Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Tail.pooledDiff (Cert.KernelIdeal.Pool.pooled m c) := by
  obtain ⟨r0, r1, r2, r3, r4, r5, r10, r11, r12, r13⟩ := Cert.Finite.args_real m hpre c
  funext i
  obtain ⟨b, k, rfl⟩ : ∃ (b : Fin 4) (k : Fin 64), i = ix2 b k := ⟨i 0, i 1, eq_ix2 i⟩
  rw [Cert.ReferenceIdeal.RefPool.v73_apply, Cert.KernelIdeal.Value.diff_apply m c b k
    (fun i => pool_isReal (fun j d => r0 _) (fun d => r0 _) (fun d h => r2 _) (fun d h => r2 _) (fun h => r3 _) (fun h k' => r4 _) (fun k' => r5 _) k)
    (fun i => pool_isReal (fun j d => r1 _) (fun d => r0 _) (fun d h => r10 _) (fun d h => r10 _) (fun h => r11 _) (fun h k' => r12 _) (fun k' => r13 _) k)]
  refine congrArg (fun s => (0 : EReal) + s) (Finset.sum_congr rfl fun i _ => ?_)
  rw [Cert.ReferenceIdeal.RefPool.v17_apply, Cert.ReferenceIdeal.RefPool.v35_apply]
  rfl

end Claim

end Cert.Proof.Bridge

end
-- ==== Proof.lean ====
/-
  The certificate of the pairwise encode-and-pool kernel against its reference.

  The kernel stacks two pair encoders and runs them in one pipelined region over a grid of 2 × 24 points: row `q`
  of the grid accumulates, 16 rows of `X` at a time, the sum over all 384 rows `i` of `max_j enc_q (A_q[j], X[i])`
  (`A_0 = X`, `A_1 = Y`), and writes it into slab `q` of a [2, 4, 64] array; the lines after the region subtract the
  slabs and run the decoder.  The reference computes the two pooled arrays whole, subtracts them, sums over `i`, and
  runs the same decoder.  At the extended reals a sum may be taken tile by tile in any order, a change of float format
  is the identity, and — all inputs being finite under the precondition — the sum of the differences is the difference
  of the sums; so the results agree (`algebraic`).  The three frames are the generated frame runs of the two kernels
  and the reference's run with its result dropped; the ideal pass rewrote nothing, so `preserves` is trivial.
-/
import proofs.«159682_j1322849927392_1_alg».proof.Defs
import proofs.«159682_j1322849927392_1_alg».proof.Proof.Gen.Kernel
import proofs.«159682_j1322849927392_1_alg».proof.Proof.Gen.Kernel.Skeleton
import proofs.«159682_j1322849927392_1_alg».proof.Proof.Gen.Kernel.Launch
import proofs.«159682_j1322849927392_1_alg».proof.Proof.Gen.Kernel.Points
import proofs.«159682_j1322849927392_1_alg».proof.Proof.Gen.Kernel.Frame
import proofs.«159682_j1322849927392_1_alg».proof.Proof.Gen.KernelIdeal
import proofs.«159682_j1322849927392_1_alg».proof.Proof.Gen.KernelIdeal.Skeleton
import proofs.«159682_j1322849927392_1_alg».proof.Proof.Gen.KernelIdeal.Launch
import proofs.«159682_j1322849927392_1_alg».proof.Proof.Gen.KernelIdeal.Points
import proofs.«159682_j1322849927392_1_alg».proof.Proof.Gen.KernelIdeal.Frame
import proofs.«159682_j1322849927392_1_alg».proof.Proof.Gen.ReferenceIdeal
import proofs.«159682_j1322849927392_1_alg».proof.Proof.Gen.Pre_finite_inputs
import proofs.«159682_j1322849927392_1_alg».proof.Proof.Bridge
import Idealize.ShloMosaic.Adequacy
import Idealize.ShloMosaic.Init

noncomputable section

namespace Cert.Proof

open Idealize.ShloMosaic Idealize.SL.Sem

/-- The word-level kernel runs and keeps its arguments: its generated frame run. -/
theorem frame_k : Cert.frame_Kernel := fun m ρ _ => Cert.Kernel.Gen.frame m ρ

/-- The idealized kernel runs and keeps its arguments: its generated frame run. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the decoder of the same pooled
    difference. -/
theorem algebraic : Cert.algebraic_KernelIdeal_ReferenceIdeal := by
  intro m ρ m' ρ' hpre hagree
  refine ⟨fun c => Bridge.kernelResult m c, Bridge.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21⟩ := hagree c
  have e1 := Cert.ReferenceIdeal.Read.val_main_v84_eq (F := Ideal) m' c
  rw [a0, a1, a2, a3, a4, a5, a10, a11, a12, a13, a18, a19, a20, a21] at e1
  refine e1.trans ((Bridge.ref_result _ _ _ _ _ _ _ _ _ _ _ _ _ _).trans ?_)
  unfold Bridge.kernelResult
  exact congrArg (fun D => Cert.KernelIdeal.Tail.decoder (F := Ideal) D _ _ _ _) (Bridge.diff_eq m hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
